-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S128x64 : Shape := ⟨2, ![128, 64]⟩
abbrev S128 : Shape := ⟨1, ![128]⟩
abbrev S128x128 : Shape := ⟨2, ![128, 128]⟩
abbrev S16x128 : Shape := ⟨2, ![16, 128]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_arg13 : FVec F S16 .f32) (main_v48 : IVec S_ 1) (main_v49 : FVec F S16x128 .f32) (main_v50 : FVec F S16x128 .f32) : IVec S_ 1 :=
  let main_v51 : IVec S16x128 1 := cmpf .olt main_v49 main_v50
  let main_c_19 : IVec S_ 1 := constantI S_ 1 1#1
  let main_v52 : IVec S_ 1 := (fun x v => Host.reduce IntOp.andi x v reducesTo_S16x128_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : IVec S1x1600000 32 := (extractStridedSlice S1x1600000 ![1, 0] · slices_S2x1600000_S1x1600000_1_0) main_arg1
  let main_v60 : IVec S1600000 32 := shapeCast S1600000 main_v59 shapeCasts_S1x1600000_S1600000
  let main_c_22 : IVec S_ 32 := constantI S_ 32 0#32
  let main_v61 : IVec S1600000 32 := broadcastInDim S1600000 ![] bcast_S_S1600000 main_c_22
  let main_v62 : IVec S1600000 1 := cmpi .sge main_v60 main_v61
  let main_c_23 : IVec S_ 1 := constantI S_ 1 1#1
  let main_v63 : IVec S_ 1 := (fun x v => Host.reduce IntOp.andi x v reducesTo_S1600000_S_d0 h_S_) main_v62 main_c_23
  let main_v64 : IVec S_ 1 := andi main_v58 main_v63
  main_v64

def fn_part2 {F : FTy → Type} [FloatOps F] (main_arg1 : IVec S2x1600000 32) (main_arg9 : FVec F S128x128 .f32) (main_arg10 : FVec F S128 .f32) (main_arg11 : FVec F S128x128 .f32) (main_arg12 : FVec F S16x128 .f32) (main_arg13 : FVec F S16 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S16x128 .f32 := Host.absf main_arg12
  let main_cst_18 : FVec F S_ .f32 := constant S_ .f32 0x7F800000#32
  let main_v50 : FVec F S16x128 .f32 := broadcastInDim S16x128 ![] bcast_S_S16x128 main_cst_18
  fn_part3 (F := F) main_arg1 main_arg13 main_v48 main_v49 main_v50

def fn_part1 {F : FTy → Type} [FloatOps F] (main_arg1 : IVec S2x1600000 32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S16x128 .f32) (main_arg13 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S100000x64 .f32) (main_arg1 : IVec S2x1600000 32) (main_arg2 : IVec S100000 32) (main_arg3 : FVec F S128x64 .f32) (main_arg4 : FVec F S128 .f32) (main_arg5 : FVec F S128x64 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S16x128 .f32) (main_arg13 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S128x64 : Shape := ⟨2, ![128, 64]⟩
abbrev S128 : Shape := ⟨1, ![128]⟩
abbrev S128x128 : Shape := ⟨2, ![128, 128]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S100000x128 : Shape := ⟨2, ![100000, 128]⟩
abbrev S4000x64 : Shape := ⟨2, ![4000, 64]⟩
abbrev S4000x128 : Shape := ⟨2, ![4000, 128]⟩
abbrev S1x128 : Shape := ⟨2, ![1, 128]⟩
abbrev S1600000x128 : Shape := ⟨2, ![1600000, 128]⟩
abbrev S128x16 : Shape := ⟨2, ![128, 16]⟩
abbrev S25x1x4000 : Shape := ⟨3, ![25, 1, 4000]⟩
abbrev S1x1x4000 : Shape := ⟨3, ![1, 1, 4000]⟩
abbrev S128x1 : Shape := ⟨2, ![128, 1]⟩
abbrev S1x4000 : Shape := ⟨2, ![1, 4000]⟩
abbrev S128x4000 : Shape := ⟨2, ![128, 4000]⟩
abbrev S1x16 : Shape := ⟨2, ![1, 16]⟩

abbrev nBuf : Space → Nat
  | .hbm => 93
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S16x128, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000x64, .bf16⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .bf16⟩
  | .hbm, ⟨28, _⟩ => ⟨S_, .f32⟩
  | .hbm, ⟨29, _⟩ => ⟨S100000x64, .f32⟩
  | .hbm, ⟨30, _⟩ => ⟨S1600000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S100000x64, .f32⟩
  | .hbm, ⟨40, _⟩ => ⟨S64x128, .f32⟩
  | .hbm, ⟨41, _⟩ => ⟨S64x128, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S_, .f32⟩
  | .hbm, ⟨53, _⟩ => ⟨S100000x128, .f32⟩
  | .hbm, ⟨54, _⟩ => ⟨S1600000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S100000x128, .f32⟩
  | .hbm, ⟨64, _⟩ => ⟨S128x128, .f32⟩
  | .hbm, ⟨65, _⟩ => ⟨S128x128, .f32⟩
  | .hbm, ⟨66, _⟩ => ⟨S100000x128, .bf16⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .bf16⟩
  | .hbm, ⟨76, _⟩ => ⟨S_, .f32⟩
  | .hbm, ⟨77, _⟩ => ⟨S100000x128, .f32⟩
  | .hbm, ⟨78, _⟩ => ⟨S1600000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S100000x128, .f32⟩
  | .hbm, ⟨88, _⟩ => ⟨S128x128, .f32⟩
  | .hbm, ⟨89, _⟩ => ⟨S128x128, .f32⟩
  | .hbm, ⟨90, _⟩ => ⟨S128x16, .f32⟩
  | .hbm, ⟨91, _⟩ => ⟨S25x1x4000, .i32⟩
  | .hbm, ⟨92, _⟩ => ⟨S128x16, .f32⟩
  | .local _ .vmem, ⟨0, _⟩ => ⟨S4000x64, .f32⟩
  | .local _ .vmem, ⟨1, _⟩ => ⟨S4000x64, .f32⟩
  | .local _ .vmem, ⟨2, _⟩ => ⟨S4000x64, .bf16⟩
  | .local _ .vmem, ⟨3, _⟩ => ⟨S4000x64, .bf16⟩
  | .local _ .vmem, ⟨4, _⟩ => ⟨S64x128, .f32⟩
  | .local _ .vmem, ⟨5, _⟩ => ⟨S128, .f32⟩
  | .local _ .vmem, ⟨6, _⟩ => ⟨S64x128, .f32⟩
  | .local _ .vmem, ⟨7, _⟩ => ⟨S4000x128, .bf16⟩
  | .local _ .vmem, ⟨8, _⟩ => ⟨S4000x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .bf16⟩
  | .local _ .vmem, ⟨12, _⟩ => ⟨S4000x128, .bf16⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S4000x128, .bf16⟩
  | .local _ .vmem, ⟨17, _⟩ => ⟨S4000x128, .bf16⟩
  | .local _ .vmem, ⟨18, _⟩ => ⟨S4000x128, .f32⟩
  | .local _ .vmem, ⟨19, _⟩ => ⟨S4000x128, .f32⟩
  | .local _ .vmem, ⟨20, _⟩ => ⟨S4000x128, .bf16⟩
  | .local _ .vmem, ⟨21, _⟩ => ⟨S4000x128, .bf16⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S1x1x4000, .i32⟩
  | .local _ .vmem, ⟨26, _⟩ => ⟨S1x1x4000, .i32⟩
  | .local _ .vmem, ⟨27, _⟩ => ⟨S128x16, .f32⟩
  | .local _ .vmem, ⟨28, _⟩ => ⟨S16, .f32⟩
  | .local _ .vmem, ⟨29, _⟩ => ⟨S128x16, .f32⟩
  | .local _ .vmem, ⟨30, _⟩ => ⟨S128x128, .f32⟩
  | .local _ .vmem, ⟨31, _⟩ => ⟨S128x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_c_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_scratch0 : Ref sig .tc := ⟨.vmem, 30, rfl⟩
abbrev cc2_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem7_0 : DmaSem sig := 28
abbrev cc2_sem8_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_23 : BitVec 32 := 0#32
  let v48 : BitVec 1 := Scalar.cmpi .ne v47 c0_i32_23
  v48

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x4000 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S128x64_S64x128_1_0 : S128x64.Transposes [1, 0] S64x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  transposes_S128x128_S128x128_1_0 : S128x128.Transposes [1, 0] S128x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S16x128_S128x16_1_0 : S16x128.Transposes [1, 0] S128x16
  shapeCasts_S100000_S25x1x4000 : S100000.ShapeCasts S25x1x4000
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x4000 : S1x1x4000.ShapeCasts S1x4000
  iota_S128x1_d0_w32 : S128x1.Iotas .tc 32 [0]
  broadcasts_S1x4000_S128x4000 : S1x4000.Broadcasts S128x4000
  broadcasts_S128x1_S128x4000 : S128x1.Broadcasts S128x4000
  natLt_1_32 : 1 < 32
  reduces_S128x4000_S128 : S128x4000.Reduces [1] S128
  shapeCasts_S128_S128x1 : S128.ShapeCasts S128x1
  broadcasts_S128x1_S128x128 : S128x1.Broadcasts S128x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S16_S16_0 : ∀ a, (![0] : Fin 1 → Nat) a + S16.size a ≤ S16.size a
  h_S16 : 0 < S16.numel
  shapeCasts_S16_S1x16 : S16.ShapeCasts S1x16
  broadcasts_S1x16_S128x16 : S1x16.Broadcasts S128x16
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S128x4000_S4000x128_S128x128_1_0_0_1_n_n_wf : DotDims.WF S128x4000 S4000x128 S128x128 [1] [0] [0] [1] [] []
  dot_S128x128_S128x16_S128x16_1_0_0_1_n_n_wf : DotDims.WF S128x128 S128x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .bf16 = 32 ∨ (Rect.block (s := S100000x64) S4000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .bf16 = 32 ∨ (Rect.block (s := S100000x128) S4000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x4000.size a ≤ S25x1x4000.size a
  hwx2_5 : ∀ i : grid2.Coords, EltTy.bits .i32 = 32 ∨ (Rect.block (s := S25x1x4000) S1x1x4000.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x16.size a ≤ S128x16.size a
  hwx2_6 : ∀ i : grid2.Coords, EltTy.bits .f32 = 32 ∨ (Rect.block (s := S128x16) S128x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16.size a ≤ S16.size a
  hwx2_7 : ∀ i : grid2.Coords, EltTy.bits .f32 = 32 ∨ (Rect.block (s := S16) S16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x16.size a ≤ S128x16.size a
  hwx2_8 : ∀ i : grid2.Coords, EltTy.bits .f32 = 32 ∨ (Rect.block (s := S128x16) S128x16.size (cc2_transform_8 i) (hinb2_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S128x4000_S4000x128_S128x128_1_0_0_1_n_n : DotDims S128x4000 S4000x128 S128x128 where
  lhsContracting := [1]
  rhsContracting := [0]
  lhsNonContracting := [0]
  rhsNonContracting := [1]
  lhsBatch := []
  rhsBatch := []
  wf := dot_S128x4000_S4000x128_S128x128_1_0_0_1_n_n_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

abbrev win0_0 : Pipeline.Window sig grid0 :=
  Pipeline.Window.ofSpec (Memref.whole main_v20) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x1x4000.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v61) S128x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S128x16.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S128x64 : Shape := ⟨2, ![128, 64]⟩
abbrev S128 : Shape := ⟨1, ![128]⟩
abbrev S128x128 : Shape := ⟨2, ![128, 128]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩
abbrev S128x1 : Shape := ⟨2, ![128, 1]⟩
abbrev S128x16 : Shape := ⟨2, ![128, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S16x128, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S64x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S64x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S128x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S128x128, .f32⟩
  | .hbm, ⟨89, _⟩ => ⟨S100000x1, .i32⟩
  | .hbm, ⟨90, _⟩ => ⟨S128x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S128, .f32⟩
  | .hbm, ⟨95, _⟩ => ⟨S100000x1, .i32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128x1, .f32⟩
  | .hbm, ⟨101, _⟩ => ⟨S128x128, .f32⟩
  | .hbm, ⟨102, _⟩ => ⟨S128x128, .f32⟩
  | .hbm, ⟨103, _⟩ => ⟨S128x16, .f32⟩
  | .hbm, ⟨104, _⟩ => ⟨S128x16, .f32⟩
  | .hbm, ⟨105, _⟩ => ⟨S1x16, .f32⟩
  | .hbm, ⟨106, _⟩ => ⟨S128x16, .f32⟩
  | .hbm, ⟨107, _⟩ => ⟨S128x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_c_4 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S_S128x128 : S_.BroadcastsInDim S128x128 (![] : Fin 0 → Fin S128x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S16x128_S128x16_1_0 : S16x128.Transposes [1, 0] S128x16
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x16_S128x16_1_0_0_1_n_n_wf : DotDims.WF S128x128 S128x16 S128x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

class Facts : Prop extends Facts₀ where

variable [Facts]
-- ==== Proof.K.D0.lean ====
/-
  Region 0 (the first graph-convolution layer's linear maps): the blocks its windows hold at a grid point and
  what the body leaves in them.  Point t of the 25 works on rows [4000 t, 4000 t + 4000) of the aggregated
  neighbour features (window 0) and of the node features (window 1); the two transposed weight matrices and the
  bias (windows 2, 4, 3) are whole at every point; the output block (window 5) is the body's one store, the
  payload of the five loaded blocks.
-/
import proofs.«419596_j46471546143165_2_alg».proof.Proof.Gen.Kernel.Launch
import proofs.«419596_j46471546143165_2_alg».proof.Proof.Gen.Kernel.Skeleton
import proofs.«419596_j46471546143165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangle of the output's staging buffer. -/
abbrev r0_out : Rect S4000x128 := Rect.unit (s := S4000x128) ![0, 0] S4000x128.size inb_S4000x128_S4000x128_0_0

/-- What the body leaves in the output window's buffer: its one store, over the whole block, of the payload of
    the loaded blocks (aggregate rows, feature rows, neighbour weights, bias, root weights). -/
def out0_5 (x0 : Vec F S4000x64 .f32) (x1 : Vec F S4000x64 .bf16) (x2 : Vec F S64x128 .f32) (x3 : Vec F S128 .f32)
    (x4 : Vec F S64x128 .f32) : Vec F S4000x128 .bf16 :=
  View.canon [⟨r0_out, k0_pay1 x0 x1 x2 x4 x3⟩]

/-- The proof data of region 0 on core c: arrays as found; inputs keep their blocks; the output block is out0_5
    of the input blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

end Cert.Kernel.Hand

end
-- ==== Proof.K.R0.lean ====
import proofs.«419596_j46471546143165_2_alg».proof.Proof.Gen.Kernel.Launch
import proofs.«419596_j46471546143165_2_alg».proof.Proof.Gen.Kernel.Skeleton
import proofs.«419596_j46471546143165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.K.D0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body runs

An input window whose body leaves its block in place holds, at every point, the block a fetch there would
bring: fetched at the point, it is the block; not fetched, the block index has not moved since the point
before, and the buffer still holds that point's block, which is this one's.  Windows 0 and 1 are fetched at
every point; windows 2, 3, 4 have constant index maps and are fetched at the first point only.  One argument
serves all five. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The whole-block rectangle

A load through the rectangle of a buffer's own sizes at zero offsets reads the buffer's contents, and the one
store through it covers the buffer. -/

/-- The contents read through the full rectangle at zero offsets are the contents. -/
private theorem ld_full {S : Shape} {e : EltTy} {off : Fin S.rank → Nat} (h : off = fun _ => 0)
    (inb : ∀ a, off a + S.size a ≤ S.size a) (X : S.Idx → Elt F e) : View.ld X (Rect.unit off S.size inb) = X := by
  subst h; funext x; show X ((Rect.whole S).emb x) = X x; rw [Rect.emb_whole_apply]

/-- So a load through it of a buffer reads what the buffer's view reads. -/
private theorem readAt_full {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  ld_full h inb _

private theorem zeros2 : (![0, 0] : Fin 2 → Nat) = fun _ => 0 := funext fun a => by fin_cases a <;> rfl
private theorem zeros1 : (![0] : Fin 1 → Nat) = fun _ => 0 := funext fun a => by fin_cases a; rfl

/-- The output's one store covers its buffer. -/
theorem cover0_5 (p0 : Vec F S4000x128 .bf16) (y : S4000x128.Idx) :
    ∃ pc ∈ ([⟨r0_out, p0⟩] : List (View.Piece (Elt F) S4000x128 .bf16)), y ∈ pc.1.set :=
  View.cover_of_tiled [⟨r0_out, p0⟩] S4000x128.size (by rfl) y

/-! ## The body's triple -/

set_option maxHeartbeats 1000000 in
/-- The kernel body on whole staging memrefs, the five inputs' at read contents and the output's at anything,
    runs to the continuation holding the inputs' as they were and the output's at out0_5 of the inputs'. -/
theorem sound_kernel0 (c : Dev nD) (E : Set ℕ) (i : grid0.Coords)
    (arg1 : Memref sig .tc .vmem S4000x64 .f32) (harg1 : arg1.IsWhole)
    (arg2 : Memref sig .tc .vmem S4000x64 .bf16) (harg2 : arg2.IsWhole)
    (arg3 : Memref sig .tc .vmem S64x128 .f32) (harg3 : arg3.IsWhole)
    (arg4 : Memref sig .tc .vmem S128 .f32) (harg4 : arg4.IsWhole)
    (arg5 : Memref sig .tc .vmem S64x128 .f32) (harg5 : arg5.IsWhole)
    (arg6 : Memref sig .tc .vmem S4000x128 .bf16) (harg6 : arg6.IsWhole)
    (x0 : Vec F S4000x64 .f32) (x1 : Vec F S4000x64 .bf16) (x2 : Vec F S64x128 .f32) (x3 : Vec F S128 .f32)
    (x4 : Vec F S64x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0_5 _)]
  unfold out0_5
  rw [readAt_full arg1.view f0 zeros2, readAt_full arg2.view f1 zeros2, readAt_full arg3.view f2 zeros2,
    readAt_full arg5.view f4 zeros2, readAt_full arg4.view f3 zeros1]

/-! ## The body obligation, at a generic point -/

/-- What the body is called with at point t: the invariant, what the core owes, and each window's current
    staging buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t)
    (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.D1.lean ====
/-
  Region 1 (the second graph-convolution layer's linear maps): the blocks its windows hold at a grid point and
  what the body leaves in them.  Point t of the 25 works on rows [4000 t, 4000 t + 4000) of the aggregated
  neighbour features (window 0) and of the node features (window 1); the two transposed weight matrices and the
  bias (windows 2, 4, 3) are whole at every point; the output block (window 5) is the body's one store, the
  payload of the five loaded blocks.
-/
import proofs.«419596_j46471546143165_2_alg».proof.Proof.Gen.Kernel.Launch
import proofs.«419596_j46471546143165_2_alg».proof.Proof.Gen.Kernel.Skeleton
import proofs.«419596_j46471546143165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangle of the output's staging buffer. -/
abbrev r1_out : Rect S4000x128 := Rect.unit (s := S4000x128) ![0, 0] S4000x128.size inb_S4000x128_S4000x128_0_0

/-- What the body leaves in the output window's buffer: its one store, over the whole block, of the payload of
    the loaded blocks (aggregate rows, feature rows, neighbour weights, bias, root weights). -/
def out1_5 (x0 : Vec F S4000x128 .f32) (x1 : Vec F S4000x128 .bf16) (x2 : Vec F S128x128 .f32) (x3 : Vec F S128 .f32)
    (x4 : Vec F S128x128 .f32) : Vec F S4000x128 .bf16 :=
  View.canon [⟨r1_out, k1_pay1 x0 x1 x2 x4 x3⟩]

/-- The proof data of region 0 on core c: arrays as found; inputs keep their blocks; the output block is out1_5
    of the input blocks; the invariant is the scoped rest and the generator register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

end Cert.Kernel.Hand

end
-- ==== Proof.K.R1.lean ====
import proofs.«419596_j46471546143165_2_alg».proof.Proof.Gen.Kernel.Launch
import proofs.«419596_j46471546143165_2_alg».proof.Proof.Gen.Kernel.Skeleton
import proofs.«419596_j46471546143165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.K.D1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body runs

An input window whose body leaves its block in place holds, at every point, the block a fetch there would
bring: fetched at the point, it is the block; not fetched, the block index has not moved since the point
before, and the buffer still holds that point's block, which is this one's.  Windows 0 and 1 are fetched at
every point; windows 2, 3, 4 have constant index maps and are fetched at the first point only.  One argument
serves all five. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The whole-block rectangle

A load through the rectangle of a buffer's own sizes at zero offsets reads the buffer's contents, and the one
store through it covers the buffer. -/

/-- The contents read through the full rectangle at zero offsets are the contents. -/
private theorem ld_full {S : Shape} {e : EltTy} {off : Fin S.rank → Nat} (h : off = fun _ => 0)
    (inb : ∀ a, off a + S.size a ≤ S.size a) (X : S.Idx → Elt F e) : View.ld X (Rect.unit off S.size inb) = X := by
  subst h; funext x; show X ((Rect.whole S).emb x) = X x; rw [Rect.emb_whole_apply]

/-- So a load through it of a buffer reads what the buffer's view reads. -/
private theorem readAt_full {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  ld_full h inb _

private theorem zeros2 : (![0, 0] : Fin 2 → Nat) = fun _ => 0 := funext fun a => by fin_cases a <;> rfl
private theorem zeros1 : (![0] : Fin 1 → Nat) = fun _ => 0 := funext fun a => by fin_cases a; rfl

/-- The output's one store covers its buffer. -/
theorem cover1_5 (p0 : Vec F S4000x128 .bf16) (y : S4000x128.Idx) :
    ∃ pc ∈ ([⟨r1_out, p0⟩] : List (View.Piece (Elt F) S4000x128 .bf16)), y ∈ pc.1.set :=
  View.cover_of_tiled [⟨r1_out, p0⟩] S4000x128.size (by rfl) y

/-! ## The body's triple -/

set_option maxHeartbeats 1000000 in
/-- The kernel body on whole staging memrefs, the five inputs' at read contents and the output's at anything,
    runs to the continuation holding the inputs' as they were and the output's at out1_5 of the inputs'. -/
theorem sound_kernel1 (c : Dev nD) (E : Set ℕ) (i : grid1.Coords)
    (arg1 : Memref sig .tc .vmem S4000x128 .f32) (harg1 : arg1.IsWhole)
    (arg2 : Memref sig .tc .vmem S4000x128 .bf16) (harg2 : arg2.IsWhole)
    (arg3 : Memref sig .tc .vmem S128x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S4000x128 .bf16) (harg6 : arg6.IsWhole)
    (x0 : Vec F S4000x128 .f32) (x1 : Vec F S4000x128 .bf16) (x2 : Vec F S128x128 .f32) (x3 : Vec F S128 .f32)
    (x4 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_5 _)]
  unfold out1_5
  rw [readAt_full arg1.view f0 zeros2, readAt_full arg2.view f1 zeros2, readAt_full arg3.view f2 zeros2,
    readAt_full arg5.view f4 zeros2, readAt_full arg4.view f3 zeros1]

/-! ## The body obligation, at a generic point -/

/-- What the body is called with at point t: the invariant, what the core owes, and each window's current
    staging buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the kernel's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t)
    (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.D2.lean ====
/-
  Region 2 (the third layer's linear maps fused with mean pooling and the classifier): the blocks its windows hold
  at a grid point, and the two running sums the body carries in its scratch buffers from point to point.  Point t of
  the 25 works on rows [4000 t, 4000 t + 4000) of the aggregated features (window 0), the node features (window 1)
  and the graph ids (window 5); the weights and biases (windows 2, 3, 4, 6, 7) are whole at every point.  After
  point n the first scratch holds the per-graph feature sums over the rows of points 0..n, the second the per-graph
  row counts; the last point stores the classifier's output block (window 8) from them.
-/
import proofs.«419596_j46471546143165_2_alg».proof.Proof.Gen.Kernel.Launch
import proofs.«419596_j46471546143165_2_alg».proof.Proof.Gen.Kernel.Skeleton
import proofs.«419596_j46471546143165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first and the last grid point. -/
abbrev tFirst2 : Fin cfg2.N := ⟨0, by decide⟩
abbrev tLast2 : Fin cfg2.N := ⟨24, by decide⟩

/-- The per-graph feature sums the body adds to at point t, from what the first scratch held (prev): the payload
    of the point's blocks (aggregate rows, feature rows, neighbour weights, root weights, bias, graph ids). -/
def sumStep (c : Dev nD) (t : Fin cfg2.N) (prev : Vec F S128x128 .f32) : Vec F S128x128 .f32 :=
  k2_pay1 (k2_pay8 (iblk2 V c 0 t) (iblk2 V c 1 t) (iblk2 V c 2 t) (iblk2 V c 4 t) (iblk2 V c 3 t) (iblk2 V c 5 t) prev)

/-- The per-graph row counts the body adds to at point t, from what the second scratch held (prev). -/
def cntStep (c : Dev nD) (t : Fin cfg2.N) (prev : Vec F S128x1 .f32) : Vec F S128x1 .f32 :=
  k2_pay2 (k2_pay7 (iblk2 V c 5 t)) prev

/-- The first scratch after point n: point 0 starts from the zero fill, every later point from the point before. -/
def sumAt (c : Dev nD) : ℕ → Vec F S128x128 .f32
  | 0 => sumStep V c tFirst2 (k2_pay4 (F := F))
  | n + 1 => if h : n + 1 < cfg2.N then sumStep V c ⟨n + 1, h⟩ (sumAt c n) else sumAt c n

/-- The second scratch after point n. -/
def cntAt (c : Dev nD) : ℕ → Vec F S128x1 .f32
  | 0 => cntStep V c tFirst2 (k2_pay5 (F := F))
  | n + 1 => if h : n + 1 < cfg2.N then cntStep V c ⟨n + 1, h⟩ (cntAt c n) else cntAt c n

/-- The whole-block rectangle of the output's staging buffer. -/
abbrev r2_out : Rect S128x16 := Rect.unit (s := S128x16) ![0, 0] S128x16.size inb_S128x16_S128x16_0_0

/-- What the last point leaves in the output window's buffer: its one store, over the whole block, of the
    classifier's payload of the two scratch sums, the classifier's weights and its bias. -/
def out2_8 (c : Dev nD) : Vec F S128x16 .f32 :=
  View.canon [⟨r2_out, k2_pay3 (sumAt V c 24) (cntAt V c 24) (iblk2 V c 6 tLast2) (iblk2 V c 7 tLast2)⟩]

end Cert.Kernel.Hand

end
-- ==== Proof.K.R2.lean ====
/-
  Region 2 (the third layer's linear maps fused with mean pooling and the classifier): the region's proof data and
  its body obligation.  The body keeps two running sums in scratch buffers from grid point to grid point (sumAt and
  cntAt): at the first point it fills both with their starting values, at every point it stores each back with the
  point's contribution added, and at the last point it stores into the output window the block computed from the
  two sums, the classifier's weights and its bias.  Three control cases, decided by the point's position: first,
  middle, last.  Each case is one run of the body on whole staging buffers at named contents; the invariant carries
  the two scratch buffers at the sums the point before left, and every other scoped buffer and the generator
  register at anything.
-/
import proofs.«419596_j46471546143165_2_alg».proof.Proof.Gen.Kernel.Launch
import proofs.«419596_j46471546143165_2_alg».proof.Proof.Gen.Kernel.Skeleton
import proofs.«419596_j46471546143165_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic
import proofs.«419596_j46471546143165_2_alg».proof.Proof.K.D2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's conditions, decided over the grid -/

/-- The first condition of the body (is this the first grid point?), from the grid coordinates. -/
abbrev cond2_0 (i : grid2.Coords) : Prop := (Scalar.cmpi .ne (Scalar.extui (Scalar.cmpi .eq (BitVec.ofNat 32 (i 0).val) 0#32)) 0#32) = 1#1

/-- It holds at point 0 only. -/
theorem hcond2_0 : ∀ t : Fin cfg2.N, cond2_0 (grid2.coords t) ↔ t.val = 0 :=
  (by decide +kernel : ∀ t : Fin grid2.N, cond2_0 (grid2.coords t) ↔ t.val = 0)
/-- The second condition (is this the last grid point?) holds at point 24 only. -/
theorem hcond2_1 : ∀ t : Fin cfg2.N, k2_cond2 (grid2.coords t) = 1#1 ↔ t.val = 24 :=
  (by decide +kernel : ∀ t : Fin grid2.N, k2_cond2 (grid2.coords t) = 1#1 ↔ t.val = 24)

/-! ## Whole-block loads and stores -/

theorem zero2_r1 : (![0] : Fin 1 → ℕ) = fun _ => 0 := by funext a; fin_cases a; rfl
theorem zero2_r2 : (![0, 0] : Fin 2 → ℕ) = fun _ => 0 := by funext a; fin_cases a <;> rfl
theorem zero2_r3 : (![0, 0, 0] : Fin 3 → ℕ) = fun _ => 0 := by funext a; fin_cases a <;> rfl

/-- After a last store over the whole block a buffer reads as that store's payload, whatever was stored before. -/
theorem read_last_store2 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  funext y
  rw [View.read_writes_apply_eq_canon v f y _ ⟨_, List.mem_cons_self, View.mem_set_unit_zero h inb y⟩,
    View.canon_cons_unit_zero h inb]

set_option maxHeartbeats 1000000 in
/-- The body at the first point: both scratch buffers, found at anything, are filled with the starting values, then read and stored
    back with the point's contribution added; the output's buffer is left as found. -/
theorem run2_A (c : Dev nD) (i : grid2.Coords) (arg1 : Memref sig .tc .vmem S4000x128 .f32) (harg1 : arg1.IsWhole) (arg2 : Memref sig .tc .vmem S4000x128 .bf16) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S1x1x4000 .i32) (harg6 : arg6.IsWhole) (arg7 : Memref sig .tc .vmem S128x16 .f32) (harg7 : arg7.IsWhole) (arg8 : Memref sig .tc .vmem S16 .f32) (harg8 : arg8.IsWhole) (arg9 : Memref sig .tc .vmem S128x16 .f32) (harg9 : arg9.IsWhole) (arg10 : Memref sig .tc .vmem S128x128 .f32) (harg10 : arg10.IsWhole) (arg11 : Memref sig .tc .vmem S128x1 .f32) (harg11 : arg11.IsWhole) (hc0 : cond2_0 i) (hc1 : ¬k2_cond2 i = 1#1)
    (x0 : Vec F S4000x128 .f32) (x1 : Vec F S4000x128 .bf16) (x2 : Vec F S128x128 .f32) (x3 : Vec F S128 .f32) (x4 : Vec F S128x128 .f32) (x5 : Vec F S1x1x4000 .i32) (x6 : Vec F S128x16 .f32) (x7 : Vec F S16 .f32) (xi8 : Vec F S128x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8
            ∗ owns (c : Thread nD τ) arg10 fullShare (k2_pay1 (k2_pay8 x0 x1 x2 x4 x3 x5 (k2_pay4 (F := F))))
            ∗ owns (c : Thread nD τ) arg11 fullShare (k2_pay2 (k2_pay7 x5) (k2_pay5 (F := F)))) -∗ K ⟨⟩))
      ⊢ wp frame (wpE (defs₀ (F := F)) Variants.none c none) E (cc2__fused_l3_pool_kernel i arg1 harg1 arg2 harg2 arg3 harg3 arg4 harg4 arg5 harg5 arg6 harg6 arg7 harg7 arg8 harg8 arg9 harg9 arg10 harg10 arg11 harg11) K := by
  simp only [cc2__fused_l3_pool_kernel_eq_skeleton]; unfold cc2__fused_l3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HS0]
  · iexists _; isplitr
    swap; · iexact HS0
    ipureintro
    rw [read_last_store2 _ _ zero2_r2]; dsimp only
    sl_unfold_words
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]
  · iexists _; isplitr
    swap; · iexact HS1
    ipureintro
    rw [read_last_store2 _ _ zero2_r2]; dsimp only
    sl_unfold_words
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]

set_option maxHeartbeats 1000000 in
/-- The body at a point that is neither the first nor the last: both scratch buffers are read and stored back
    with the point's contribution added; the output's buffer is left as found. -/
theorem run2_B (c : Dev nD) (i : grid2.Coords) (arg1 : Memref sig .tc .vmem S4000x128 .f32) (harg1 : arg1.IsWhole) (arg2 : Memref sig .tc .vmem S4000x128 .bf16) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S1x1x4000 .i32) (harg6 : arg6.IsWhole) (arg7 : Memref sig .tc .vmem S128x16 .f32) (harg7 : arg7.IsWhole) (arg8 : Memref sig .tc .vmem S16 .f32) (harg8 : arg8.IsWhole) (arg9 : Memref sig .tc .vmem S128x16 .f32) (harg9 : arg9.IsWhole) (arg10 : Memref sig .tc .vmem S128x128 .f32) (harg10 : arg10.IsWhole) (arg11 : Memref sig .tc .vmem S128x1 .f32) (harg11 : arg11.IsWhole) (hc0 : ¬cond2_0 i) (hc1 : ¬k2_cond2 i = 1#1)
    (x0 : Vec F S4000x128 .f32) (x1 : Vec F S4000x128 .bf16) (x2 : Vec F S128x128 .f32) (x3 : Vec F S128 .f32) (x4 : Vec F S128x128 .f32) (x5 : Vec F S1x1x4000 .i32) (x6 : Vec F S128x16 .f32) (x7 : Vec F S16 .f32) (xi8 : Vec F S128x16 .f32) (xs0 : Vec F S128x128 .f32) (xs1 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8
            ∗ owns (c : Thread nD τ) arg10 fullShare (k2_pay1 (k2_pay8 x0 x1 x2 x4 x3 x5 xs0))
            ∗ owns (c : Thread nD τ) arg11 fullShare (k2_pay2 (k2_pay7 x5) xs1)) -∗ K ⟨⟩))
      ⊢ wp frame (wpE (defs₀ (F := F)) Variants.none c none) E (cc2__fused_l3_pool_kernel i arg1 harg1 arg2 harg2 arg3 harg3 arg4 harg4 arg5 harg5 arg6 harg6 arg7 harg7 arg8 harg8 arg9 harg9 arg10 harg10 arg11 harg11) K := by
  simp only [cc2__fused_l3_pool_kernel_eq_skeleton]; unfold cc2__fused_l3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hfs0; obtain rfl := harg11.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HS0]
  · iexists _; isplitr
    swap; · iexact HS0
    ipureintro
    rw [read_last_store2 _ _ zero2_r2]; dsimp only
    simp only [View.readAt_eq_ld, Memref.IsWhole.read_unread, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]
  · iexists _; isplitr
    swap; · iexact HS1
    ipureintro
    rw [read_last_store2 _ _ zero2_r2]; dsimp only
    simp only [View.readAt_eq_ld, Memref.IsWhole.read_unread, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]

set_option maxHeartbeats 1000000 in
/-- The body at the last point: both scratch buffers are read and stored back with the point's contribution
    added, then read again, and the classifier's payload of them is stored over the whole output block. -/
theorem run2_C (c : Dev nD) (i : grid2.Coords) (arg1 : Memref sig .tc .vmem S4000x128 .f32) (harg1 : arg1.IsWhole) (arg2 : Memref sig .tc .vmem S4000x128 .bf16) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S1x1x4000 .i32) (harg6 : arg6.IsWhole) (arg7 : Memref sig .tc .vmem S128x16 .f32) (harg7 : arg7.IsWhole) (arg8 : Memref sig .tc .vmem S16 .f32) (harg8 : arg8.IsWhole) (arg9 : Memref sig .tc .vmem S128x16 .f32) (harg9 : arg9.IsWhole) (arg10 : Memref sig .tc .vmem S128x128 .f32) (harg10 : arg10.IsWhole) (arg11 : Memref sig .tc .vmem S128x1 .f32) (harg11 : arg11.IsWhole) (hc0 : ¬cond2_0 i) (hc1 : k2_cond2 i = 1#1)
    (x0 : Vec F S4000x128 .f32) (x1 : Vec F S4000x128 .bf16) (x2 : Vec F S128x128 .f32) (x3 : Vec F S128 .f32) (x4 : Vec F S128x128 .f32) (x5 : Vec F S1x1x4000 .i32) (x6 : Vec F S128x16 .f32) (x7 : Vec F S16 .f32) (xs0 : Vec F S128x128 .f32) (xs1 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k2_pay3 (k2_pay1 (k2_pay8 x0 x1 x2 x4 x3 x5 xs0)) (k2_pay2 (k2_pay7 x5) xs1) x6 x7)
            ∗ owns (c : Thread nD τ) arg10 fullShare (k2_pay1 (k2_pay8 x0 x1 x2 x4 x3 x5 xs0))
            ∗ owns (c : Thread nD τ) arg11 fullShare (k2_pay2 (k2_pay7 x5) xs1)) -∗ K ⟨⟩))
      ⊢ wp frame (wpE (defs₀ (F := F)) Variants.none c none) E (cc2__fused_l3_pool_kernel i arg1 harg1 arg2 harg2 arg3 harg3 arg4 harg4 arg5 harg5 arg6 harg6 arg7 harg7 arg8 harg8 arg9 harg9 arg10 harg10 arg11 harg11) K := by
  simp only [cc2__fused_l3_pool_kernel_eq_skeleton]; unfold cc2__fused_l3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg10.eq_unread hfs0; obtain rfl := harg11.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_words
    rw [read_last_store2 _ _ zero2_r2]; dsimp only
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]
  isplitl [HS0]
  · iexists _; isplitr
    swap; · iexact HS0
    ipureintro
    sl_unfold_words
    rw [read_last_store2 _ _ zero2_r2]; dsimp only
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]
  · iexists _; isplitr
    swap; · iexact HS1
    ipureintro
    sl_unfold_words
    rw [read_last_store2 _ _ zero2_r2]; dsimp only
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]

/-! ## The windows' current buffers and the two scratch buffers -/

/-- Each window's current staging memref at point t, as the pipeline passes it to the body, and its wholeness. -/
abbrev ms2_0 (t : Fin cfg2.N) : Memref sig .tc .vmem S4000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x4000 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x16 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S16 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S128x16 .f32 := win2_8.stage (cfg2.slots t 8)
abbrev hs2_8 (t : Fin cfg2.N) : (ms2_8 t).IsWhole := hstage2_8 ((cfg2.slots t 8).cast nbuf2_8)
/-- The two scratch buffers, whole, passed beside the windows. -/
abbrev scM2_0 : Memref sig .tc .vmem S128x128 .f32 := Memref.whole cc2_scratch0
abbrev scM2_1 : Memref sig .tc .vmem S128x1 .f32 := Memref.whole cc2_scratch1

/-! ## Where the output window is idle -/

/-- Away from the last point the output window is idle, -/
theorem idleAt2_8 : ∀ t : Fin cfg2.N, ¬k2_cond2 (grid2.coords t) = 1#1 → cfg2.idle 8 (grid2.coords t) = true := by decide +kernel
/-- and is not written back; -/
theorem noFlush2_8 : ∀ t : Fin cfg2.N, ¬k2_cond2 (grid2.coords t) = 1#1 → (cfg2.win 8).flush t = false := by decide +kernel
/-- at the last point it is live. -/
theorem liveAt2_8 : ∀ t : Fin cfg2.N, k2_cond2 (grid2.coords t) = 1#1 → cfg2.idle 8 (grid2.coords t) = false := by decide +kernel

/-! ## The running sums, point by point -/

theorem sumAt_first (c : Dev nD) (t : Fin cfg2.N) (h : t.val = 0) : sumAt V c t.val = sumStep V c t (k2_pay4 (F := F)) := by
  obtain ⟨n, hn⟩ := t; dsimp only at h; subst h; rfl
theorem cntAt_first (c : Dev nD) (t : Fin cfg2.N) (h : t.val = 0) : cntAt V c t.val = cntStep V c t (k2_pay5 (F := F)) := by
  obtain ⟨n, hn⟩ := t; dsimp only at h; subst h; rfl
theorem sumAt_next (c : Dev nD) (t : Fin cfg2.N) (h : t.val ≠ 0) : sumAt V c t.val = sumStep V c t (sumAt V c (t.val - 1)) := by
  obtain ⟨n, hn⟩ := t
  cases n with
  | zero => exact absurd rfl h
  | succ n => exact dif_pos hn
theorem cntAt_next (c : Dev nD) (t : Fin cfg2.N) (h : t.val ≠ 0) : cntAt V c t.val = cntStep V c t (cntAt V c (t.val - 1)) := by
  obtain ⟨n, hn⟩ := t
  cases n with
  | zero => exact absurd rfl h
  | succ n => exact dif_pos hn

/-- At the last point the output block is the classifier's payload of the two sums as that point leaves them. -/
theorem out2_8_last (c : Dev nD) (t : Fin cfg2.N) (h : t.val = 24) :
    out2_8 V c = k2_pay3 (sumAt V c t.val) (cntAt V c t.val) (iblk2 V c 6 t) (iblk2 V c 7 t) := by
  obtain ⟨n, hn⟩ := t; dsimp only at h; subst h
  unfold out2_8; exact View.canon_unit_zero zero2_r2 _ _

/-! ## The invariant -/

/-- The core's scoped buffers other than this region's staging buffers and its two scratch buffers (the other two
    regions' staging buffers), each at some contents. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f))

/-- The region invariant before position n: the other scoped buffers and the generator register at anything
    throughout; the two scratch buffers at anything before the first point, and afterwards at the running sums the
    point before left. -/
def PhiS2 (c : Dev nD) : (n : ℕ) → sProp 𝕄
  | 0 => iprop(rest2 (F := F) c ∗ (∃ d, owns (c : Thread nD τ) scM2_0 fullShare d) ∗ (∃ d, owns (c : Thread nD τ) scM2_1 fullShare d) ∗ (∃ r, prngReg c r))
  | n + 1 => iprop(rest2 (F := F) c ∗ owns (c : Thread nD τ) scM2_0 fullShare (sumAt V c n)
      ∗ owns (c : Thread nD τ) scM2_1 fullShare (cntAt V c n) ∗ (∃ r, prngReg c r))

theorem PhiS2_zero (c : Dev nD) (n : ℕ) (hz : n = 0) :
    PhiS2 V c n = iprop(rest2 (F := F) c ∗ (∃ d, owns (c : Thread nD τ) scM2_0 fullShare d) ∗ (∃ d, owns (c : Thread nD τ) scM2_1 fullShare d) ∗ (∃ r, prngReg c r)) := by
  subst hz; rfl
theorem PhiS2_succ (c : Dev nD) (n : ℕ) :
    PhiS2 V c (n + 1) = iprop(rest2 (F := F) c ∗ owns (c : Thread nD τ) scM2_0 fullShare (sumAt V c n)
      ∗ owns (c : Thread nD τ) scM2_1 fullShare (cntAt V c n) ∗ (∃ r, prngReg c r)) := rfl
theorem PhiS2_pos (c : Dev nD) (n : ℕ) (hz : n ≠ 0) :
    PhiS2 V c n = iprop(rest2 (F := F) c ∗ owns (c : Thread nD τ) scM2_0 fullShare (sumAt V c (n - 1))
      ∗ owns (c : Thread nD τ) scM2_1 fullShare (cntAt V c (n - 1)) ∗ (∃ r, prngReg c r)) := by
  cases n with
  | zero => exact absurd rfl hz
  | succ n => rfl

/-- What the launch hands the region, with the two scratch buffers set apart. -/
theorem PhiA2_split (c : Dev nD) :
    (Pipeline.ΦA spec2 c : sProp 𝕄) ⊢ iprop(rest2 (F := F) c ∗ (∃ d, owns (c : Thread nD τ) scM2_0 fullShare d) ∗ (∃ d, owns (c : Thread nD τ) scM2_1 fullShare d) ∗ (∃ r, prngReg c r)) := by
  unfold Pipeline.ΦA; rw [scopedRest2_eq]; unfold rest2
  simp only [owns_whole]
  iintro ⟨⟨H1, H2, H3, H4, H5, H6, H7, H8, H9, H10, H11, H12, H13, H14, H15, H16, H17, H18, HS0, HS1⟩, Hg⟩
  isplitl [H1 H2 H3 H4 H5 H6 H7 H8 H9 H10 H11 H12 H13 H14 H15 H16 H17 H18]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [HS0]; · iexact HS0
  isplitl [HS1]; · iexact HS1
  iexact Hg

/-- And back. -/
theorem PhiA2_join (c : Dev nD) :
    iprop(rest2 (F := F) c ∗ (∃ d, owns (c : Thread nD τ) scM2_0 fullShare d) ∗ (∃ d, owns (c : Thread nD τ) scM2_1 fullShare d) ∗ (∃ r, prngReg c r)) ⊢ (Pipeline.ΦA spec2 c : sProp 𝕄) := by
  unfold Pipeline.ΦA; rw [scopedRest2_eq]; unfold rest2
  simp only [owns_whole]
  iintro ⟨⟨H1, H2, H3, H4, H5, H6, H7, H8, H9, H10, H11, H12, H13, H14, H15, H16, H17, H18⟩, HS0, HS1, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    iexact HS1
  iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 V c
  Φ t := PhiS2 V c t.val
  q _ := fullShare
  owed _ := 0

theorem A_eq2 (c : Dev nD) (w : Fin cfg2.W) : (dat2 V c).A w = V c (Pipeline.arrRef spec2 w) := by
  dsimp only [dat2]
theorem after2_8 (c : Dev nD) (t : Fin cfg2.N) : (dat2 V c).after 8 t = out2_8 V c := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-- What the body leaves in each input's buffer: the block, in place. -/
theorem leaves2_0 (c : Dev nD) (t : Fin cfg2.N) :
    (dat2 V c).leavesExact 0 t = owns (c : Thread nD τ) (ms2_0 t) fullShare (iblk2 V c 0 t) := by
  rw [← after2_0 V c t]
theorem leaves2_1 (c : Dev nD) (t : Fin cfg2.N) :
    (dat2 V c).leavesExact 1 t = owns (c : Thread nD τ) (ms2_1 t) fullShare (iblk2 V c 1 t) := by
  rw [← after2_1 V c t]
theorem leaves2_2 (c : Dev nD) (t : Fin cfg2.N) :
    (dat2 V c).leavesExact 2 t = owns (c : Thread nD τ) (ms2_2 t) fullShare (iblk2 V c 2 t) := by
  rw [← after2_2 V c t]
theorem leaves2_3 (c : Dev nD) (t : Fin cfg2.N) :
    (dat2 V c).leavesExact 3 t = owns (c : Thread nD τ) (ms2_3 t) fullShare (iblk2 V c 3 t) := by
  rw [← after2_3 V c t]
theorem leaves2_4 (c : Dev nD) (t : Fin cfg2.N) :
    (dat2 V c).leavesExact 4 t = owns (c : Thread nD τ) (ms2_4 t) fullShare (iblk2 V c 4 t) := by
  rw [← after2_4 V c t]
theorem leaves2_5 (c : Dev nD) (t : Fin cfg2.N) :
    (dat2 V c).leavesExact 5 t = owns (c : Thread nD τ) (ms2_5 t) fullShare (iblk2 V c 5 t) := by
  rw [← after2_5 V c t]
theorem leaves2_6 (c : Dev nD) (t : Fin cfg2.N) :
    (dat2 V c).leavesExact 6 t = owns (c : Thread nD τ) (ms2_6 t) fullShare (iblk2 V c 6 t) := by
  rw [← after2_6 V c t]
theorem leaves2_7 (c : Dev nD) (t : Fin cfg2.N) :
    (dat2 V c).leavesExact 7 t = owns (c : Thread nD τ) (ms2_7 t) fullShare (iblk2 V c 7 t) := by
  rw [← after2_7 V c t]

theorem hin2 (c : Dev nD) : Pipeline.ΦA spec2 c ⊢ (dat2 V c).Φ 0 := by
  rw [show (dat2 V c).Φ 0 = PhiS2 V c 0 from rfl, PhiS2_zero V c 0 rfl]
  exact PhiA2_split c

theorem hout2 (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 25 := N_2; omega)]
  refine BIBase.Entails.trans ?_ (PhiA2_join c)
  iintro ⟨HR, HS0, HS1, Hg⟩
  isplitl [HR]; · iexact HR
  isplitl [HS0]; · iexists _; iexact HS0
  isplitl [HS1]; · iexists _; iexact HS1
  iexact Hg

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' buffers hold their blocks; the point's position decides the two conditions;
    the invariant hands the body the two scratch buffers (at anything at the first point, at the running sums
    afterwards) and takes them back one step further; the output's buffer comes back as found except at the last
    point, where it holds the classifier's block; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [leaves2_0, leaves2_1, leaves2_2, leaves2_3, leaves2_4, leaves2_5, leaves2_6, leaves2_7]
  rw [show (dat2 V c).owesAt () t.succ = (dat2 V c).owesAt () t.castSucc from rfl]
  rw [show (dat2 V c).Φ t.succ = PhiS2 V c (t.val + 1) from rfl, PhiS2_succ,
    show (dat2 V c).Φ t.castSucc = PhiS2 V c t.val from rfl]
  have hN : t.val < 25 := lt_of_lt_of_eq t.isLt (show cfg2.N = 25 from N_2)
  by_cases h0 : t.val = 0
  · have hc0 : cond2_0 (grid2.coords t) := (hcond2_0 t).mpr h0
    have hc1 : ¬k2_cond2 (grid2.coords t) = 1#1 := fun h => by have := (hcond2_1 t).mp h; omega
    rw [Dat.leavesExact_idle (dat2 V c) 8 t (idleAt2_8 t hc1) (noFlush2_8 t hc1)]
    rw [PhiS2_zero V c _ h0, sumAt_first V c t h0, cntAt_first V c t h0]
    unfold sumStep cntStep
    iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t d8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HR HS0 HS1 Hg]
    · isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬cond2_0 (grid2.coords t) := fun h => h0 ((hcond2_0 t).mp h)
    by_cases h1 : t.val = 24
    · have hc1 : k2_cond2 (grid2.coords t) = 1#1 := (hcond2_1 t).mpr h1
      rw [show (dat2 V c).leavesExact 8 t = owns (c : Thread nD τ) (ms2_8 t) fullShare ((dat2 V c).after 8 t) from by
        unfold Dat.leavesExact; rw [liveAt2_8 t hc1], after2_8, out2_8_last V c t h1]
      rw [PhiS2_pos V c _ h0, sumAt_next V c t h0, cntAt_next V c t h0]
      unfold sumStep cntStep
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (sumAt V c (t.val - 1)) (cntAt V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬k2_cond2 (grid2.coords t) = 1#1 := fun h => h1 ((hcond2_1 t).mp h)
      rw [Dat.leavesExact_idle (dat2 V c) 8 t (idleAt2_8 t hc1) (noFlush2_8 t hc1)]
      rw [PhiS2_pos V c _ h0, sumAt_next V c t h0, cntAt_next V c t h0]
      unfold sumStep cntStep
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t d8) (sumAt V c (t.val - 1)) (cntAt V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of @main from the launch to the return.  @main is three kernel regions among three stretches of host
  operations: stretch 0, region 0, stretch 1, region 1, stretch 2, region 2.  The contents of a core's buffers at
  the seven boundaries are a fold from the launch memory: a stretch takes a valuation to what its operations
  compute from it; a region takes it to the same valuation with the region's arrays at what the pipeline's
  write-backs leave after the last grid point (an input array as entered, the output array with every block's
  write-back folded in).  Each region's proof data are taken at the contents the region is entered from, so the
  fold is closed: nothing about a region's output is left unknown.

  Over the thread state "every unscoped buffer at the boundary's contents, the generator register at some state,
  nothing owed" each stretch is a host segment and each region a region segment: the region's arrays are split
  out of the unscoped buffers at entry and put back, at their final contents, at exit; the generator register
  goes into the region's invariant and comes back.  Regions 0 and 1 keep the class invariant (the scoped rest and
  the register, untouched) at every point; region 2 carries two scratch buffers between points, and its invariant
  meets the class invariant only before the first point and after the last one, which is all the segment needs.

  The launch over these segments gives: every weakly fair execution of @main terminates, and the final memory
  holds, at every unscoped buffer of every core, the last valuation of the fold.  No stretch and no region writes
  an argument, so the fold at an argument's buffer walks back to the launch memory.
-/
import proofs.«419596_j46471546143165_2_alg».proof.Proof.Gen.Kernel.Launch
import proofs.«419596_j46471546143165_2_alg».proof.Proof.Gen.Kernel.Skeleton
import proofs.«419596_j46471546143165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.K.R0
import proofs.«419596_j46471546143165_2_alg».proof.Proof.K.R1
import proofs.«419596_j46471546143165_2_alg».proof.Proof.K.R2
import proofs.«419596_j46471546143165_2_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the seven boundaries -/

/-- Core c's buffers at launch: the launch state's memory (zero counters, the generator registers as given). -/
abbrev W0 : Dev nD → Valuation τ sig (Elt F) := fun c b => (⟨m, fun _ => 0, ρ⟩ : MemSt nD τ sig (Elt F)).mem ((c : Dev nD), b)
/-- After stretch 0: what region 0 is entered from. -/
abbrev W1 : Dev nD → Valuation τ sig (Elt F) := fun c => StableHlo.after hostOps0 (W0 m ρ c)
/-- The same read at the TensorCore's references: the contents region 0's proof data are taken at. -/
abbrev V1 : (c : Dev nD) → (b : Ref sig .tc) → Buf (Elt F) ((c : Thread nD τ).loc b) := fun c b => W1 m ρ c b
/-- At region 0's exit: its arrays at what the pipeline leaves after the last point, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
/-- At region 0's exit each of its arrays holds what the pipeline leaves, and every other buffer what it held at
    entry: the two facts that put the arrays back among the unscoped buffers. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: the contents @main returns with. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## What no item writes ends as launched

A region changes only its output windows' arrays: an input window's array is never written back, and a buffer that
is no array of the region bypasses it.  A stretch changes only what its operations write. -/

/-- Region 0 leaves every buffer that is not one of its output arrays as it found it. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases e : (cfg0.win w).isOut with
      | false => rfl
      | true => exact absurd rfl (hb w e)
    exact (W2_arr m ρ c w).trans (((dat0 (V1 m ρ) c).arrAt_in w hin _).trans (A_eq0 (V1 m ρ) c w))
  · exact W2_of_ne m ρ c b fun w e => h ⟨w, e⟩
/-- Region 1 leaves every buffer that is not one of its output arrays as it found it. -/
theorem W4_keep (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases e : (cfg1.win w).isOut with
      | false => rfl
      | true => exact absurd rfl (hb w e)
    exact (W4_arr m ρ c w).trans (((dat1 (V3 m ρ) c).arrAt_in w hin _).trans (A_eq1 (V3 m ρ) c w))
  · exact W4_of_ne m ρ c b fun w e => h ⟨w, e⟩
/-- Region 2 leaves every buffer that is not one of its output arrays as it found it. -/
theorem W6_keep (c : Dev nD) (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases e : (cfg2.win w).isOut with
      | false => rfl
      | true => exact absurd rfl (hb w e)
    exact (W6_arr m ρ c w).trans (((dat2 (V5 m ρ) c).arrAt_in w hin _).trans (A_eq2 (V5 m ρ) c w))
  · exact W6_of_ne m ρ c b fun w e => h ⟨w, e⟩

/-- A buffer no stretch writes and no region has as an output array ends holding its launch contents: the fold
    walked back item by item. -/
theorem W6_back (c : Dev nD) (b : Ref sig .tc) (h0 : b ∉ hostOps0_W) (h1 : b ∉ hostOps1_W) (h2 : b ∉ hostOps2_W)
    (k0 : ∀ w, (cfg0.win w).isOut = true → Pipeline.arrRef spec0 w ≠ b)
    (k1 : ∀ w, (cfg1.win w).isOut = true → Pipeline.arrRef spec1 w ≠ b)
    (k2 : ∀ w, (cfg2.win w).isOut = true → Pipeline.arrRef spec2 w ≠ b) :
    W6 m ρ c (Proc.devRef .tc b) = m ((c : Thread nD τ).loc b) :=
  calc W6 m ρ c (Proc.devRef .tc b)
    _ = W5 m ρ c (Proc.devRef .tc b) := W6_keep m ρ c b k2
    _ = W4 m ρ c (Proc.devRef .tc b) := StableHlo.after_of_writes_sub hostOps2 _ hostOps2_writes h2
    _ = W3 m ρ c (Proc.devRef .tc b) := W4_keep m ρ c b k1
    _ = W2 m ρ c (Proc.devRef .tc b) := StableHlo.after_of_writes_sub hostOps1 _ hostOps1_writes h1
    _ = W1 m ρ c (Proc.devRef .tc b) := W2_keep m ρ c b k0
    _ = W0 m ρ c (Proc.devRef .tc b) := StableHlo.after_of_writes_sub hostOps0 _ hostOps0_writes h0
    _ = m ((c : Thread nD τ).loc b) := rfl

theorem W6_main_arg0 (c : Dev nD) : W6 m ρ c (Proc.devRef .tc main_arg0) = m ((c : Thread nD τ).loc main_arg0) :=
  W6_back m ρ c main_arg0 (by decide) (by decide) (by decide) (by decide) (by decide) (by decide)
theorem W6_main_arg1 (c : Dev nD) : W6 m ρ c (Proc.devRef .tc main_arg1) = m ((c : Thread nD τ).loc main_arg1) :=
  W6_back m ρ c main_arg1 (by decide) (by decide) (by decide) (by decide) (by decide) (by decide)
theorem W6_main_arg2 (c : Dev nD) : W6 m ρ c (Proc.devRef .tc main_arg2) = m ((c : Thread nD τ).loc main_arg2) :=
  W6_back m ρ c main_arg2 (by decide) (by decide) (by decide) (by decide) (by decide) (by decide)
theorem W6_main_arg3 (c : Dev nD) : W6 m ρ c (Proc.devRef .tc main_arg3) = m ((c : Thread nD τ).loc main_arg3) :=
  W6_back m ρ c main_arg3 (by decide) (by decide) (by decide) (by decide) (by decide) (by decide)
theorem W6_main_arg4 (c : Dev nD) : W6 m ρ c (Proc.devRef .tc main_arg4) = m ((c : Thread nD τ).loc main_arg4) :=
  W6_back m ρ c main_arg4 (by decide) (by decide) (by decide) (by decide) (by decide) (by decide)
theorem W6_main_arg5 (c : Dev nD) : W6 m ρ c (Proc.devRef .tc main_arg5) = m ((c : Thread nD τ).loc main_arg5) :=
  W6_back m ρ c main_arg5 (by decide) (by decide) (by decide) (by decide) (by decide) (by decide)
theorem W6_main_arg6 (c : Dev nD) : W6 m ρ c (Proc.devRef .tc main_arg6) = m ((c : Thread nD τ).loc main_arg6) :=
  W6_back m ρ c main_arg6 (by decide) (by decide) (by decide) (by decide) (by decide) (by decide)
theorem W6_main_arg7 (c : Dev nD) : W6 m ρ c (Proc.devRef .tc main_arg7) = m ((c : Thread nD τ).loc main_arg7) :=
  W6_back m ρ c main_arg7 (by decide) (by decide) (by decide) (by decide) (by decide) (by decide)
theorem W6_main_arg8 (c : Dev nD) : W6 m ρ c (Proc.devRef .tc main_arg8) = m ((c : Thread nD τ).loc main_arg8) :=
  W6_back m ρ c main_arg8 (by decide) (by decide) (by decide) (by decide) (by decide) (by decide)
theorem W6_main_arg9 (c : Dev nD) : W6 m ρ c (Proc.devRef .tc main_arg9) = m ((c : Thread nD τ).loc main_arg9) :=
  W6_back m ρ c main_arg9 (by decide) (by decide) (by decide) (by decide) (by decide) (by decide)
theorem W6_main_arg10 (c : Dev nD) : W6 m ρ c (Proc.devRef .tc main_arg10) = m ((c : Thread nD τ).loc main_arg10) :=
  W6_back m ρ c main_arg10 (by decide) (by decide) (by decide) (by decide) (by decide) (by decide)
theorem W6_main_arg11 (c : Dev nD) : W6 m ρ c (Proc.devRef .tc main_arg11) = m ((c : Thread nD τ).loc main_arg11) :=
  W6_back m ρ c main_arg11 (by decide) (by decide) (by decide) (by decide) (by decide) (by decide)
theorem W6_main_arg12 (c : Dev nD) : W6 m ρ c (Proc.devRef .tc main_arg12) = m ((c : Thread nD τ).loc main_arg12) :=
  W6_back m ρ c main_arg12 (by decide) (by decide) (by decide) (by decide) (by decide) (by decide)
theorem W6_main_arg13 (c : Dev nD) : W6 m ρ c (Proc.devRef .tc main_arg13) = m ((c : Thread nD τ).loc main_arg13) :=
  W6_back m ρ c main_arg13 (by decide) (by decide) (by decide) (by decide) (by decide) (by decide)

/-! ## The proof data family and the thread state -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev Rs (c : Dev nD) : sProp 𝕄 := iprop((∃ r, prngReg c r) ∗ ∃ W, owes (c : Thread nD τ) (0 : CellTallies nD τ sig Unit) W)
/-- A stretch as a segment over the unscoped references from the contents W, the register and the dues riding
    along; it leaves those references at what the stretch computes from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rs

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents of the fold, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ Rs c)
  post c := iprop(StableHlo.held (c : Thread nD τ) (Pipeline.ucRefs τ sig) (W2 m ρ c) ∗ Rs c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ Rs c)
  post c := iprop(StableHlo.held (c : Thread nD τ) (Pipeline.ucRefs τ sig) (W4 m ρ c) ∗ Rs c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's invariant before the first point, from the generator register and the scoped rest: the class
    invariant, which region 2's own invariant starts from. -/
theorem hin2A (c : Dev nD) :
    iprop((∃ r, prngReg c r) ∗ Pipeline.prefHeld (pcfgs (F := F) 2).pre c (fun _ => fullShare) (adm (F := F) 2).1
      ∗ Pipeline.scopedRest (Pipeline.pin (pcfgs (F := F)) adm 2).spec c) ⊢ (Pipeline.ΦA spec2 c : sProp 𝕄) := by
  unfold Pipeline.ΦA
  iintro ⟨Hp, -, Hr⟩
  isplitl [Hr]; · iexact Hr
  iexact Hp
/-- The class invariant gives back the generator register and the scoped rest; region 2's own invariant ends in it. -/
theorem hout2A (c : Dev nD) :
    (Pipeline.ΦA spec2 c : sProp 𝕄) ⊢ iprop((∃ r, prngReg c r) ∗ BI.emp ∗ Pipeline.scopedRest (Pipeline.pin (pcfgs (F := F)) adm 2).spec c) := by
  unfold Pipeline.ΦA
  iintro ⟨Hr, Hp⟩
  isplitl [Hp]; · iexact Hp
  isplitr; · iempintro
  iexact Hr

set_option backward.isDefEq.respectTransparency.types false in
/-- Region 2 over the thread state: entered from every unscoped buffer at W5, left at W6 beside the register, the
    dues apart: the last thread state.  Its invariant carries the two scratch buffers between points; at the two
    ends it is the class invariant. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ Rs c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hin2A c).trans (hin2 (V5 m ρ) c)
  hout c := by
    rw [Pipeline.ownSems0_none]
    exact (hout2 (V5 m ρ) c).trans (hout2A c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel. -/
abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments: it is the chain of its six items, and the segments' run is the chain of
    their fragments, the same six. -/
theorem main_run (c : Dev nD) : main (F := F) c = Pipeline.Seg.run (runSegs m ρ) := by
  rw [main_chain c, Pipeline.Seg.run_eq_chain]
  rfl

set_option backward.isDefEq.respectTransparency.types false in
/-- The run of @main: at the compiled mesh, from any memory with zero counters, every weakly fair execution of
    @main on the TensorCores terminates, nothing faulting, and every final state holds, at every unscoped buffer of
    every core, the last contents of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rs c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.Hand

end
-- ==== Proof.KI.D0.lean ====
/-
  Region 0 (the first graph-convolution layer's linear maps): the blocks its windows hold at a grid point and
  what the body leaves in them.  Point t of the 25 works on rows [4000 t, 4000 t + 4000) of the aggregated
  neighbour features (window 0) and of the node features (window 1); the two transposed weight matrices and the
  bias (windows 2, 4, 3) are whole at every point; the output block (window 5) is the body's one store, the
  payload of the five loaded blocks.
-/
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangle of the output's staging buffer. -/
abbrev r0_out : Rect S4000x128 := Rect.unit (s := S4000x128) ![0, 0] S4000x128.size inb_S4000x128_S4000x128_0_0

/-- What the body leaves in the output window's buffer: its one store, over the whole block, of the payload of
    the loaded blocks (aggregate rows, feature rows, neighbour weights, bias, root weights). -/
def out0_5 (x0 : Vec F S4000x64 .f32) (x1 : Vec F S4000x64 .bf16) (x2 : Vec F S64x128 .f32) (x3 : Vec F S128 .f32)
    (x4 : Vec F S64x128 .f32) : Vec F S4000x128 .bf16 :=
  View.canon [⟨r0_out, k0_pay1 x0 x1 x2 x4 x3⟩]

/-- The proof data of region 0 on core c: arrays as found; inputs keep their blocks; the output block is out0_5
    of the input blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

end Cert.KernelIdeal.Hand

end
-- ==== Proof.KI.R0.lean ====
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.KI.D0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body runs

An input window whose body leaves its block in place holds, at every point, the block a fetch there would
bring: fetched at the point, it is the block; not fetched, the block index has not moved since the point
before, and the buffer still holds that point's block, which is this one's.  Windows 0 and 1 are fetched at
every point; windows 2, 3, 4 have constant index maps and are fetched at the first point only.  One argument
serves all five. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The whole-block rectangle

A load through the rectangle of a buffer's own sizes at zero offsets reads the buffer's contents, and the one
store through it covers the buffer. -/

/-- The contents read through the full rectangle at zero offsets are the contents. -/
private theorem ld_full {S : Shape} {e : EltTy} {off : Fin S.rank → Nat} (h : off = fun _ => 0)
    (inb : ∀ a, off a + S.size a ≤ S.size a) (X : S.Idx → Elt F e) : View.ld X (Rect.unit off S.size inb) = X := by
  subst h; funext x; show X ((Rect.whole S).emb x) = X x; rw [Rect.emb_whole_apply]

/-- So a load through it of a buffer reads what the buffer's view reads. -/
private theorem readAt_full {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  ld_full h inb _

private theorem zeros2 : (![0, 0] : Fin 2 → Nat) = fun _ => 0 := funext fun a => by fin_cases a <;> rfl
private theorem zeros1 : (![0] : Fin 1 → Nat) = fun _ => 0 := funext fun a => by fin_cases a; rfl

/-- The output's one store covers its buffer. -/
theorem cover0_5 (p0 : Vec F S4000x128 .bf16) (y : S4000x128.Idx) :
    ∃ pc ∈ ([⟨r0_out, p0⟩] : List (View.Piece (Elt F) S4000x128 .bf16)), y ∈ pc.1.set :=
  View.cover_of_tiled [⟨r0_out, p0⟩] S4000x128.size (by rfl) y

/-! ## The body's triple -/

set_option maxHeartbeats 1000000 in
/-- The kernel body on whole staging memrefs, the five inputs' at read contents and the output's at anything,
    runs to the continuation holding the inputs' as they were and the output's at out0_5 of the inputs'. -/
theorem sound_kernel0 (c : Dev nD) (E : Set ℕ) (i : grid0.Coords)
    (arg1 : Memref sig .tc .vmem S4000x64 .f32) (harg1 : arg1.IsWhole)
    (arg2 : Memref sig .tc .vmem S4000x64 .bf16) (harg2 : arg2.IsWhole)
    (arg3 : Memref sig .tc .vmem S64x128 .f32) (harg3 : arg3.IsWhole)
    (arg4 : Memref sig .tc .vmem S128 .f32) (harg4 : arg4.IsWhole)
    (arg5 : Memref sig .tc .vmem S64x128 .f32) (harg5 : arg5.IsWhole)
    (arg6 : Memref sig .tc .vmem S4000x128 .bf16) (harg6 : arg6.IsWhole)
    (x0 : Vec F S4000x64 .f32) (x1 : Vec F S4000x64 .bf16) (x2 : Vec F S64x128 .f32) (x3 : Vec F S128 .f32)
    (x4 : Vec F S64x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0_5 _)]
  unfold out0_5
  rw [readAt_full arg1.view f0 zeros2, readAt_full arg2.view f1 zeros2, readAt_full arg3.view f2 zeros2,
    readAt_full arg5.view f4 zeros2, readAt_full arg4.view f3 zeros1]

/-! ## The body obligation, at a generic point -/

/-- What the body is called with at point t: the invariant, what the core owes, and each window's current
    staging buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t)
    (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.D1.lean ====
/-
  Region 1 (the second graph-convolution layer's linear maps): the blocks its windows hold at a grid point and
  what the body leaves in them.  Point t of the 25 works on rows [4000 t, 4000 t + 4000) of the aggregated
  neighbour features (window 0) and of the node features (window 1); the two transposed weight matrices and the
  bias (windows 2, 4, 3) are whole at every point; the output block (window 5) is the body's one store, the
  payload of the five loaded blocks.
-/
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangle of the output's staging buffer. -/
abbrev r1_out : Rect S4000x128 := Rect.unit (s := S4000x128) ![0, 0] S4000x128.size inb_S4000x128_S4000x128_0_0

/-- What the body leaves in the output window's buffer: its one store, over the whole block, of the payload of
    the loaded blocks (aggregate rows, feature rows, neighbour weights, bias, root weights). -/
def out1_5 (x0 : Vec F S4000x128 .f32) (x1 : Vec F S4000x128 .bf16) (x2 : Vec F S128x128 .f32) (x3 : Vec F S128 .f32)
    (x4 : Vec F S128x128 .f32) : Vec F S4000x128 .bf16 :=
  View.canon [⟨r1_out, k1_pay1 x0 x1 x2 x4 x3⟩]

/-- The proof data of region 0 on core c: arrays as found; inputs keep their blocks; the output block is out1_5
    of the input blocks; the invariant is the scoped rest and the generator register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

end Cert.KernelIdeal.Hand

end
-- ==== Proof.KI.R1.lean ====
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.KI.D1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body runs

An input window whose body leaves its block in place holds, at every point, the block a fetch there would
bring: fetched at the point, it is the block; not fetched, the block index has not moved since the point
before, and the buffer still holds that point's block, which is this one's.  Windows 0 and 1 are fetched at
every point; windows 2, 3, 4 have constant index maps and are fetched at the first point only.  One argument
serves all five. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The whole-block rectangle

A load through the rectangle of a buffer's own sizes at zero offsets reads the buffer's contents, and the one
store through it covers the buffer. -/

/-- The contents read through the full rectangle at zero offsets are the contents. -/
private theorem ld_full {S : Shape} {e : EltTy} {off : Fin S.rank → Nat} (h : off = fun _ => 0)
    (inb : ∀ a, off a + S.size a ≤ S.size a) (X : S.Idx → Elt F e) : View.ld X (Rect.unit off S.size inb) = X := by
  subst h; funext x; show X ((Rect.whole S).emb x) = X x; rw [Rect.emb_whole_apply]

/-- So a load through it of a buffer reads what the buffer's view reads. -/
private theorem readAt_full {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  ld_full h inb _

private theorem zeros2 : (![0, 0] : Fin 2 → Nat) = fun _ => 0 := funext fun a => by fin_cases a <;> rfl
private theorem zeros1 : (![0] : Fin 1 → Nat) = fun _ => 0 := funext fun a => by fin_cases a; rfl

/-- The output's one store covers its buffer. -/
theorem cover1_5 (p0 : Vec F S4000x128 .bf16) (y : S4000x128.Idx) :
    ∃ pc ∈ ([⟨r1_out, p0⟩] : List (View.Piece (Elt F) S4000x128 .bf16)), y ∈ pc.1.set :=
  View.cover_of_tiled [⟨r1_out, p0⟩] S4000x128.size (by rfl) y

/-! ## The body's triple -/

set_option maxHeartbeats 1000000 in
/-- The kernel body on whole staging memrefs, the five inputs' at read contents and the output's at anything,
    runs to the continuation holding the inputs' as they were and the output's at out1_5 of the inputs'. -/
theorem sound_kernel1 (c : Dev nD) (E : Set ℕ) (i : grid1.Coords)
    (arg1 : Memref sig .tc .vmem S4000x128 .f32) (harg1 : arg1.IsWhole)
    (arg2 : Memref sig .tc .vmem S4000x128 .bf16) (harg2 : arg2.IsWhole)
    (arg3 : Memref sig .tc .vmem S128x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S4000x128 .bf16) (harg6 : arg6.IsWhole)
    (x0 : Vec F S4000x128 .f32) (x1 : Vec F S4000x128 .bf16) (x2 : Vec F S128x128 .f32) (x3 : Vec F S128 .f32)
    (x4 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_5 _)]
  unfold out1_5
  rw [readAt_full arg1.view f0 zeros2, readAt_full arg2.view f1 zeros2, readAt_full arg3.view f2 zeros2,
    readAt_full arg5.view f4 zeros2, readAt_full arg4.view f3 zeros1]

/-! ## The body obligation, at a generic point -/

/-- What the body is called with at point t: the invariant, what the core owes, and each window's current
    staging buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the kernel's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t)
    (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.D2.lean ====
/-
  Region 2 (the third layer's linear maps fused with mean pooling and the classifier): the blocks its windows hold
  at a grid point, and the two running sums the body carries in its scratch buffers from point to point.  Point t of
  the 25 works on rows [4000 t, 4000 t + 4000) of the aggregated features (window 0), the node features (window 1)
  and the graph ids (window 5); the weights and biases (windows 2, 3, 4, 6, 7) are whole at every point.  After
  point n the first scratch holds the per-graph feature sums over the rows of points 0..n, the second the per-graph
  row counts; the last point stores the classifier's output block (window 8) from them.
-/
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first and the last grid point. -/
abbrev tFirst2 : Fin cfg2.N := ⟨0, by decide⟩
abbrev tLast2 : Fin cfg2.N := ⟨24, by decide⟩

/-- The per-graph feature sums the body adds to at point t, from what the first scratch held (prev): the payload
    of the point's blocks (aggregate rows, feature rows, neighbour weights, root weights, bias, graph ids). -/
def sumStep (c : Dev nD) (t : Fin cfg2.N) (prev : Vec F S128x128 .f32) : Vec F S128x128 .f32 :=
  k2_pay1 (k2_pay8 (iblk2 V c 0 t) (iblk2 V c 1 t) (iblk2 V c 2 t) (iblk2 V c 4 t) (iblk2 V c 3 t) (iblk2 V c 5 t) prev)

/-- The per-graph row counts the body adds to at point t, from what the second scratch held (prev). -/
def cntStep (c : Dev nD) (t : Fin cfg2.N) (prev : Vec F S128x1 .f32) : Vec F S128x1 .f32 :=
  k2_pay2 (k2_pay7 (iblk2 V c 5 t)) prev

/-- The first scratch after point n: point 0 starts from the zero fill, every later point from the point before. -/
def sumAt (c : Dev nD) : ℕ → Vec F S128x128 .f32
  | 0 => sumStep V c tFirst2 (k2_pay4 (F := F))
  | n + 1 => if h : n + 1 < cfg2.N then sumStep V c ⟨n + 1, h⟩ (sumAt c n) else sumAt c n

/-- The second scratch after point n. -/
def cntAt (c : Dev nD) : ℕ → Vec F S128x1 .f32
  | 0 => cntStep V c tFirst2 (k2_pay5 (F := F))
  | n + 1 => if h : n + 1 < cfg2.N then cntStep V c ⟨n + 1, h⟩ (cntAt c n) else cntAt c n

/-- The whole-block rectangle of the output's staging buffer. -/
abbrev r2_out : Rect S128x16 := Rect.unit (s := S128x16) ![0, 0] S128x16.size inb_S128x16_S128x16_0_0

/-- What the last point leaves in the output window's buffer: its one store, over the whole block, of the
    classifier's payload of the two scratch sums, the classifier's weights and its bias. -/
def out2_8 (c : Dev nD) : Vec F S128x16 .f32 :=
  View.canon [⟨r2_out, k2_pay3 (sumAt V c 24) (cntAt V c 24) (iblk2 V c 6 tLast2) (iblk2 V c 7 tLast2)⟩]

end Cert.KernelIdeal.Hand

end
-- ==== Proof.KI.R2.lean ====
/-
  Region 2 (the third layer's linear maps fused with mean pooling and the classifier): the region's proof data and
  its body obligation.  The body keeps two running sums in scratch buffers from grid point to grid point (sumAt and
  cntAt): at the first point it fills both with their starting values, at every point it stores each back with the
  point's contribution added, and at the last point it stores into the output window the block computed from the
  two sums, the classifier's weights and its bias.  Three control cases, decided by the point's position: first,
  middle, last.  Each case is one run of the body on whole staging buffers at named contents; the invariant carries
  the two scratch buffers at the sums the point before left, and every other scoped buffer and the generator
  register at anything.
-/
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic
import proofs.«419596_j46471546143165_2_alg».proof.Proof.KI.D2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's conditions, decided over the grid -/

/-- The first condition of the body (is this the first grid point?), from the grid coordinates. -/
abbrev cond2_0 (i : grid2.Coords) : Prop := (Scalar.cmpi .ne (Scalar.extui (Scalar.cmpi .eq (BitVec.ofNat 32 (i 0).val) 0#32)) 0#32) = 1#1

/-- It holds at point 0 only. -/
theorem hcond2_0 : ∀ t : Fin cfg2.N, cond2_0 (grid2.coords t) ↔ t.val = 0 :=
  (by decide +kernel : ∀ t : Fin grid2.N, cond2_0 (grid2.coords t) ↔ t.val = 0)
/-- The second condition (is this the last grid point?) holds at point 24 only. -/
theorem hcond2_1 : ∀ t : Fin cfg2.N, k2_cond2 (grid2.coords t) = 1#1 ↔ t.val = 24 :=
  (by decide +kernel : ∀ t : Fin grid2.N, k2_cond2 (grid2.coords t) = 1#1 ↔ t.val = 24)

/-! ## Whole-block loads and stores -/

theorem zero2_r1 : (![0] : Fin 1 → ℕ) = fun _ => 0 := by funext a; fin_cases a; rfl
theorem zero2_r2 : (![0, 0] : Fin 2 → ℕ) = fun _ => 0 := by funext a; fin_cases a <;> rfl
theorem zero2_r3 : (![0, 0, 0] : Fin 3 → ℕ) = fun _ => 0 := by funext a; fin_cases a <;> rfl

/-- After a last store over the whole block a buffer reads as that store's payload, whatever was stored before. -/
theorem read_last_store2 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  funext y
  rw [View.read_writes_apply_eq_canon v f y _ ⟨_, List.mem_cons_self, View.mem_set_unit_zero h inb y⟩,
    View.canon_cons_unit_zero h inb]

set_option maxHeartbeats 1000000 in
/-- The body at the first point: both scratch buffers, found at anything, are filled with the starting values, then read and stored
    back with the point's contribution added; the output's buffer is left as found. -/
theorem run2_A (c : Dev nD) (i : grid2.Coords) (arg1 : Memref sig .tc .vmem S4000x128 .f32) (harg1 : arg1.IsWhole) (arg2 : Memref sig .tc .vmem S4000x128 .bf16) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S1x1x4000 .i32) (harg6 : arg6.IsWhole) (arg7 : Memref sig .tc .vmem S128x16 .f32) (harg7 : arg7.IsWhole) (arg8 : Memref sig .tc .vmem S16 .f32) (harg8 : arg8.IsWhole) (arg9 : Memref sig .tc .vmem S128x16 .f32) (harg9 : arg9.IsWhole) (arg10 : Memref sig .tc .vmem S128x128 .f32) (harg10 : arg10.IsWhole) (arg11 : Memref sig .tc .vmem S128x1 .f32) (harg11 : arg11.IsWhole) (hc0 : cond2_0 i) (hc1 : ¬k2_cond2 i = 1#1)
    (x0 : Vec F S4000x128 .f32) (x1 : Vec F S4000x128 .bf16) (x2 : Vec F S128x128 .f32) (x3 : Vec F S128 .f32) (x4 : Vec F S128x128 .f32) (x5 : Vec F S1x1x4000 .i32) (x6 : Vec F S128x16 .f32) (x7 : Vec F S16 .f32) (xi8 : Vec F S128x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8
            ∗ owns (c : Thread nD τ) arg10 fullShare (k2_pay1 (k2_pay8 x0 x1 x2 x4 x3 x5 (k2_pay4 (F := F))))
            ∗ owns (c : Thread nD τ) arg11 fullShare (k2_pay2 (k2_pay7 x5) (k2_pay5 (F := F)))) -∗ K ⟨⟩))
      ⊢ wp frame (wpE (defs₀ (F := F)) Variants.none c none) E (cc2__fused_l3_pool_kernel i arg1 harg1 arg2 harg2 arg3 harg3 arg4 harg4 arg5 harg5 arg6 harg6 arg7 harg7 arg8 harg8 arg9 harg9 arg10 harg10 arg11 harg11) K := by
  simp only [cc2__fused_l3_pool_kernel_eq_skeleton]; unfold cc2__fused_l3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HS0]
  · iexists _; isplitr
    swap; · iexact HS0
    ipureintro
    rw [read_last_store2 _ _ zero2_r2]; dsimp only
    sl_unfold_words
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]
  · iexists _; isplitr
    swap; · iexact HS1
    ipureintro
    rw [read_last_store2 _ _ zero2_r2]; dsimp only
    sl_unfold_words
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]

set_option maxHeartbeats 1000000 in
/-- The body at a point that is neither the first nor the last: both scratch buffers are read and stored back
    with the point's contribution added; the output's buffer is left as found. -/
theorem run2_B (c : Dev nD) (i : grid2.Coords) (arg1 : Memref sig .tc .vmem S4000x128 .f32) (harg1 : arg1.IsWhole) (arg2 : Memref sig .tc .vmem S4000x128 .bf16) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S1x1x4000 .i32) (harg6 : arg6.IsWhole) (arg7 : Memref sig .tc .vmem S128x16 .f32) (harg7 : arg7.IsWhole) (arg8 : Memref sig .tc .vmem S16 .f32) (harg8 : arg8.IsWhole) (arg9 : Memref sig .tc .vmem S128x16 .f32) (harg9 : arg9.IsWhole) (arg10 : Memref sig .tc .vmem S128x128 .f32) (harg10 : arg10.IsWhole) (arg11 : Memref sig .tc .vmem S128x1 .f32) (harg11 : arg11.IsWhole) (hc0 : ¬cond2_0 i) (hc1 : ¬k2_cond2 i = 1#1)
    (x0 : Vec F S4000x128 .f32) (x1 : Vec F S4000x128 .bf16) (x2 : Vec F S128x128 .f32) (x3 : Vec F S128 .f32) (x4 : Vec F S128x128 .f32) (x5 : Vec F S1x1x4000 .i32) (x6 : Vec F S128x16 .f32) (x7 : Vec F S16 .f32) (xi8 : Vec F S128x16 .f32) (xs0 : Vec F S128x128 .f32) (xs1 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8
            ∗ owns (c : Thread nD τ) arg10 fullShare (k2_pay1 (k2_pay8 x0 x1 x2 x4 x3 x5 xs0))
            ∗ owns (c : Thread nD τ) arg11 fullShare (k2_pay2 (k2_pay7 x5) xs1)) -∗ K ⟨⟩))
      ⊢ wp frame (wpE (defs₀ (F := F)) Variants.none c none) E (cc2__fused_l3_pool_kernel i arg1 harg1 arg2 harg2 arg3 harg3 arg4 harg4 arg5 harg5 arg6 harg6 arg7 harg7 arg8 harg8 arg9 harg9 arg10 harg10 arg11 harg11) K := by
  simp only [cc2__fused_l3_pool_kernel_eq_skeleton]; unfold cc2__fused_l3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hfs0; obtain rfl := harg11.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HS0]
  · iexists _; isplitr
    swap; · iexact HS0
    ipureintro
    rw [read_last_store2 _ _ zero2_r2]; dsimp only
    simp only [View.readAt_eq_ld, Memref.IsWhole.read_unread, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]
  · iexists _; isplitr
    swap; · iexact HS1
    ipureintro
    rw [read_last_store2 _ _ zero2_r2]; dsimp only
    simp only [View.readAt_eq_ld, Memref.IsWhole.read_unread, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]

set_option maxHeartbeats 1000000 in
/-- The body at the last point: both scratch buffers are read and stored back with the point's contribution
    added, then read again, and the classifier's payload of them is stored over the whole output block. -/
theorem run2_C (c : Dev nD) (i : grid2.Coords) (arg1 : Memref sig .tc .vmem S4000x128 .f32) (harg1 : arg1.IsWhole) (arg2 : Memref sig .tc .vmem S4000x128 .bf16) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S1x1x4000 .i32) (harg6 : arg6.IsWhole) (arg7 : Memref sig .tc .vmem S128x16 .f32) (harg7 : arg7.IsWhole) (arg8 : Memref sig .tc .vmem S16 .f32) (harg8 : arg8.IsWhole) (arg9 : Memref sig .tc .vmem S128x16 .f32) (harg9 : arg9.IsWhole) (arg10 : Memref sig .tc .vmem S128x128 .f32) (harg10 : arg10.IsWhole) (arg11 : Memref sig .tc .vmem S128x1 .f32) (harg11 : arg11.IsWhole) (hc0 : ¬cond2_0 i) (hc1 : k2_cond2 i = 1#1)
    (x0 : Vec F S4000x128 .f32) (x1 : Vec F S4000x128 .bf16) (x2 : Vec F S128x128 .f32) (x3 : Vec F S128 .f32) (x4 : Vec F S128x128 .f32) (x5 : Vec F S1x1x4000 .i32) (x6 : Vec F S128x16 .f32) (x7 : Vec F S16 .f32) (xs0 : Vec F S128x128 .f32) (xs1 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k2_pay3 (k2_pay1 (k2_pay8 x0 x1 x2 x4 x3 x5 xs0)) (k2_pay2 (k2_pay7 x5) xs1) x6 x7)
            ∗ owns (c : Thread nD τ) arg10 fullShare (k2_pay1 (k2_pay8 x0 x1 x2 x4 x3 x5 xs0))
            ∗ owns (c : Thread nD τ) arg11 fullShare (k2_pay2 (k2_pay7 x5) xs1)) -∗ K ⟨⟩))
      ⊢ wp frame (wpE (defs₀ (F := F)) Variants.none c none) E (cc2__fused_l3_pool_kernel i arg1 harg1 arg2 harg2 arg3 harg3 arg4 harg4 arg5 harg5 arg6 harg6 arg7 harg7 arg8 harg8 arg9 harg9 arg10 harg10 arg11 harg11) K := by
  simp only [cc2__fused_l3_pool_kernel_eq_skeleton]; unfold cc2__fused_l3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg10.eq_unread hfs0; obtain rfl := harg11.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_words
    rw [read_last_store2 _ _ zero2_r2]; dsimp only
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]
  isplitl [HS0]
  · iexists _; isplitr
    swap; · iexact HS0
    ipureintro
    sl_unfold_words
    rw [read_last_store2 _ _ zero2_r2]; dsimp only
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]
  · iexists _; isplitr
    swap; · iexact HS1
    ipureintro
    sl_unfold_words
    rw [read_last_store2 _ _ zero2_r2]; dsimp only
    simp only [View.readAt_eq_ld, Memref.IsWhole.read_unread, View.readCov_unit_zero (S := S128x128) _ zero2_r2, View.readCov_unit_zero (S := S128x1) _ zero2_r2, View.ld_unit_zero (S := S4000x128) zero2_r2, View.ld_unit_zero (S := S128x128) zero2_r2, View.ld_unit_zero (S := S128) zero2_r1, View.ld_unit_zero (S := S1x1x4000) zero2_r3, View.ld_unit_zero (S := S128x1) zero2_r2, View.ld_unit_zero (S := S128x16) zero2_r2, View.ld_unit_zero (S := S16) zero2_r1]

/-! ## The windows' current buffers and the two scratch buffers -/

/-- Each window's current staging memref at point t, as the pipeline passes it to the body, and its wholeness. -/
abbrev ms2_0 (t : Fin cfg2.N) : Memref sig .tc .vmem S4000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x4000 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x16 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S16 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S128x16 .f32 := win2_8.stage (cfg2.slots t 8)
abbrev hs2_8 (t : Fin cfg2.N) : (ms2_8 t).IsWhole := hstage2_8 ((cfg2.slots t 8).cast nbuf2_8)
/-- The two scratch buffers, whole, passed beside the windows. -/
abbrev scM2_0 : Memref sig .tc .vmem S128x128 .f32 := Memref.whole cc2_scratch0
abbrev scM2_1 : Memref sig .tc .vmem S128x1 .f32 := Memref.whole cc2_scratch1

/-! ## Where the output window is idle -/

/-- Away from the last point the output window is idle, -/
theorem idleAt2_8 : ∀ t : Fin cfg2.N, ¬k2_cond2 (grid2.coords t) = 1#1 → cfg2.idle 8 (grid2.coords t) = true := by decide +kernel
/-- and is not written back; -/
theorem noFlush2_8 : ∀ t : Fin cfg2.N, ¬k2_cond2 (grid2.coords t) = 1#1 → (cfg2.win 8).flush t = false := by decide +kernel
/-- at the last point it is live. -/
theorem liveAt2_8 : ∀ t : Fin cfg2.N, k2_cond2 (grid2.coords t) = 1#1 → cfg2.idle 8 (grid2.coords t) = false := by decide +kernel

/-! ## The running sums, point by point -/

theorem sumAt_first (c : Dev nD) (t : Fin cfg2.N) (h : t.val = 0) : sumAt V c t.val = sumStep V c t (k2_pay4 (F := F)) := by
  obtain ⟨n, hn⟩ := t; dsimp only at h; subst h; rfl
theorem cntAt_first (c : Dev nD) (t : Fin cfg2.N) (h : t.val = 0) : cntAt V c t.val = cntStep V c t (k2_pay5 (F := F)) := by
  obtain ⟨n, hn⟩ := t; dsimp only at h; subst h; rfl
theorem sumAt_next (c : Dev nD) (t : Fin cfg2.N) (h : t.val ≠ 0) : sumAt V c t.val = sumStep V c t (sumAt V c (t.val - 1)) := by
  obtain ⟨n, hn⟩ := t
  cases n with
  | zero => exact absurd rfl h
  | succ n => exact dif_pos hn
theorem cntAt_next (c : Dev nD) (t : Fin cfg2.N) (h : t.val ≠ 0) : cntAt V c t.val = cntStep V c t (cntAt V c (t.val - 1)) := by
  obtain ⟨n, hn⟩ := t
  cases n with
  | zero => exact absurd rfl h
  | succ n => exact dif_pos hn

/-- At the last point the output block is the classifier's payload of the two sums as that point leaves them. -/
theorem out2_8_last (c : Dev nD) (t : Fin cfg2.N) (h : t.val = 24) :
    out2_8 V c = k2_pay3 (sumAt V c t.val) (cntAt V c t.val) (iblk2 V c 6 t) (iblk2 V c 7 t) := by
  obtain ⟨n, hn⟩ := t; dsimp only at h; subst h
  unfold out2_8; exact View.canon_unit_zero zero2_r2 _ _

/-! ## The invariant -/

/-- The core's scoped buffers other than this region's staging buffers and its two scratch buffers (the other two
    regions' staging buffers), each at some contents. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f))

/-- The region invariant before position n: the other scoped buffers and the generator register at anything
    throughout; the two scratch buffers at anything before the first point, and afterwards at the running sums the
    point before left. -/
def PhiS2 (c : Dev nD) : (n : ℕ) → sProp 𝕄
  | 0 => iprop(rest2 (F := F) c ∗ (∃ d, owns (c : Thread nD τ) scM2_0 fullShare d) ∗ (∃ d, owns (c : Thread nD τ) scM2_1 fullShare d) ∗ (∃ r, prngReg c r))
  | n + 1 => iprop(rest2 (F := F) c ∗ owns (c : Thread nD τ) scM2_0 fullShare (sumAt V c n)
      ∗ owns (c : Thread nD τ) scM2_1 fullShare (cntAt V c n) ∗ (∃ r, prngReg c r))

theorem PhiS2_zero (c : Dev nD) (n : ℕ) (hz : n = 0) :
    PhiS2 V c n = iprop(rest2 (F := F) c ∗ (∃ d, owns (c : Thread nD τ) scM2_0 fullShare d) ∗ (∃ d, owns (c : Thread nD τ) scM2_1 fullShare d) ∗ (∃ r, prngReg c r)) := by
  subst hz; rfl
theorem PhiS2_succ (c : Dev nD) (n : ℕ) :
    PhiS2 V c (n + 1) = iprop(rest2 (F := F) c ∗ owns (c : Thread nD τ) scM2_0 fullShare (sumAt V c n)
      ∗ owns (c : Thread nD τ) scM2_1 fullShare (cntAt V c n) ∗ (∃ r, prngReg c r)) := rfl
theorem PhiS2_pos (c : Dev nD) (n : ℕ) (hz : n ≠ 0) :
    PhiS2 V c n = iprop(rest2 (F := F) c ∗ owns (c : Thread nD τ) scM2_0 fullShare (sumAt V c (n - 1))
      ∗ owns (c : Thread nD τ) scM2_1 fullShare (cntAt V c (n - 1)) ∗ (∃ r, prngReg c r)) := by
  cases n with
  | zero => exact absurd rfl hz
  | succ n => rfl

/-- What the launch hands the region, with the two scratch buffers set apart. -/
theorem PhiA2_split (c : Dev nD) :
    (Pipeline.ΦA spec2 c : sProp 𝕄) ⊢ iprop(rest2 (F := F) c ∗ (∃ d, owns (c : Thread nD τ) scM2_0 fullShare d) ∗ (∃ d, owns (c : Thread nD τ) scM2_1 fullShare d) ∗ (∃ r, prngReg c r)) := by
  unfold Pipeline.ΦA; rw [scopedRest2_eq]; unfold rest2
  simp only [owns_whole]
  iintro ⟨⟨H1, H2, H3, H4, H5, H6, H7, H8, H9, H10, H11, H12, H13, H14, H15, H16, H17, H18, HS0, HS1⟩, Hg⟩
  isplitl [H1 H2 H3 H4 H5 H6 H7 H8 H9 H10 H11 H12 H13 H14 H15 H16 H17 H18]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [HS0]; · iexact HS0
  isplitl [HS1]; · iexact HS1
  iexact Hg

/-- And back. -/
theorem PhiA2_join (c : Dev nD) :
    iprop(rest2 (F := F) c ∗ (∃ d, owns (c : Thread nD τ) scM2_0 fullShare d) ∗ (∃ d, owns (c : Thread nD τ) scM2_1 fullShare d) ∗ (∃ r, prngReg c r)) ⊢ (Pipeline.ΦA spec2 c : sProp 𝕄) := by
  unfold Pipeline.ΦA; rw [scopedRest2_eq]; unfold rest2
  simp only [owns_whole]
  iintro ⟨⟨H1, H2, H3, H4, H5, H6, H7, H8, H9, H10, H11, H12, H13, H14, H15, H16, H17, H18⟩, HS0, HS1, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    iexact HS1
  iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 V c
  Φ t := PhiS2 V c t.val
  q _ := fullShare
  owed _ := 0

theorem A_eq2 (c : Dev nD) (w : Fin cfg2.W) : (dat2 V c).A w = V c (Pipeline.arrRef spec2 w) := by
  dsimp only [dat2]
theorem after2_8 (c : Dev nD) (t : Fin cfg2.N) : (dat2 V c).after 8 t = out2_8 V c := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-- What the body leaves in each input's buffer: the block, in place. -/
theorem leaves2_0 (c : Dev nD) (t : Fin cfg2.N) :
    (dat2 V c).leavesExact 0 t = owns (c : Thread nD τ) (ms2_0 t) fullShare (iblk2 V c 0 t) := by
  rw [← after2_0 V c t]
theorem leaves2_1 (c : Dev nD) (t : Fin cfg2.N) :
    (dat2 V c).leavesExact 1 t = owns (c : Thread nD τ) (ms2_1 t) fullShare (iblk2 V c 1 t) := by
  rw [← after2_1 V c t]
theorem leaves2_2 (c : Dev nD) (t : Fin cfg2.N) :
    (dat2 V c).leavesExact 2 t = owns (c : Thread nD τ) (ms2_2 t) fullShare (iblk2 V c 2 t) := by
  rw [← after2_2 V c t]
theorem leaves2_3 (c : Dev nD) (t : Fin cfg2.N) :
    (dat2 V c).leavesExact 3 t = owns (c : Thread nD τ) (ms2_3 t) fullShare (iblk2 V c 3 t) := by
  rw [← after2_3 V c t]
theorem leaves2_4 (c : Dev nD) (t : Fin cfg2.N) :
    (dat2 V c).leavesExact 4 t = owns (c : Thread nD τ) (ms2_4 t) fullShare (iblk2 V c 4 t) := by
  rw [← after2_4 V c t]
theorem leaves2_5 (c : Dev nD) (t : Fin cfg2.N) :
    (dat2 V c).leavesExact 5 t = owns (c : Thread nD τ) (ms2_5 t) fullShare (iblk2 V c 5 t) := by
  rw [← after2_5 V c t]
theorem leaves2_6 (c : Dev nD) (t : Fin cfg2.N) :
    (dat2 V c).leavesExact 6 t = owns (c : Thread nD τ) (ms2_6 t) fullShare (iblk2 V c 6 t) := by
  rw [← after2_6 V c t]
theorem leaves2_7 (c : Dev nD) (t : Fin cfg2.N) :
    (dat2 V c).leavesExact 7 t = owns (c : Thread nD τ) (ms2_7 t) fullShare (iblk2 V c 7 t) := by
  rw [← after2_7 V c t]

theorem hin2 (c : Dev nD) : Pipeline.ΦA spec2 c ⊢ (dat2 V c).Φ 0 := by
  rw [show (dat2 V c).Φ 0 = PhiS2 V c 0 from rfl, PhiS2_zero V c 0 rfl]
  exact PhiA2_split c

theorem hout2 (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 25 := N_2; omega)]
  refine BIBase.Entails.trans ?_ (PhiA2_join c)
  iintro ⟨HR, HS0, HS1, Hg⟩
  isplitl [HR]; · iexact HR
  isplitl [HS0]; · iexists _; iexact HS0
  isplitl [HS1]; · iexists _; iexact HS1
  iexact Hg

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' buffers hold their blocks; the point's position decides the two conditions;
    the invariant hands the body the two scratch buffers (at anything at the first point, at the running sums
    afterwards) and takes them back one step further; the output's buffer comes back as found except at the last
    point, where it holds the classifier's block; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [leaves2_0, leaves2_1, leaves2_2, leaves2_3, leaves2_4, leaves2_5, leaves2_6, leaves2_7]
  rw [show (dat2 V c).owesAt () t.succ = (dat2 V c).owesAt () t.castSucc from rfl]
  rw [show (dat2 V c).Φ t.succ = PhiS2 V c (t.val + 1) from rfl, PhiS2_succ,
    show (dat2 V c).Φ t.castSucc = PhiS2 V c t.val from rfl]
  have hN : t.val < 25 := lt_of_lt_of_eq t.isLt (show cfg2.N = 25 from N_2)
  by_cases h0 : t.val = 0
  · have hc0 : cond2_0 (grid2.coords t) := (hcond2_0 t).mpr h0
    have hc1 : ¬k2_cond2 (grid2.coords t) = 1#1 := fun h => by have := (hcond2_1 t).mp h; omega
    rw [Dat.leavesExact_idle (dat2 V c) 8 t (idleAt2_8 t hc1) (noFlush2_8 t hc1)]
    rw [PhiS2_zero V c _ h0, sumAt_first V c t h0, cntAt_first V c t h0]
    unfold sumStep cntStep
    iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t d8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HR HS0 HS1 Hg]
    · isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬cond2_0 (grid2.coords t) := fun h => h0 ((hcond2_0 t).mp h)
    by_cases h1 : t.val = 24
    · have hc1 : k2_cond2 (grid2.coords t) = 1#1 := (hcond2_1 t).mpr h1
      rw [show (dat2 V c).leavesExact 8 t = owns (c : Thread nD τ) (ms2_8 t) fullShare ((dat2 V c).after 8 t) from by
        unfold Dat.leavesExact; rw [liveAt2_8 t hc1], after2_8, out2_8_last V c t h1]
      rw [PhiS2_pos V c _ h0, sumAt_next V c t h0, cntAt_next V c t h0]
      unfold sumStep cntStep
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (sumAt V c (t.val - 1)) (cntAt V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬k2_cond2 (grid2.coords t) = 1#1 := fun h => h1 ((hcond2_1 t).mp h)
      rw [Dat.leavesExact_idle (dat2 V c) 8 t (idleAt2_8 t hc1) (noFlush2_8 t hc1)]
      rw [PhiS2_pos V c _ h0, sumAt_next V c t h0, cntAt_next V c t h0]
      unfold sumStep cntStep
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t d8) (sumAt V c (t.val - 1)) (cntAt V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of @main from the launch to the return.  @main is three kernel regions among three stretches of host
  operations: stretch 0, region 0, stretch 1, region 1, stretch 2, region 2.  The contents of a core's buffers at
  the seven boundaries are a fold from the launch memory: a stretch takes a valuation to what its operations
  compute from it; a region takes it to the same valuation with the region's arrays at what the pipeline's
  write-backs leave after the last grid point (an input array as entered, the output array with every block's
  write-back folded in).  Each region's proof data are taken at the contents the region is entered from, so the
  fold is closed: nothing about a region's output is left unknown.

  Over the thread state "every unscoped buffer at the boundary's contents, the generator register at some state,
  nothing owed" each stretch is a host segment and each region a region segment: the region's arrays are split
  out of the unscoped buffers at entry and put back, at their final contents, at exit; the generator register
  goes into the region's invariant and comes back.  Regions 0 and 1 keep the class invariant (the scoped rest and
  the register, untouched) at every point; region 2 carries two scratch buffers between points, and its invariant
  meets the class invariant only before the first point and after the last one, which is all the segment needs.

  The launch over these segments gives: every weakly fair execution of @main terminates, and the final memory
  holds, at every unscoped buffer of every core, the last valuation of the fold.  No stretch and no region writes
  an argument, so the fold at an argument's buffer walks back to the launch memory.
-/
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.KI.R0
import proofs.«419596_j46471546143165_2_alg».proof.Proof.KI.R1
import proofs.«419596_j46471546143165_2_alg».proof.Proof.KI.R2
import proofs.«419596_j46471546143165_2_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the seven boundaries -/

/-- Core c's buffers at launch: the launch state's memory (zero counters, the generator registers as given). -/
abbrev W0 : Dev nD → Valuation τ sig (Elt F) := fun c b => (⟨m, fun _ => 0, ρ⟩ : MemSt nD τ sig (Elt F)).mem ((c : Dev nD), b)
/-- After stretch 0: what region 0 is entered from. -/
abbrev W1 : Dev nD → Valuation τ sig (Elt F) := fun c => StableHlo.after hostOps0 (W0 m ρ c)
/-- The same read at the TensorCore's references: the contents region 0's proof data are taken at. -/
abbrev V1 : (c : Dev nD) → (b : Ref sig .tc) → Buf (Elt F) ((c : Thread nD τ).loc b) := fun c b => W1 m ρ c b
/-- At region 0's exit: its arrays at what the pipeline leaves after the last point, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
/-- At region 0's exit each of its arrays holds what the pipeline leaves, and every other buffer what it held at
    entry: the two facts that put the arrays back among the unscoped buffers. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: the contents @main returns with. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## What no item writes ends as launched

A region changes only its output windows' arrays: an input window's array is never written back, and a buffer that
is no array of the region bypasses it.  A stretch changes only what its operations write. -/

/-- Region 0 leaves every buffer that is not one of its output arrays as it found it. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases e : (cfg0.win w).isOut with
      | false => rfl
      | true => exact absurd rfl (hb w e)
    exact (W2_arr m ρ c w).trans (((dat0 (V1 m ρ) c).arrAt_in w hin _).trans (A_eq0 (V1 m ρ) c w))
  · exact W2_of_ne m ρ c b fun w e => h ⟨w, e⟩
/-- Region 1 leaves every buffer that is not one of its output arrays as it found it. -/
theorem W4_keep (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases e : (cfg1.win w).isOut with
      | false => rfl
      | true => exact absurd rfl (hb w e)
    exact (W4_arr m ρ c w).trans (((dat1 (V3 m ρ) c).arrAt_in w hin _).trans (A_eq1 (V3 m ρ) c w))
  · exact W4_of_ne m ρ c b fun w e => h ⟨w, e⟩
/-- Region 2 leaves every buffer that is not one of its output arrays as it found it. -/
theorem W6_keep (c : Dev nD) (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases e : (cfg2.win w).isOut with
      | false => rfl
      | true => exact absurd rfl (hb w e)
    exact (W6_arr m ρ c w).trans (((dat2 (V5 m ρ) c).arrAt_in w hin _).trans (A_eq2 (V5 m ρ) c w))
  · exact W6_of_ne m ρ c b fun w e => h ⟨w, e⟩

/-- A buffer no stretch writes and no region has as an output array ends holding its launch contents: the fold
    walked back item by item. -/
theorem W6_back (c : Dev nD) (b : Ref sig .tc) (h0 : b ∉ hostOps0_W) (h1 : b ∉ hostOps1_W) (h2 : b ∉ hostOps2_W)
    (k0 : ∀ w, (cfg0.win w).isOut = true → Pipeline.arrRef spec0 w ≠ b)
    (k1 : ∀ w, (cfg1.win w).isOut = true → Pipeline.arrRef spec1 w ≠ b)
    (k2 : ∀ w, (cfg2.win w).isOut = true → Pipeline.arrRef spec2 w ≠ b) :
    W6 m ρ c (Proc.devRef .tc b) = m ((c : Thread nD τ).loc b) :=
  calc W6 m ρ c (Proc.devRef .tc b)
    _ = W5 m ρ c (Proc.devRef .tc b) := W6_keep m ρ c b k2
    _ = W4 m ρ c (Proc.devRef .tc b) := StableHlo.after_of_writes_sub hostOps2 _ hostOps2_writes h2
    _ = W3 m ρ c (Proc.devRef .tc b) := W4_keep m ρ c b k1
    _ = W2 m ρ c (Proc.devRef .tc b) := StableHlo.after_of_writes_sub hostOps1 _ hostOps1_writes h1
    _ = W1 m ρ c (Proc.devRef .tc b) := W2_keep m ρ c b k0
    _ = W0 m ρ c (Proc.devRef .tc b) := StableHlo.after_of_writes_sub hostOps0 _ hostOps0_writes h0
    _ = m ((c : Thread nD τ).loc b) := rfl

theorem W6_main_arg0 (c : Dev nD) : W6 m ρ c (Proc.devRef .tc main_arg0) = m ((c : Thread nD τ).loc main_arg0) :=
  W6_back m ρ c main_arg0 (by decide) (by decide) (by decide) (by decide) (by decide) (by decide)
theorem W6_main_arg1 (c : Dev nD) : W6 m ρ c (Proc.devRef .tc main_arg1) = m ((c : Thread nD τ).loc main_arg1) :=
  W6_back m ρ c main_arg1 (by decide) (by decide) (by decide) (by decide) (by decide) (by decide)
theorem W6_main_arg2 (c : Dev nD) : W6 m ρ c (Proc.devRef .tc main_arg2) = m ((c : Thread nD τ).loc main_arg2) :=
  W6_back m ρ c main_arg2 (by decide) (by decide) (by decide) (by decide) (by decide) (by decide)
theorem W6_main_arg3 (c : Dev nD) : W6 m ρ c (Proc.devRef .tc main_arg3) = m ((c : Thread nD τ).loc main_arg3) :=
  W6_back m ρ c main_arg3 (by decide) (by decide) (by decide) (by decide) (by decide) (by decide)
theorem W6_main_arg4 (c : Dev nD) : W6 m ρ c (Proc.devRef .tc main_arg4) = m ((c : Thread nD τ).loc main_arg4) :=
  W6_back m ρ c main_arg4 (by decide) (by decide) (by decide) (by decide) (by decide) (by decide)
theorem W6_main_arg5 (c : Dev nD) : W6 m ρ c (Proc.devRef .tc main_arg5) = m ((c : Thread nD τ).loc main_arg5) :=
  W6_back m ρ c main_arg5 (by decide) (by decide) (by decide) (by decide) (by decide) (by decide)
theorem W6_main_arg6 (c : Dev nD) : W6 m ρ c (Proc.devRef .tc main_arg6) = m ((c : Thread nD τ).loc main_arg6) :=
  W6_back m ρ c main_arg6 (by decide) (by decide) (by decide) (by decide) (by decide) (by decide)
theorem W6_main_arg7 (c : Dev nD) : W6 m ρ c (Proc.devRef .tc main_arg7) = m ((c : Thread nD τ).loc main_arg7) :=
  W6_back m ρ c main_arg7 (by decide) (by decide) (by decide) (by decide) (by decide) (by decide)
theorem W6_main_arg8 (c : Dev nD) : W6 m ρ c (Proc.devRef .tc main_arg8) = m ((c : Thread nD τ).loc main_arg8) :=
  W6_back m ρ c main_arg8 (by decide) (by decide) (by decide) (by decide) (by decide) (by decide)
theorem W6_main_arg9 (c : Dev nD) : W6 m ρ c (Proc.devRef .tc main_arg9) = m ((c : Thread nD τ).loc main_arg9) :=
  W6_back m ρ c main_arg9 (by decide) (by decide) (by decide) (by decide) (by decide) (by decide)
theorem W6_main_arg10 (c : Dev nD) : W6 m ρ c (Proc.devRef .tc main_arg10) = m ((c : Thread nD τ).loc main_arg10) :=
  W6_back m ρ c main_arg10 (by decide) (by decide) (by decide) (by decide) (by decide) (by decide)
theorem W6_main_arg11 (c : Dev nD) : W6 m ρ c (Proc.devRef .tc main_arg11) = m ((c : Thread nD τ).loc main_arg11) :=
  W6_back m ρ c main_arg11 (by decide) (by decide) (by decide) (by decide) (by decide) (by decide)
theorem W6_main_arg12 (c : Dev nD) : W6 m ρ c (Proc.devRef .tc main_arg12) = m ((c : Thread nD τ).loc main_arg12) :=
  W6_back m ρ c main_arg12 (by decide) (by decide) (by decide) (by decide) (by decide) (by decide)
theorem W6_main_arg13 (c : Dev nD) : W6 m ρ c (Proc.devRef .tc main_arg13) = m ((c : Thread nD τ).loc main_arg13) :=
  W6_back m ρ c main_arg13 (by decide) (by decide) (by decide) (by decide) (by decide) (by decide)

/-! ## The proof data family and the thread state -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev Rs (c : Dev nD) : sProp 𝕄 := iprop((∃ r, prngReg c r) ∗ ∃ W, owes (c : Thread nD τ) (0 : CellTallies nD τ sig Unit) W)
/-- A stretch as a segment over the unscoped references from the contents W, the register and the dues riding
    along; it leaves those references at what the stretch computes from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rs

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents of the fold, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ Rs c)
  post c := iprop(StableHlo.held (c : Thread nD τ) (Pipeline.ucRefs τ sig) (W2 m ρ c) ∗ Rs c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ Rs c)
  post c := iprop(StableHlo.held (c : Thread nD τ) (Pipeline.ucRefs τ sig) (W4 m ρ c) ∗ Rs c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's invariant before the first point, from the generator register and the scoped rest: the class
    invariant, which region 2's own invariant starts from. -/
theorem hin2A (c : Dev nD) :
    iprop((∃ r, prngReg c r) ∗ Pipeline.prefHeld (pcfgs (F := F) 2).pre c (fun _ => fullShare) (adm (F := F) 2).1
      ∗ Pipeline.scopedRest (Pipeline.pin (pcfgs (F := F)) adm 2).spec c) ⊢ (Pipeline.ΦA spec2 c : sProp 𝕄) := by
  unfold Pipeline.ΦA
  iintro ⟨Hp, -, Hr⟩
  isplitl [Hr]; · iexact Hr
  iexact Hp
/-- The class invariant gives back the generator register and the scoped rest; region 2's own invariant ends in it. -/
theorem hout2A (c : Dev nD) :
    (Pipeline.ΦA spec2 c : sProp 𝕄) ⊢ iprop((∃ r, prngReg c r) ∗ BI.emp ∗ Pipeline.scopedRest (Pipeline.pin (pcfgs (F := F)) adm 2).spec c) := by
  unfold Pipeline.ΦA
  iintro ⟨Hr, Hp⟩
  isplitl [Hp]; · iexact Hp
  isplitr; · iempintro
  iexact Hr

set_option backward.isDefEq.respectTransparency.types false in
/-- Region 2 over the thread state: entered from every unscoped buffer at W5, left at W6 beside the register, the
    dues apart: the last thread state.  Its invariant carries the two scratch buffers between points; at the two
    ends it is the class invariant. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ Rs c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hin2A c).trans (hin2 (V5 m ρ) c)
  hout c := by
    rw [Pipeline.ownSems0_none]
    exact (hout2 (V5 m ρ) c).trans (hout2A c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel. -/
abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments: it is the chain of its six items, and the segments' run is the chain of
    their fragments, the same six. -/
theorem main_run (c : Dev nD) : main (F := F) c = Pipeline.Seg.run (runSegs m ρ) := by
  rw [main_chain c, Pipeline.Seg.run_eq_chain]
  rfl

set_option backward.isDefEq.respectTransparency.types false in
/-- The run of @main: at the compiled mesh, from any memory with zero counters, every weakly fair execution of
    @main on the TensorCores terminates, nothing faulting, and every final state holds, at every unscoped buffer of
    every core, the last contents of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rs c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Hand

end
-- ==== Proof.Spec.lean ====
/-
  The network both programs compute, as one function of its arrays over the extended reals.

  Three graph-convolution layers over 100000 nodes — each layer is, at node n and output feature j,
  (row n of the neighbour aggregate) · (neighbour weights) + (row n of the features) · (root weights) + bias, the
  first two followed by max(·, 0) — then, per graph g, the sum of the third layer's rows over the nodes whose graph
  id is g divided by max(number of such nodes, 1), and a last linear map into 16 classes.  The neighbour aggregate
  is a parameter: each program builds it from the edge list with its own host operations.  Weights enter already
  transposed ([inputs, outputs]), as both programs pass them.
-/
import Idealize.ShloMosaic.PureOps.Ideal
import Idealize.ShloMosaic.Lib.ValueIdx

noncomputable section

namespace Cert.Spec

open Idealize.ShloMosaic Idealize.ShloMosaic.ValueIdx

/-- Node features [100000, K]. -/
abbrev SN (K : Nat) : Shape := ⟨2, ![100000, K]⟩
/-- A matrix [K, J]. -/
abbrev SM (K J : Nat) : Shape := ⟨2, ![K, J]⟩
/-- A vector [J]. -/
abbrev SV (J : Nat) : Shape := ⟨1, ![J]⟩
/-- The graph ids laid out as 25 lane-dense rows of 4000. -/
abbrev SIds3 : Shape := ⟨3, ![25, 1, 4000]⟩

/-- A matrix transposed. -/
def transp {J K : Nat} (W : (SM J K).Idx → EReal) : (SM K J).Idx → EReal := fun i => W (ix2 (i 1) (i 0))

/-- One layer's linear maps at node n, output feature j. -/
def convAt {K : Nat} (A H : (SN K).Idx → EReal) (WrelT WrootT : (SM K 128).Idx → EReal) (b : (SV 128).Idx → EReal)
    (n : Fin 100000) (j : Fin 128) : EReal :=
  (∑ k : Fin K, A (ix2 n k) * WrelT (ix2 k j) + ∑ k : Fin K, H (ix2 n k) * WrootT (ix2 k j)) + b (ix1 j)

/-- One layer's linear maps, as an array. -/
def conv {K : Nat} (A H : (SN K).Idx → EReal) (WrelT WrootT : (SM K 128).Idx → EReal) (b : (SV 128).Idx → EReal) :
    (SN 128).Idx → EReal :=
  fun i => convAt A H WrelT WrootT b (i 0) (i 1)

/-- One layer followed by max(·, 0). -/
def convRelu {K : Nat} (A H : (SN K).Idx → EReal) (WrelT WrootT : (SM K 128).Idx → EReal) (b : (SV 128).Idx → EReal) :
    (SN 128).Idx → EReal :=
  fun i => max (convAt A H WrelT WrootT b (i 0) (i 1)) 0

/-- The sum of feature k over the nodes whose graph-id word is g. -/
def poolSum (ids : (SV 100000).Idx → BitVec 32) (H : (SN 128).Idx → EReal) (g k : Fin 128) : EReal :=
  ∑ n : Fin 100000, if ids (ix1 n) = BitVec.ofNat 32 g.val then H (ix2 n k) else 0

/-- The number of nodes whose graph-id word is g. -/
def poolCnt (ids : (SV 100000).Idx → BitVec 32) (g : Fin 128) : EReal :=
  ∑ n : Fin 100000, if ids (ix1 n) = BitVec.ofNat 32 g.val then (1 : EReal) else 0

/-- The classifier at graph g, class q: the mean-pooled features times the classifier's weights plus its bias. -/
def headAt (S : Fin 128 → Fin 128 → EReal) (Cn : Fin 128 → EReal) (WlinT : (SM 128 16).Idx → EReal)
    (blin : (SV 16).Idx → EReal) (g : Fin 128) (q : Fin 16) : EReal :=
  (∑ k : Fin 128, Ideal.div (S g k) (max (Cn g) 1) * WlinT (ix2 k q)) + blin (ix1 q)

/-- The third layer, mean pooling and the classifier, as an array [128, 16]. -/
def poolHead (A H : (SN 128).Idx → EReal) (WrelT WrootT : (SM 128 128).Idx → EReal) (b : (SV 128).Idx → EReal)
    (ids : (SV 100000).Idx → BitVec 32) (WlinT : (SM 128 16).Idx → EReal) (blin : (SV 16).Idx → EReal) :
    (SM 128 16).Idx → EReal :=
  fun i => headAt (poolSum ids (conv A H WrelT WrootT b)) (poolCnt ids) WlinT blin (i 0) (i 1)

/-- The graph ids read back from their 25 rows of 4000: node n sits in row n / 4000 at lane n % 4000. -/
def flat3 (ids3 : SIds3.Idx → BitVec 32) : (SV 100000).Idx → BitVec 32 :=
  fun i => ids3 (ix3 (⟨(i 0).val / 4000, by have h : (i 0).val < 100000 := (i 0).isLt; omega⟩ : Fin 25) (0 : Fin 1)
    (⟨(i 0).val % 4000, Nat.mod_lt _ (by norm_num)⟩ : Fin 4000))

/-- The whole network, over a neighbour aggregate for 64 and for 128 features. -/
def net (agg64 : ((SN 64).Idx → EReal) → (SN 64).Idx → EReal) (agg128 : ((SN 128).Idx → EReal) → (SN 128).Idx → EReal)
    (x : (SN 64).Idx → EReal)
    (W1relT W1rootT : (SM 64 128).Idx → EReal) (b1 : (SV 128).Idx → EReal)
    (W2relT W2rootT : (SM 128 128).Idx → EReal) (b2 : (SV 128).Idx → EReal)
    (W3relT W3rootT : (SM 128 128).Idx → EReal) (b3 : (SV 128).Idx → EReal)
    (ids : (SV 100000).Idx → BitVec 32) (WlinT : (SM 128 16).Idx → EReal) (blin : (SV 16).Idx → EReal) :
    (SM 128 16).Idx → EReal :=
  let h1 := convRelu (agg64 x) x W1relT W1rootT b1
  let h2 := convRelu (agg128 h1) h1 W2relT W2rootT b2
  poolHead (agg128 h2) h2 W3relT W3rootT b3 ids WlinT blin

end Cert.Spec

end
-- ==== Proof.KI.Host.lean ====
/-
  The kernel program's host lines, read as values (at the exact instance).  Before each region the host builds the
  neighbour aggregate of the current features: it takes, for every edge, the feature row of the edge's source node
  (negative ids wrapped by +100000, out-of-range ids clamped by the gather) and adds it into the row of the edge's
  destination node (negative ids wrapped by +100000, out-of-range ids dropped by the scatter), starting from zeros.
  It also transposes the weight matrices and lays the graph ids out as 25 rows of 4000.
-/
import proofs.«419596_j46471546143165_2_alg».proof.Proof.Gen.KernelIdeal.Launch
import proofs.«419596_j46471546143165_2_alg».proof.Proof.Gen.KernelIdeal.Regions
import proofs.«419596_j46471546143165_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-- Row 0 of the edge list (the source ids), flattened. -/
def edgeRow0 (e : IVec S2x1600000 32) : IVec S1600000 32 :=
  fun i => shapeCast S1600000 (extractStridedSlice S1x1600000 ![0, 0] e slices_S2x1600000_S1x1600000_0_0) shapeCasts_S1x1600000_S1600000 i

/-- Row 1 of the edge list (the destination ids), flattened. -/
def edgeRow1 (e : IVec S2x1600000 32) : IVec S1600000 32 :=
  fun i => shapeCast S1600000 (extractStridedSlice S1x1600000 ![1, 0] e slices_S2x1600000_S1x1600000_1_0) shapeCasts_S1x1600000_S1600000 i

/-- A negative id wrapped by +100000, any other id kept. -/
def wrapIdx (d : IVec S1600000 32) : IVec S1600000 32 :=
  select (cmpi .slt d (broadcastInDim S1600000 ![] bcast_S_S1600000 (constantI S_ 32 0#32)))
    (addi d (broadcastInDim S1600000 ![] bcast_S_S1600000 (constantI S_ 32 100000#32))) d

/-- The ids as a one-column table of start indices. -/
def idCol (d : IVec S1600000 32) : IVec S1600000x1 32 := broadcastInDim S1600000x1 ![0] bcast_S1600000_S1600000x1_0 d

/-- The neighbour aggregate of 64 features from the flattened source and destination ids. -/
def aggOf64 (s d : IVec S1600000 32) (h : FVec Ideal S100000x64 .bf16) : FVec Ideal S100000x64 .f32 :=
  Host.scatterAdd scatter_S100000x64_S1600000x1_S1600000x64_1_0_0_1
    (broadcastInDim S100000x64 ![] bcast_S_S100000x64 (constant S_ .f32 0#32)) (idCol (wrapIdx d))
    (extf .f32 (Host.gather gather_S100000x64_S1600000x1_S1600000x64_1_0_n_n_0_1_164 h (idCol (wrapIdx s))) bitsLt_bf16_f32)

/-- The neighbour aggregate of 128 features from the flattened source and destination ids. -/
def aggOf128 (s d : IVec S1600000 32) (h : FVec Ideal S100000x128 .bf16) : FVec Ideal S100000x128 .f32 :=
  Host.scatterAdd scatter_S100000x128_S1600000x1_S1600000x128_1_0_0_1
    (broadcastInDim S100000x128 ![] bcast_S_S100000x128 (constant S_ .f32 0#32)) (idCol (wrapIdx d))
    (extf .f32 (Host.gather gather_S100000x128_S1600000x1_S1600000x128_1_0_n_n_0_1_1128 h (idCol (wrapIdx s))) bitsLt_bf16_f32)

/-- The neighbour aggregate of 64 features as the kernel's host lines build it from the edge list. -/
def aggK64 (e : IVec S2x1600000 32) (h : FVec Ideal S100000x64 .bf16) : FVec Ideal S100000x64 .f32 :=
  aggOf64 (edgeRow0 e) (edgeRow1 e) h

/-- The neighbour aggregate of 128 features as the kernel's host lines build it from the edge list. -/
def aggK128 (e : IVec S2x1600000 32) (h : FVec Ideal S100000x128 .bf16) : FVec Ideal S100000x128 .f32 :=
  aggOf128 (edgeRow0 e) (edgeRow1 e) h

variable (W : Valuation τ sig (Elt Ideal))

/-! ## The lines before region 0 -/

set_option maxHeartbeats 4000000 in
theorem host0_v1 : StableHlo.after (hostOps0 (F := Ideal)) W (Proc.devRef .tc main_v1) = edgeRow0 (W (Proc.devRef .tc main_arg1)) := by
  dsimp only [hostOps0]
  after_results_simp
  rfl

set_option maxHeartbeats 4000000 in
theorem host0_v3 : StableHlo.after (hostOps0 (F := Ideal)) W (Proc.devRef .tc main_v3) = edgeRow1 (W (Proc.devRef .tc main_arg1)) := by
  dsimp only [hostOps0]
  after_results_simp
  rfl

set_option maxHeartbeats 4000000 in
theorem host0_v20 : StableHlo.after (hostOps0 (F := Ideal)) W (Proc.devRef .tc main_v20)
    = aggK64 (W (Proc.devRef .tc main_arg1)) (truncf .bf16 (W (Proc.devRef .tc main_arg0)) bitsLt_bf16_f32) := by
  dsimp only [hostOps0]
  after_results_simp
  rfl

set_option maxHeartbeats 4000000 in
theorem host0_v4 : (StableHlo.after (hostOps0 (F := Ideal)) W (Proc.devRef .tc main_v4) : FVec Ideal S100000x64 .bf16)
    = truncf (F := Ideal) .bf16 (W (Proc.devRef .tc main_arg0) : FVec Ideal S100000x64 .f32) bitsLt_bf16_f32 := by
  dsimp only [hostOps0]
  after_results_simp

set_option maxHeartbeats 4000000 in
theorem host0_v21 : StableHlo.after (hostOps0 (F := Ideal)) W (Proc.devRef .tc main_v21)
    = transpose S64x128 [1, 0] (W (Proc.devRef .tc main_arg3)) transposes_S128x64_S64x128_1_0 := by
  dsimp only [hostOps0]
  after_results_simp

set_option maxHeartbeats 4000000 in
theorem host0_v22 : StableHlo.after (hostOps0 (F := Ideal)) W (Proc.devRef .tc main_v22)
    = transpose S64x128 [1, 0] (W (Proc.devRef .tc main_arg5)) transposes_S128x64_S64x128_1_0 := by
  dsimp only [hostOps0]
  after_results_simp

/-! ## The lines before region 1 -/

set_option maxHeartbeats 4000000 in
theorem host1_v39 : StableHlo.after (hostOps1 (F := Ideal)) W (Proc.devRef .tc main_v39)
    = aggOf128 (W (Proc.devRef .tc main_v1)) (W (Proc.devRef .tc main_v3)) (W (Proc.devRef .tc main_v23)) := by
  dsimp only [hostOps1]
  after_results_simp
  rfl

set_option maxHeartbeats 4000000 in
theorem host1_v40 : StableHlo.after (hostOps1 (F := Ideal)) W (Proc.devRef .tc main_v40)
    = transpose S128x128 [1, 0] (W (Proc.devRef .tc main_arg6)) transposes_S128x128_S128x128_1_0 := by
  dsimp only [hostOps1]
  after_results_simp

set_option maxHeartbeats 4000000 in
theorem host1_v41 : StableHlo.after (hostOps1 (F := Ideal)) W (Proc.devRef .tc main_v41)
    = transpose S128x128 [1, 0] (W (Proc.devRef .tc main_arg8)) transposes_S128x128_S128x128_1_0 := by
  dsimp only [hostOps1]
  after_results_simp

/-! ## The lines before region 2 -/

set_option maxHeartbeats 4000000 in
theorem host2_v58 : StableHlo.after (hostOps2 (F := Ideal)) W (Proc.devRef .tc main_v58)
    = aggOf128 (W (Proc.devRef .tc main_v1)) (W (Proc.devRef .tc main_v3)) (W (Proc.devRef .tc main_v42)) := by
  dsimp only [hostOps2]
  after_results_simp
  rfl

set_option maxHeartbeats 4000000 in
theorem host2_v59 : StableHlo.after (hostOps2 (F := Ideal)) W (Proc.devRef .tc main_v59)
    = transpose S128x128 [1, 0] (W (Proc.devRef .tc main_arg9)) transposes_S128x128_S128x128_1_0 := by
  dsimp only [hostOps2]
  after_results_simp

set_option maxHeartbeats 4000000 in
theorem host2_v60 : StableHlo.after (hostOps2 (F := Ideal)) W (Proc.devRef .tc main_v60)
    = transpose S128x128 [1, 0] (W (Proc.devRef .tc main_arg11)) transposes_S128x128_S128x128_1_0 := by
  dsimp only [hostOps2]
  after_results_simp

set_option maxHeartbeats 4000000 in
theorem host2_v61 : StableHlo.after (hostOps2 (F := Ideal)) W (Proc.devRef .tc main_v61)
    = transpose S128x16 [1, 0] (W (Proc.devRef .tc main_arg12)) transposes_S16x128_S128x16_1_0 := by
  dsimp only [hostOps2]
  after_results_simp

set_option maxHeartbeats 4000000 in
theorem host2_v62 : StableHlo.after (hostOps2 (F := Ideal)) W (Proc.devRef .tc main_v62)
    = fun i => shapeCast S25x1x4000 (W (Proc.devRef .tc main_arg2)) shapeCasts_S100000_S25x1x4000 i := by
  dsimp only [hostOps2]
  after_results_simp
  rfl

end Cert.KernelIdeal.Hand

end
-- ==== Proof.KI.V0.lean ====
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.KI.D0
import proofs.«419596_j46471546143165_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-- The two zero offsets of a whole-block rectangle, as a constant function. -/
theorem arrAt0_hz : (![0, 0] : Fin 2 → Nat) = fun _ => 0 := funext fun a => by fin_cases a <;> rfl

/-- The left factor of the block product at output index i and contraction index q sits at row i 0 … -/
theorem arrAt0_lhs0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
/-- … and at the contraction coordinate as its column. -/
theorem arrAt0_lhs1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
/-- The right factor sits at the contraction coordinate as its row … -/
theorem arrAt0_rhs0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
/-- … and at column i 1. -/
theorem arrAt0_rhs1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The contraction index of the block product is its one coordinate. -/
def arrAt0_contr : dot_S4000x64_S64x128_S4000x128_1_0_0_1_n_n.contr.Idx ≃ Fin 64 :=
  ValueIdx.contrEquiv1 dot_S4000x64_S64x128_S4000x128_1_0_0_1_n_n _ rfl rfl

/-- Its inverse puts the coordinate on the contraction shape's one axis. -/
theorem arrAt0_contr_symm_val (k : Fin 64) : ((arrAt0_contr.symm k) ⟨0, by decide⟩ : ℕ) = k.val :=
  ValueIdx.contrEquiv1_symm_val dot_S4000x64_S64x128_S4000x128_1_0_0_1_n_n _ rfl rfl k

/-- A block product into the zero accumulator, at row p and column q, is the sum over the contraction coordinate. -/
theorem arrAt0_matmul {φ₁ φ₂ : FTy} (a : FVec Ideal S4000x64 φ₁) (b : FVec Ideal S64x128 φ₂) (p : Fin 4000) (q : Fin 128) :
    FloatOps.matmul dot_S4000x64_S64x128_S4000x128_1_0_0_1_n_n none a b (constant S4000x128 .f32 0x00000000#32) (ix2 p q)
      = ∑ k : Fin 64, a (ix2 p k) * b (ix2 k q) := by
  rw [Ideal.matmul_constant_zero_apply, ← Equiv.sum_comp arrAt0_contr.symm]
  refine Finset.sum_congr rfl fun k _ => ?_
  have hk := arrAt0_contr_symm_val k
  have el : dot_S4000x64_S64x128_S4000x128_1_0_0_1_n_n.lhsIdx (ix2 p q) (arrAt0_contr.symm k) = ix2 p k := funext fun a => Fin.ext (by
    match a with
    | ⟨0, _⟩ => exact arrAt0_lhs0 _ _
    | ⟨1, _⟩ => exact (arrAt0_lhs1 _ _).trans hk)
  have er : dot_S4000x64_S64x128_S4000x128_1_0_0_1_n_n.rhsIdx (ix2 p q) (arrAt0_contr.symm k) = ix2 k q := funext fun a => Fin.ext (by
    match a with
    | ⟨0, _⟩ => exact (arrAt0_rhs0 _ _).trans hk
    | ⟨1, _⟩ => exact arrAt0_rhs1 _ _)
  rw [el, er]

/-- The body's arithmetic at row p, column q of the block: both products, the bias, and max(·, 0). -/
theorem arrAt0_pay (x0 : Vec Ideal S4000x64 .f32) (x1 : Vec Ideal S4000x64 .bf16) (x2 x4 : Vec Ideal S64x128 .f32)
    (x3 : Vec Ideal S128 .f32) (p : Fin 4000) (q : Fin 128) :
    k0_pay1 (F := Ideal) x0 x1 x2 x4 x3 (ix2 p q)
      = max ((∑ k : Fin 64, x0 (ix2 p k) * x2 (ix2 k q) + ∑ k : Fin 64, x1 (ix2 p k) * x4 (ix2 k q)) + x3 (ix1 q)) 0 := by
  unfold k0_pay1
  refine (truncf_apply (ψ := .bf16) (φ := .f32) _ bitsLt_bf16_f32 (ix2 p q)).trans ?_
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · refine (arrAt0_matmul _ _ p q).trans ?_
        refine Finset.sum_congr rfl fun k _ => ?_
        refine congrArg₂ (· * ·) ?_ ?_
        · exact (truncf_apply (ψ := .bf16) (φ := .f32) _ bitsLt_bf16_f32 _).trans (congrFun (shapeCast_self x0 _) _)
        · exact (truncf_apply (ψ := .bf16) (φ := .f32) _ bitsLt_bf16_f32 _).trans (congrFun (shapeCast_self x2 _) _)
      · refine (arrAt0_matmul _ _ p q).trans ?_
        refine Finset.sum_congr rfl fun k _ => ?_
        refine congrArg₂ (· * ·) ?_ ?_
        · exact congrFun (shapeCast_self x1 _) _
        · exact (truncf_apply (ψ := .bf16) (φ := .f32) _ bitsLt_bf16_f32 _).trans (congrFun (shapeCast_self x4 _) _)
    · exact (broadcastTo_1b_ab_apply _ _ p q).trans (shapeCast_a_1a_apply x3 _ 0 q)
  · exact Ideal.ofBits_zero_f32

/-- The printed index maps over the grid: the two row-blocked inputs and the output sit at block row t, block column 0;
    the two weight matrices and the bias at block 0. -/
theorem arrAt0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the neighbour aggregate is row 4000 t + p of the array. -/
theorem arrAt0_blk_agg (c : Dev nD) (t : Fin cfg0.N) (p : Fin 4000) (k : Fin 64) (n : Fin 100000)
    (hn : n.val = 4000 * t.val + p.val) :
    iblk0 V c 0 t (ix2 p k) = V c main_v20 (ix2 n k) := by
  obtain ⟨e00, e01, -⟩ := arrAt0_idx t
  show V c main_v20 (((cfg0.win 0).blk t).view.emb (ix2 p k)) = V c main_v20 (ix2 n k)
  congr 1
  funext a; apply Fin.ext
  match a with
  | ⟨0, _⟩ => show win0_0.index t (0 : Fin 2) * 4000 + 1 * p.val = n.val; rw [e00, hn]; omega
  | ⟨1, _⟩ => show win0_0.index t (1 : Fin 2) * _ + 1 * k.val = k.val; rw [e01, Nat.zero_mul]; omega

/-- Row p of point t's block of the node features is row 4000 t + p of the array. -/
theorem arrAt0_blk_feat (c : Dev nD) (t : Fin cfg0.N) (p : Fin 4000) (k : Fin 64) (n : Fin 100000)
    (hn : n.val = 4000 * t.val + p.val) :
    iblk0 V c 1 t (ix2 p k) = (V c main_v4) (ix2 n k) := by
  obtain ⟨-, -, e10, e11, -⟩ := arrAt0_idx t
  show (V c main_v4) (((cfg0.win 1).blk t).view.emb (ix2 p k)) = (V c main_v4) (ix2 n k)
  congr 1
  funext a; apply Fin.ext
  match a with
  | ⟨0, _⟩ => show win0_1.index t (0 : Fin 2) * 4000 + 1 * p.val = n.val; rw [e10, hn]; omega
  | ⟨1, _⟩ => show win0_1.index t (1 : Fin 2) * _ + 1 * k.val = k.val; rw [e11, Nat.zero_mul]; omega

/-- The block of the neighbour weights is the whole matrix at every point. -/
theorem arrAt0_blk_wrel (c : Dev nD) (t : Fin cfg0.N) (k : Fin 64) (q : Fin 128) :
    iblk0 V c 2 t (ix2 k q) = V c main_v21 (ix2 k q) := by
  obtain ⟨-, -, -, -, e20, e21, -⟩ := arrAt0_idx t
  show V c main_v21 (((cfg0.win 2).blk t).view.emb (ix2 k q)) = V c main_v21 (ix2 k q)
  congr 1
  funext a; apply Fin.ext
  match a with
  | ⟨0, _⟩ => show win0_2.index t (0 : Fin 2) * _ + 1 * k.val = k.val; rw [e20, Nat.zero_mul]; omega
  | ⟨1, _⟩ => show win0_2.index t (1 : Fin 2) * 128 + 1 * q.val = q.val; rw [e21]; omega

/-- The block of the root weights is the whole matrix at every point. -/
theorem arrAt0_blk_wroot (c : Dev nD) (t : Fin cfg0.N) (k : Fin 64) (q : Fin 128) :
    iblk0 V c 4 t (ix2 k q) = V c main_v22 (ix2 k q) := by
  obtain ⟨-, -, -, -, -, -, -, e40, e41, -⟩ := arrAt0_idx t
  show V c main_v22 (((cfg0.win 4).blk t).view.emb (ix2 k q)) = V c main_v22 (ix2 k q)
  congr 1
  funext a; apply Fin.ext
  match a with
  | ⟨0, _⟩ => show win0_4.index t (0 : Fin 2) * _ + 1 * k.val = k.val; rw [e40, Nat.zero_mul]; omega
  | ⟨1, _⟩ => show win0_4.index t (1 : Fin 2) * 128 + 1 * q.val = q.val; rw [e41]; omega

/-- The block of the bias is the whole vector at every point. -/
theorem arrAt0_blk_bias (c : Dev nD) (t : Fin cfg0.N) (q : Fin 128) :
    iblk0 V c 3 t (ix1 q) = (V c main_arg4) (ix1 q) := by
  obtain ⟨-, -, -, -, -, -, e30, -⟩ := arrAt0_idx t
  show (V c main_arg4) (((cfg0.win 3).blk t).view.emb (ix1 q)) = (V c main_arg4) (ix1 q)
  congr 1
  funext a; apply Fin.ext
  match a with
  | ⟨0, _⟩ => show win0_3.index t (0 : Fin 1) * 128 + 1 * q.val = q.val; rw [e30]; omega

/-- Element (p, q) of point t's output block sits at row 4000 t + p, column q of the array. -/
theorem arrAt0_emb_out (t : Fin cfg0.N) (p : Fin 4000) (q : Fin 128) (n : Fin 100000)
    (hn : n.val = 4000 * t.val + p.val) :
    ((cfg0.win 5).blk t).view.emb (ix2 p q) = ix2 n q := by
  obtain ⟨-, -, -, -, -, -, -, -, -, e50, e51⟩ := arrAt0_idx t
  funext a; apply Fin.ext
  match a with
  | ⟨0, _⟩ => show win0_5.index t (0 : Fin 2) * 4000 + 1 * p.val = n.val; rw [e50, hn]; omega
  | ⟨1, _⟩ => show win0_5.index t (1 : Fin 2) * 128 + 1 * q.val = q.val; rw [e51]; omega

/-- What point t writes back is block t of the layer of the five arrays. -/
theorem arrAt0_flushed (c : Dev nD) (t : Fin cfg0.N) :
    (dat0 (F := Ideal) V c).flushed 5 t = ((cfg0.win 5).blk t).view.read (Elt Ideal)
      (Cert.Spec.convRelu (K := 64) (V c main_v20) (V c main_v4) (V c main_v21) (V c main_v22) (V c main_arg4)) := by
  show (cfg0.win 5).cut (grid0.coords t) ((dat0 V c).after 5 t) = _
  rw [after0_5]
  unfold out0_5
  rw [View.canon_unit_zero arrAt0_hz]
  funext j
  obtain ⟨p, q, rfl⟩ : ∃ (p : Fin 4000) (q : Fin 128), j = ix2 p q := ⟨j 0, j 1, eq_ix2 j⟩
  have ht : t.val < 25 := lt_of_lt_of_eq t.isLt N_0
  have hn : 4000 * t.val + p.val < 100000 := by have := p.isLt; omega
  show k0_pay1 (F := Ideal) (iblk0 V c 0 t) (iblk0 V c 1 t) (iblk0 V c 2 t) (iblk0 V c 4 t) (iblk0 V c 3 t) (ix2 p q)
    = Cert.Spec.convRelu (K := 64) (V c main_v20) (V c main_v4) (V c main_v21) (V c main_v22) (V c main_arg4)
        (((cfg0.win 5).blk t).view.emb (ix2 p q))
  rw [arrAt0_emb_out t p q ⟨4000 * t.val + p.val, hn⟩ rfl]
  refine (arrAt0_pay (iblk0 V c 0 t) (iblk0 V c 1 t) (iblk0 V c 2 t) (iblk0 V c 4 t) (iblk0 V c 3 t) p q).trans ?_
  unfold Cert.Spec.convRelu Cert.Spec.convAt
  refine congrArg₂ max ?_ rfl
  refine congrArg₂ (· + ·) (congrArg₂ (· + ·) ?_ ?_) ?_
  · exact Finset.sum_congr rfl fun k _ => congrArg₂ (· * ·)
      (arrAt0_blk_agg V c t p k ⟨4000 * t.val + p.val, hn⟩ rfl) (arrAt0_blk_wrel V c t k q)
  · exact Finset.sum_congr rfl fun k _ => congrArg₂ (· * ·)
      (arrAt0_blk_feat V c t p k ⟨4000 * t.val + p.val, hn⟩ rfl) (arrAt0_blk_wroot V c t k q)
  · exact arrAt0_blk_bias V c t q

/-- An index of the array is in point t's block iff each coordinate is in the block's range on its axis. -/
theorem arrAt0_mem_blk (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole (Pipeline.arrRef spec0 5)).slice (win0_5.rect t)).set ↔ _
  rw [View.set_slice_whole, Rect.mem_set_unit]
  exact Iff.rfl

/-- Row r of the array is in the block of point r / 4000: the 25 blocks tile the rows. -/
theorem arrAt0_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_5 _, ?_⟩
  rw [arrAt0_mem_blk]
  obtain ⟨-, -, -, -, -, -, -, -, -, e50, e51⟩ := arrAt0_idx ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [e50]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [e51]; omega

/-- After region 0 its output array holds one graph-convolution layer with max(·, 0) of the region's five arrays:
    row block t of the array is what point t wrote back, and the blocks tile the rows. -/
theorem arrAt0 (c : Dev nD) :
    (dat0 (F := Ideal) V c).arrAt 5 cfg0.N
      = Cert.Spec.convRelu (K := 64) (V c main_v20) (V c main_v4) (V c main_v21) (V c main_v22) (V c main_arg4) :=
  (dat0 (F := Ideal) V c).arrAt_eq_of_cover 5 _ (fun t _ => arrAt0_flushed V c t) arrAt0_cover

end Cert.KernelIdeal.Hand

end
-- ==== Proof.KI.V1.lean ====
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.KI.D1
import proofs.«419596_j46471546143165_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-- The two zero offsets of a whole-block rectangle, as a constant function. -/
theorem arrAt1_hz : (![0, 0] : Fin 2 → Nat) = fun _ => 0 := funext fun a => by fin_cases a <;> rfl

/-- The left factor of the block product at output index i and contraction index q sits at row i 0 … -/
theorem arrAt1_lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and at the contraction coordinate as its column. -/
theorem arrAt1_lhs1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right factor sits at the contraction coordinate as its row … -/
theorem arrAt1_rhs0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and at column i 1. -/
theorem arrAt1_rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The contraction index of the block product is its one coordinate. -/
def arrAt1_contr : dot_S4000x128_S128x128_S4000x128_1_0_0_1_n_n.contr.Idx ≃ Fin 128 :=
  ValueIdx.contrEquiv1 dot_S4000x128_S128x128_S4000x128_1_0_0_1_n_n _ rfl rfl

/-- Its inverse puts the coordinate on the contraction shape's one axis. -/
theorem arrAt1_contr_symm_val (k : Fin 128) : ((arrAt1_contr.symm k) ⟨0, by decide⟩ : ℕ) = k.val :=
  ValueIdx.contrEquiv1_symm_val dot_S4000x128_S128x128_S4000x128_1_0_0_1_n_n _ rfl rfl k

/-- A block product into the zero accumulator, at row p and column q, is the sum over the contraction coordinate. -/
theorem arrAt1_matmul {φ₁ φ₂ : FTy} (a : FVec Ideal S4000x128 φ₁) (b : FVec Ideal S128x128 φ₂) (p : Fin 4000) (q : Fin 128) :
    FloatOps.matmul dot_S4000x128_S128x128_S4000x128_1_0_0_1_n_n none a b (constant S4000x128 .f32 0x00000000#32) (ix2 p q)
      = ∑ k : Fin 128, a (ix2 p k) * b (ix2 k q) := by
  rw [Ideal.matmul_constant_zero_apply, ← Equiv.sum_comp arrAt1_contr.symm]
  refine Finset.sum_congr rfl fun k _ => ?_
  have hk := arrAt1_contr_symm_val k
  have el : dot_S4000x128_S128x128_S4000x128_1_0_0_1_n_n.lhsIdx (ix2 p q) (arrAt1_contr.symm k) = ix2 p k := funext fun a => Fin.ext (by
    match a with
    | ⟨0, _⟩ => exact arrAt1_lhs0 _ _
    | ⟨1, _⟩ => exact (arrAt1_lhs1 _ _).trans hk)
  have er : dot_S4000x128_S128x128_S4000x128_1_0_0_1_n_n.rhsIdx (ix2 p q) (arrAt1_contr.symm k) = ix2 k q := funext fun a => Fin.ext (by
    match a with
    | ⟨0, _⟩ => exact (arrAt1_rhs0 _ _).trans hk
    | ⟨1, _⟩ => exact arrAt1_rhs1 _ _)
  rw [el, er]

/-- The body's arithmetic at row p, column q of the block: both products, the bias, and max(·, 0). -/
theorem arrAt1_pay (x0 : Vec Ideal S4000x128 .f32) (x1 : Vec Ideal S4000x128 .bf16) (x2 x4 : Vec Ideal S128x128 .f32)
    (x3 : Vec Ideal S128 .f32) (p : Fin 4000) (q : Fin 128) :
    k1_pay1 (F := Ideal) x0 x1 x2 x4 x3 (ix2 p q)
      = max ((∑ k : Fin 128, x0 (ix2 p k) * x2 (ix2 k q) + ∑ k : Fin 128, x1 (ix2 p k) * x4 (ix2 k q)) + x3 (ix1 q)) 0 := by
  unfold k1_pay1
  refine (truncf_apply (ψ := .bf16) (φ := .f32) _ bitsLt_bf16_f32 (ix2 p q)).trans ?_
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · refine (arrAt1_matmul _ _ p q).trans ?_
        refine Finset.sum_congr rfl fun k _ => ?_
        refine congrArg₂ (· * ·) ?_ ?_
        · exact (truncf_apply (ψ := .bf16) (φ := .f32) _ bitsLt_bf16_f32 _).trans (congrFun (shapeCast_self x0 _) _)
        · exact (truncf_apply (ψ := .bf16) (φ := .f32) _ bitsLt_bf16_f32 _).trans (congrFun (shapeCast_self x2 _) _)
      · refine (arrAt1_matmul _ _ p q).trans ?_
        refine Finset.sum_congr rfl fun k _ => ?_
        refine congrArg₂ (· * ·) ?_ ?_
        · exact congrFun (shapeCast_self x1 _) _
        · exact (truncf_apply (ψ := .bf16) (φ := .f32) _ bitsLt_bf16_f32 _).trans (congrFun (shapeCast_self x4 _) _)
    · exact (broadcastTo_1b_ab_apply _ _ p q).trans (shapeCast_a_1a_apply x3 _ 0 q)
  · exact Ideal.ofBits_zero_f32

/-- The printed index maps over the grid: the two row-blocked inputs and the output sit at block row t, block column 0;
    the two weight matrices and the bias at block 0. -/
theorem arrAt1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the neighbour aggregate is row 4000 t + p of the array. -/
theorem arrAt1_blk_agg (c : Dev nD) (t : Fin cfg1.N) (p : Fin 4000) (k : Fin 128) (n : Fin 100000)
    (hn : n.val = 4000 * t.val + p.val) :
    iblk1 V c 0 t (ix2 p k) = V c main_v39 (ix2 n k) := by
  obtain ⟨e00, e01, -⟩ := arrAt1_idx t
  show V c main_v39 (((cfg1.win 0).blk t).view.emb (ix2 p k)) = V c main_v39 (ix2 n k)
  congr 1
  funext a; apply Fin.ext
  match a with
  | ⟨0, _⟩ => show win1_0.index t (0 : Fin 2) * 4000 + 1 * p.val = n.val; rw [e00, hn]; omega
  | ⟨1, _⟩ => show win1_0.index t (1 : Fin 2) * _ + 1 * k.val = k.val; rw [e01, Nat.zero_mul]; omega

/-- Row p of point t's block of the node features is row 4000 t + p of the array. -/
theorem arrAt1_blk_feat (c : Dev nD) (t : Fin cfg1.N) (p : Fin 4000) (k : Fin 128) (n : Fin 100000)
    (hn : n.val = 4000 * t.val + p.val) :
    iblk1 V c 1 t (ix2 p k) = (V c main_v23) (ix2 n k) := by
  obtain ⟨-, -, e10, e11, -⟩ := arrAt1_idx t
  show (V c main_v23) (((cfg1.win 1).blk t).view.emb (ix2 p k)) = (V c main_v23) (ix2 n k)
  congr 1
  funext a; apply Fin.ext
  match a with
  | ⟨0, _⟩ => show win1_1.index t (0 : Fin 2) * 4000 + 1 * p.val = n.val; rw [e10, hn]; omega
  | ⟨1, _⟩ => show win1_1.index t (1 : Fin 2) * _ + 1 * k.val = k.val; rw [e11, Nat.zero_mul]; omega

/-- The block of the neighbour weights is the whole matrix at every point. -/
theorem arrAt1_blk_wrel (c : Dev nD) (t : Fin cfg1.N) (k : Fin 128) (q : Fin 128) :
    iblk1 V c 2 t (ix2 k q) = V c main_v40 (ix2 k q) := by
  obtain ⟨-, -, -, -, e20, e21, -⟩ := arrAt1_idx t
  show V c main_v40 (((cfg1.win 2).blk t).view.emb (ix2 k q)) = V c main_v40 (ix2 k q)
  congr 1
  funext a; apply Fin.ext
  match a with
  | ⟨0, _⟩ => show win1_2.index t (0 : Fin 2) * _ + 1 * k.val = k.val; rw [e20, Nat.zero_mul]; omega
  | ⟨1, _⟩ => show win1_2.index t (1 : Fin 2) * 128 + 1 * q.val = q.val; rw [e21]; omega

/-- The block of the root weights is the whole matrix at every point. -/
theorem arrAt1_blk_wroot (c : Dev nD) (t : Fin cfg1.N) (k : Fin 128) (q : Fin 128) :
    iblk1 V c 4 t (ix2 k q) = V c main_v41 (ix2 k q) := by
  obtain ⟨-, -, -, -, -, -, -, e40, e41, -⟩ := arrAt1_idx t
  show V c main_v41 (((cfg1.win 4).blk t).view.emb (ix2 k q)) = V c main_v41 (ix2 k q)
  congr 1
  funext a; apply Fin.ext
  match a with
  | ⟨0, _⟩ => show win1_4.index t (0 : Fin 2) * _ + 1 * k.val = k.val; rw [e40, Nat.zero_mul]; omega
  | ⟨1, _⟩ => show win1_4.index t (1 : Fin 2) * 128 + 1 * q.val = q.val; rw [e41]; omega

/-- The block of the bias is the whole vector at every point. -/
theorem arrAt1_blk_bias (c : Dev nD) (t : Fin cfg1.N) (q : Fin 128) :
    iblk1 V c 3 t (ix1 q) = (V c main_arg7) (ix1 q) := by
  obtain ⟨-, -, -, -, -, -, e30, -⟩ := arrAt1_idx t
  show (V c main_arg7) (((cfg1.win 3).blk t).view.emb (ix1 q)) = (V c main_arg7) (ix1 q)
  congr 1
  funext a; apply Fin.ext
  match a with
  | ⟨0, _⟩ => show win1_3.index t (0 : Fin 1) * 128 + 1 * q.val = q.val; rw [e30]; omega

/-- Element (p, q) of point t's output block sits at row 4000 t + p, column q of the array. -/
theorem arrAt1_emb_out (t : Fin cfg1.N) (p : Fin 4000) (q : Fin 128) (n : Fin 100000)
    (hn : n.val = 4000 * t.val + p.val) :
    ((cfg1.win 5).blk t).view.emb (ix2 p q) = ix2 n q := by
  obtain ⟨-, -, -, -, -, -, -, -, -, e50, e51⟩ := arrAt1_idx t
  funext a; apply Fin.ext
  match a with
  | ⟨0, _⟩ => show win1_5.index t (0 : Fin 2) * 4000 + 1 * p.val = n.val; rw [e50, hn]; omega
  | ⟨1, _⟩ => show win1_5.index t (1 : Fin 2) * 128 + 1 * q.val = q.val; rw [e51]; omega

/-- What point t writes back is block t of the layer of the five arrays. -/
theorem arrAt1_flushed (c : Dev nD) (t : Fin cfg1.N) :
    (dat1 (F := Ideal) V c).flushed 5 t = ((cfg1.win 5).blk t).view.read (Elt Ideal)
      (Cert.Spec.convRelu (K := 128) (V c main_v39) (V c main_v23) (V c main_v40) (V c main_v41) (V c main_arg7)) := by
  show (cfg1.win 5).cut (grid1.coords t) ((dat1 V c).after 5 t) = _
  rw [after1_5]
  unfold out1_5
  rw [View.canon_unit_zero arrAt1_hz]
  funext j
  obtain ⟨p, q, rfl⟩ : ∃ (p : Fin 4000) (q : Fin 128), j = ix2 p q := ⟨j 0, j 1, eq_ix2 j⟩
  have ht : t.val < 25 := lt_of_lt_of_eq t.isLt N_1
  have hn : 4000 * t.val + p.val < 100000 := by have := p.isLt; omega
  show k1_pay1 (F := Ideal) (iblk1 V c 0 t) (iblk1 V c 1 t) (iblk1 V c 2 t) (iblk1 V c 4 t) (iblk1 V c 3 t) (ix2 p q)
    = Cert.Spec.convRelu (K := 128) (V c main_v39) (V c main_v23) (V c main_v40) (V c main_v41) (V c main_arg7)
        (((cfg1.win 5).blk t).view.emb (ix2 p q))
  rw [arrAt1_emb_out t p q ⟨4000 * t.val + p.val, hn⟩ rfl]
  refine (arrAt1_pay (iblk1 V c 0 t) (iblk1 V c 1 t) (iblk1 V c 2 t) (iblk1 V c 4 t) (iblk1 V c 3 t) p q).trans ?_
  unfold Cert.Spec.convRelu Cert.Spec.convAt
  refine congrArg₂ max ?_ rfl
  refine congrArg₂ (· + ·) (congrArg₂ (· + ·) ?_ ?_) ?_
  · exact Finset.sum_congr rfl fun k _ => congrArg₂ (· * ·)
      (arrAt1_blk_agg V c t p k ⟨4000 * t.val + p.val, hn⟩ rfl) (arrAt1_blk_wrel V c t k q)
  · exact Finset.sum_congr rfl fun k _ => congrArg₂ (· * ·)
      (arrAt1_blk_feat V c t p k ⟨4000 * t.val + p.val, hn⟩ rfl) (arrAt1_blk_wroot V c t k q)
  · exact arrAt1_blk_bias V c t q

/-- An index of the array is in point t's block iff each coordinate is in the block's range on its axis. -/
theorem arrAt1_mem_blk (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole (Pipeline.arrRef spec1 5)).slice (win1_5.rect t)).set ↔ _
  rw [View.set_slice_whole, Rect.mem_set_unit]
  exact Iff.rfl

/-- Row r of the array is in the block of point r / 4000: the 25 blocks tile the rows. -/
theorem arrAt1_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_5 _, ?_⟩
  rw [arrAt1_mem_blk]
  obtain ⟨-, -, -, -, -, -, -, -, -, e50, e51⟩ := arrAt1_idx ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e50]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e51]; omega

/-- After region 1 its output array holds one graph-convolution layer with max(·, 0) of the region's five arrays:
    row block t of the array is what point t wrote back, and the blocks tile the rows. -/
theorem arrAt1 (c : Dev nD) :
    (dat1 (F := Ideal) V c).arrAt 5 cfg1.N
      = Cert.Spec.convRelu (K := 128) (V c main_v39) (V c main_v23) (V c main_v40) (V c main_v41) (V c main_arg7) :=
  (dat1 (F := Ideal) V c).arrAt_eq_of_cover 5 _ (fun t _ => arrAt1_flushed V c t) arrAt1_cover

end Cert.KernelIdeal.Hand

end
-- ==== Proof.KI.V2a.lean ====
/-
  Region 2's running sums, one grid point's arithmetic read at an index over the extended reals: the two contractions
  as sums over the contracted coordinate, the indicator "lane r of the ids row carries graph id g" that the comparison
  with the row number produces, and from them the two quantities a grid point adds — at (g, k) the sum over the
  block's rows whose id is g of the third layer's linear maps at feature k, and at g the number of such rows.
-/
import proofs.«419596_j46471546143165_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.ValueIdx

/-! ## The two contractions read as sums over the contracted coordinate -/

theorem lhsA_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsA_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhsA_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhsA_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of 4000 rows times a square matrix: entry (r, k) is the sum over j of row r at j times the matrix at (j, k). -/
theorem mmA_apply {φ₁ φ₂ : FTy} (lhs : FVec Ideal S4000x128 φ₁) (rhs : FVec Ideal S128x128 φ₂) (r : Fin 4000) (k : Fin 128) :
    matmul dot_S4000x128_S128x128_S4000x128_1_0_0_1_n_n none lhs rhs (constant (F := Ideal) S4000x128 .f32 0x00000000#32) (ix2 r k)
      = ∑ j : Fin 128, lhs (ix2 r j) * rhs (ix2 j k) := by
  simp only [matmul]
  rw [Ideal.matmul_constant_zero_apply, ← Equiv.sum_comp (contrEquiv1 dot_S4000x128_S128x128_S4000x128_1_0_0_1_n_n 128 rfl rfl).symm]
  refine Finset.sum_congr rfl fun j _ => ?_
  have hk := contrEquiv1_symm_val dot_S4000x128_S128x128_S4000x128_1_0_0_1_n_n 128 rfl rfl j
  have el : dot_S4000x128_S128x128_S4000x128_1_0_0_1_n_n.lhsIdx (ix2 r k) ((contrEquiv1 dot_S4000x128_S128x128_S4000x128_1_0_0_1_n_n 128 rfl rfl).symm j) = ix2 r j := funext fun a => Fin.ext (by
    match a with
    | ⟨0, _⟩ => exact lhsA_0 _ _
    | ⟨1, _⟩ => exact (lhsA_1 _ _).trans hk)
  have er : dot_S4000x128_S128x128_S4000x128_1_0_0_1_n_n.rhsIdx (ix2 r k) ((contrEquiv1 dot_S4000x128_S128x128_S4000x128_1_0_0_1_n_n 128 rfl rfl).symm j) = ix2 j k := funext fun a => Fin.ext (by
    match a with
    | ⟨0, _⟩ => exact (rhsA_0 _ _).trans hk
    | ⟨1, _⟩ => exact rhsA_1 _ _)
  rw [el, er]

theorem lhsB_0 (i : S128x128.Idx) (q : dot_S128x4000_S4000x128_S128x128_1_0_0_1_n_n.contr.Idx) :
    (dot_S128x4000_S4000x128_S128x128_1_0_0_1_n_n.lhsIdx i q 0).val = (i 0).val := by
  unfold DotDims.lhsIdx
  rw [dif_neg (show ¬(0 : Fin S128x4000.rank) ∈ dot_S128x4000_S4000x128_S128x128_1_0_0_1_n_n.lhsBatch by decide), dif_pos (show (0 : Fin S128x4000.rank) ∈ dot_S128x4000_S4000x128_S128x128_1_0_0_1_n_n.lhsNonContracting by decide)]
  rfl
theorem lhsB_1 (i : S128x128.Idx) (q : dot_S128x4000_S4000x128_S128x128_1_0_0_1_n_n.contr.Idx) :
    (dot_S128x4000_S4000x128_S128x128_1_0_0_1_n_n.lhsIdx i q 1).val = (q ⟨0, by decide⟩).val :=
  dot_S128x4000_S4000x128_S128x128_1_0_0_1_n_n.lhsIdx_val_of_single rfl i q
theorem rhsB_0 (i : S128x128.Idx) (q : dot_S128x4000_S4000x128_S128x128_1_0_0_1_n_n.contr.Idx) :
    (dot_S128x4000_S4000x128_S128x128_1_0_0_1_n_n.rhsIdx i q 0).val = (q ⟨0, by decide⟩).val :=
  dot_S128x4000_S4000x128_S128x128_1_0_0_1_n_n.rhsIdx_val_of_single rfl i q
theorem rhsB_1 (i : S128x128.Idx) (q : dot_S128x4000_S4000x128_S128x128_1_0_0_1_n_n.contr.Idx) :
    (dot_S128x4000_S4000x128_S128x128_1_0_0_1_n_n.rhsIdx i q 1).val = (i 1).val := by
  unfold DotDims.rhsIdx
  rw [dif_neg (show ¬(1 : Fin S4000x128.rank) ∈ dot_S128x4000_S4000x128_S128x128_1_0_0_1_n_n.rhsBatch by decide), dif_pos (show (1 : Fin S4000x128.rank) ∈ dot_S128x4000_S4000x128_S128x128_1_0_0_1_n_n.rhsNonContracting by decide)]
  rfl

/-- The pooling contraction over a block's 4000 rows: entry (g, k) is the sum over the rows r of the left operand at (g, r) times the block at (r, k). -/
theorem mmB_apply {φ₁ φ₂ : FTy} (lhs : FVec Ideal S128x4000 φ₁) (rhs : FVec Ideal S4000x128 φ₂) (r : Fin 128) (k : Fin 128) :
    matmul dot_S128x4000_S4000x128_S128x128_1_0_0_1_n_n none lhs rhs (constant (F := Ideal) S128x128 .f32 0x00000000#32) (ix2 r k)
      = ∑ j : Fin 4000, lhs (ix2 r j) * rhs (ix2 j k) := by
  simp only [matmul]
  rw [Ideal.matmul_constant_zero_apply, ← Equiv.sum_comp (contrEquiv1 dot_S128x4000_S4000x128_S128x128_1_0_0_1_n_n 4000 rfl rfl).symm]
  refine Finset.sum_congr rfl fun j _ => ?_
  have hk := contrEquiv1_symm_val dot_S128x4000_S4000x128_S128x128_1_0_0_1_n_n 4000 rfl rfl j
  have el : dot_S128x4000_S4000x128_S128x128_1_0_0_1_n_n.lhsIdx (ix2 r k) ((contrEquiv1 dot_S128x4000_S4000x128_S128x128_1_0_0_1_n_n 4000 rfl rfl).symm j) = ix2 r j := funext fun a => Fin.ext (by
    match a with
    | ⟨0, _⟩ => exact lhsB_0 _ _
    | ⟨1, _⟩ => exact (lhsB_1 _ _).trans hk)
  have er : dot_S128x4000_S4000x128_S128x128_1_0_0_1_n_n.rhsIdx (ix2 r k) ((contrEquiv1 dot_S128x4000_S4000x128_S128x128_1_0_0_1_n_n 4000 rfl rfl).symm j) = ix2 j k := funext fun a => Fin.ext (by
    match a with
    | ⟨0, _⟩ => exact (rhsB_0 _ _).trans hk
    | ⟨1, _⟩ => exact rhsB_1 _ _)
  rw [el, er]

/-! ## The membership indicator of a block's rows -/

/-- The comparison word of two 32-bit words, widened and converted, is the indicator of their equality. -/
theorem ind_word (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  by_cases h : x = y
  · subst h
    have e : ((IntOp.cmpi .eq x x).setWidth 32) = 1#32 := by simp [IntOp.cmpi]
    rw [e, if_pos rfl]
    have e1 : (1#32 : BitVec 32).toInt = 1 := by decide
    rw [e1]; simp
  · have hb : (x == y) = false := by simpa using h
    have e : ((IntOp.cmpi .eq x y).setWidth 32) = 0#32 := by
      show BitVec.setWidth 32 (BitVec.ofBool (x == y)) = 0#32
      rw [hb]; rfl
    rw [e, if_neg h]
    have e0 : (0#32 : BitVec 32).toInt = 0 := by decide
    rw [e0]; simp

/-! ## Layout operations at an index -/

/-- A column [a, 1] broadcast along the second axis reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over the second axis of a [128, 4000] array reads, at g, the sum over r of the array at (g, r). -/
theorem rowsum_apply (src : FVec Ideal S128x4000 .f32) (h : S128x4000.Reduces [1] S128) (hφ : FKind.Formats .f32)
    (hacc : (0x00000000#32 : BitVec 32) = FKind.add.neutral .f32 hφ) (g : Fin 128) :
    multiReduction .add [1] S128 src 0x00000000#32 h hφ hacc (ix1 g) = ∑ r : Fin 4000, src (ix2 g r) := by
  refine (Ideal.multiReduction_add_single src 0x00000000#32 h hφ hacc (ix1 g)).trans ?_
  refine Finset.sum_congr rfl fun r _ => congrArg src ?_
  funext a
  match a with
  | ⟨0, _⟩ => rfl
  | ⟨1, _⟩ => rfl

/-! ## The body's payloads at an index -/

/-- One layer's linear maps on a block of 4000 rows, at row r and output feature k. -/
def layerBlk (a h : S4000x128.Idx → EReal) (wrel wroot : S128x128.Idx → EReal) (b : S128.Idx → EReal)
    (r : Fin 4000) (k : Fin 128) : EReal :=
  (∑ j : Fin 128, a (ix2 r j) * wrel (ix2 j k) + ∑ j : Fin 128, h (ix2 r j) * wroot (ix2 j k)) + b (ix1 k)

/-- The indicator that lane r of a row of graph ids carries the id g. -/
def ind (ids : S1x1x4000.Idx → BitVec 32) (g : Fin 128) (r : Fin 4000) : EReal :=
  if ids (ix3 (0 : Fin 1) (0 : Fin 1) r) = BitVec.ofNat 32 g.val then 1 else 0

/-- The comparison of the ids row, repeated down the 128 graph rows, with the row number: at (g, r) the comparison
    word of lane r's id and g. -/
theorem pay6_apply (v22 : Vec Ideal S1x1x4000 .i32) (g : Fin 128) (r : Fin 4000) :
    k2_pay6 (F := Ideal) v22 (ix2 g r)
      = IntOp.cmpi .eq (v22 (ix3 (0 : Fin 1) (0 : Fin 1) r)) (BitVec.ofNat 32 g.val) := by
  unfold k2_pay6
  exact congrArg₂ (IntOp.cmpi .eq)
    ((broadcastTo_1b_ab_apply _ _ g r).trans (shapeCast_1ab_ab_apply v22 _ (0 : Fin 1) r))
    ((broadcastTo_a1_ab_apply _ _ g r).trans (iota_single_apply .tc S128x1 32 0 _ (ix2 g (0 : Fin 1))))

/-- The indicator array at (g, r). -/
theorem onehot_apply (v22 : Vec Ideal S1x1x4000 .i32) (g : Fin 128) (r : Fin 4000) :
    (sitofp .f32 (extui 32 (k2_pay6 (F := Ideal) v22) natLt_1_32) : FVec Ideal S128x4000 .f32) (ix2 g r) = ind v22 g r :=
  (congrArg (fun w : BitVec 1 => FloatOps.sitofp (F := Ideal) .f32 (w.setWidth 32)) (pay6_apply v22 g r)).trans (ind_word _ _)

/-- The row counts a point adds: at (g, u) the number of lanes whose id is g. -/
theorem pay7_apply (v22 : Vec Ideal S1x1x4000 .i32) (g : Fin 128) (u : Fin 1) :
    k2_pay7 (F := Ideal) v22 (ix2 g u) = ∑ r : Fin 4000, ind v22 g r := by
  unfold k2_pay7
  refine (shapeCast_a_a1_apply _ _ g u).trans ?_
  refine (rowsum_apply _ _ _ _ g).trans ?_
  exact Finset.sum_congr rfl fun r _ => onehot_apply v22 g r

/-- The feature sums a point adds to what the scratch held: at (g, k), over the lanes r whose id is g, the third
    layer's linear maps at row r, feature k. -/
theorem pay8_apply (v3 : Vec Ideal S4000x128 .f32) (v6 : Vec Ideal S4000x128 .bf16) (v8 v11 : Vec Ideal S128x128 .f32)
    (v14 : Vec Ideal S128 .f32) (v22 : Vec Ideal S1x1x4000 .i32) (v36 : Vec Ideal S128x128 .f32) (g k : Fin 128) :
    k2_pay8 (F := Ideal) v3 v6 v8 v11 v14 v22 v36 (ix2 g k)
      = v36 (ix2 g k) + ∑ r : Fin 4000, ind v22 g r * layerBlk v3 v6 v8 v11 v14 r k := by
  unfold k2_pay8
  refine congrArg (fun x : EReal => v36 (ix2 g k) + x) ?_
  refine (mmB_apply _ _ g k).trans ?_
  refine Finset.sum_congr rfl fun r _ => ?_
  refine congrArg₂ (fun x y : EReal => x * y) (onehot_apply v22 g r) ?_
  unfold layerBlk
  refine congrArg₂ (fun x y : EReal => x + y) (congrArg₂ (fun x y : EReal => x + y) ((mmA_apply _ _ r k).trans ?_) ((mmA_apply _ _ r k).trans ?_)) ?_
  · exact Finset.sum_congr rfl fun j _ => congrArg₂ (fun x y : EReal => x * y)
      (congrFun (shapeCast_self v3 _) (ix2 r j)) (congrFun (shapeCast_self v8 _) (ix2 j k))
  · exact Finset.sum_congr rfl fun j _ => congrArg₂ (fun x y : EReal => x * y)
      (congrFun (shapeCast_self v6 _) (ix2 r j)) (congrFun (shapeCast_self v11 _) (ix2 j k))
  · exact (broadcastTo_1b_ab_apply _ _ r k).trans (shapeCast_a_1a_apply v14 _ (0 : Fin 1) k)

/-- What is stored into the first scratch is what was computed. -/
theorem pay1_eq (v37 : FVec Ideal S128x128 .f32) : k2_pay1 (F := Ideal) v37 = v37 := by
  unfold k2_pay1
  exact shapeCast_self v37 _

/-- What is stored into the second scratch is what it held plus the point's counts. -/
theorem pay2_apply (v35 : FVec Ideal S128x1 .f32) (v41 : Vec Ideal S128x1 .f32) (i : S128x1.Idx) :
    k2_pay2 (F := Ideal) v35 v41 i = v41 i + v35 i := by
  unfold k2_pay2
  exact congrFun (shapeCast_self (addf (F := Ideal) v41 v35) _) i

/-- The zero fill of the first scratch. -/
theorem pay4_apply (i : S128x128.Idx) : (k2_pay4 (F := Ideal)) i = 0 := by
  unfold k2_pay4
  exact (congrFun (shapeCast_self (broadcast S128x128 (Scalar.ofBits (F := Ideal) .f32 0x00000000#32)) _) i).trans Ideal.ofBits_zero_f32

/-- The zero fill of the second scratch. -/
theorem pay5_apply (i : S128x1.Idx) : (k2_pay5 (F := Ideal)) i = 0 := by
  unfold k2_pay5
  exact (congrFun (shapeCast_self (broadcast S128x1 (Scalar.ofBits (F := Ideal) .f32 0x00000000#32)) _) i).trans Ideal.ofBits_zero_f32

end Cert.KernelIdeal.Hand

end
-- ==== Proof.KI.V2h.lean ====
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.KI.D2
import proofs.«419596_j46471546143165_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-! ## The classifier's payload at an index

The last point's store is, at graph g and class q, the sum over the 128 pooled features k of (feature sum at
(g, k)) / max(row count at g, 1) times the classifier's weight at (k, q), plus the bias at q: the division is
elementwise against the count column laid along the 128 columns, the roundings to bf16 are the identity on the
extended reals, the matrix product into a zero accumulator is the sum over its one contracted axis, and the bias is
one row laid along the 128 rows. -/

/-- The operand indices of the [128,128] × [128,16] product at output index i and contraction index q. -/
private theorem lhs_head_0 (i : S128x16.Idx) (q : dot_S128x128_S128x16_S128x16_1_0_0_1_n_n.contr.Idx) :
    (dot_S128x128_S128x16_S128x16_1_0_0_1_n_n.lhsIdx i q 0).val = (i 0).val := by
  unfold DotDims.lhsIdx
  rw [dif_neg (show ¬(0 : Fin S128x128.rank) ∈ dot_S128x128_S128x16_S128x16_1_0_0_1_n_n.lhsBatch by decide), dif_pos (show (0 : Fin S128x128.rank) ∈ dot_S128x128_S128x16_S128x16_1_0_0_1_n_n.lhsNonContracting by decide)]
  rfl
private theorem lhs_head_1 (i : S128x16.Idx) (q : dot_S128x128_S128x16_S128x16_1_0_0_1_n_n.contr.Idx) :
    (dot_S128x128_S128x16_S128x16_1_0_0_1_n_n.lhsIdx i q 1).val = (q ⟨0, by decide⟩).val :=
  dot_S128x128_S128x16_S128x16_1_0_0_1_n_n.lhsIdx_val_of_single rfl i q
private theorem rhs_head_0 (i : S128x16.Idx) (q : dot_S128x128_S128x16_S128x16_1_0_0_1_n_n.contr.Idx) :
    (dot_S128x128_S128x16_S128x16_1_0_0_1_n_n.rhsIdx i q 0).val = (q ⟨0, by decide⟩).val :=
  dot_S128x128_S128x16_S128x16_1_0_0_1_n_n.rhsIdx_val_of_single rfl i q
private theorem rhs_head_1 (i : S128x16.Idx) (q : dot_S128x128_S128x16_S128x16_1_0_0_1_n_n.contr.Idx) :
    (dot_S128x128_S128x16_S128x16_1_0_0_1_n_n.rhsIdx i q 1).val = (i 1).val := by
  unfold DotDims.rhsIdx
  rw [dif_neg (show ¬(1 : Fin S128x16.rank) ∈ dot_S128x128_S128x16_S128x16_1_0_0_1_n_n.rhsBatch by decide), dif_pos (show (1 : Fin S128x16.rank) ∈ dot_S128x128_S128x16_S128x16_1_0_0_1_n_n.rhsNonContracting by decide)]
  rfl

/-- The product into a zero accumulator, at (g, q): the sum over k of the left operand at (g, k) times the right
    operand at (k, q). -/
private theorem matmul_head (A : FVec Ideal S128x128 .bf16) (B : FVec Ideal S128x16 .bf16) (g : Fin 128) (q : Fin 16) :
    matmul dot_S128x128_S128x16_S128x16_1_0_0_1_n_n none A B (constant (F := Ideal) S128x16 .f32 0x00000000#32) (ix2 g q)
      = ∑ k : Fin 128, A (ix2 g k) * B (ix2 k q) := by
  show FloatOps.matmul dot_S128x128_S128x16_S128x16_1_0_0_1_n_n none A B (constant (F := Ideal) S128x16 .f32 0x00000000#32) (ix2 g q) = _
  rw [Ideal.matmul_constant_zero_apply, ← Equiv.sum_comp (contrEquiv1 dot_S128x128_S128x16_S128x16_1_0_0_1_n_n 128 rfl rfl).symm]
  refine Finset.sum_congr rfl fun k _ => ?_
  have hk := contrEquiv1_symm_val dot_S128x128_S128x16_S128x16_1_0_0_1_n_n 128 rfl rfl k
  have el : dot_S128x128_S128x16_S128x16_1_0_0_1_n_n.lhsIdx (ix2 g q) ((contrEquiv1 dot_S128x128_S128x16_S128x16_1_0_0_1_n_n 128 rfl rfl).symm k) = ix2 g k := funext fun a => Fin.ext (by
    match a with
    | ⟨0, _⟩ => exact lhs_head_0 _ _
    | ⟨1, _⟩ => exact (lhs_head_1 _ _).trans hk)
  have er : dot_S128x128_S128x16_S128x16_1_0_0_1_n_n.rhsIdx (ix2 g q) ((contrEquiv1 dot_S128x128_S128x16_S128x16_1_0_0_1_n_n 128 rfl rfl).symm k) = ix2 k q := funext fun a => Fin.ext (by
    match a with
    | ⟨0, _⟩ => exact (rhs_head_0 _ _).trans hk
    | ⟨1, _⟩ => exact rhs_head_1 _ _)
  rw [el, er]

/-- A [128,1] column laid along 128 columns reads, at (g, k), the column at g. -/
private theorem bcast_col (v : (⟨2, ![128, 1]⟩ : Shape).Idx → EReal) (h : (⟨2, ![128, 1]⟩ : Shape).Broadcasts ⟨2, ![128, 128]⟩)
    (g k : Fin 128) : broadcastTo ⟨2, ![128, 128]⟩ v h (ix2 g k) = v (ix2 g (0 : Fin 1)) := by
  refine broadcastTo_apply v h (ix2 g k) (ix2 g (0 : Fin 1)) fun ax => ?_
  match ax with
  | ⟨0, _⟩ =>
    show g.val = if (128 : Nat) = 1 then 0 else g.val
    rw [if_neg (by decide)]
  | ⟨1, _⟩ => rfl

/-- The f32 pattern 0x3F800000 is the extended real one. -/
private theorem one_f32 : Ideal.ofBits .f32 0x3F800000#32 = 1 := by
  rw [show (1 : EReal) = ((1 : ℝ) : EReal) by norm_cast]
  simp [Ideal.ofBits, Ideal.ieee, -EReal.coe_mul]; norm_num

theorem head_eq (S : Vec Ideal S128x128 .f32) (C : Vec Ideal S128x1 .f32) (Wl : Vec Ideal S128x16 .f32)
    (bl : Vec Ideal S16 .f32) (g : Fin 128) (q : Fin 16) :
    k2_pay3 (F := Ideal) S C Wl bl (ix2 g q)
      = Cert.Spec.headAt (fun g k => S (ix2 g k)) (fun g => C (ix2 g (0 : Fin 1))) Wl bl g q := by
  unfold k2_pay3 Cert.Spec.headAt
  rw [addf_apply, matmul_head, broadcastTo_1b_ab_apply, shapeCast_a_1a_apply]
  refine congrArg (· + bl (ix1 q)) (Finset.sum_congr rfl fun k _ => ?_)
  rw [truncf_apply, truncf_apply, divf_apply, bcast_col, maximumf_apply, broadcast_apply, shapeCast_self]
  show Ideal.div (S (ix2 g k)) (max (C (ix2 g (0 : Fin 1))) (Ideal.ofBits .f32 0x3F800000#32)) * Wl (ix2 k q) = _
  rw [one_f32]

/-! ## The output array after the region

Only the last point writes the output block back, and the block is the whole array; what it writes is the last
point's one store, the classifier's payload of the two scratch sums after the last point, the classifier's weights
and its bias, the latter two whole arrays read through windows whose blocks are the arrays. -/

private theorem zeros2' : (![0, 0] : Fin 2 → Nat) = fun _ => 0 := funext fun a => by fin_cases a <;> rfl

/-- The classifier's weights' window holds the whole array at every point. -/
private theorem iblk2_6 (c : Dev nD) (t : Fin cfg2.N) : (iblk2 V c 6 t : Vec Ideal S128x16 .f32) = V c main_v61 := by
  funext j
  show V c main_v61 (((cfg2.win 6).blk t).view.emb j) = V c main_v61 j
  congr 1
  funext a; apply Fin.ext
  match a with
  | ⟨0, _⟩ => show 0 * 128 + 1 * (j 0).val = (j 0).val; omega
  | ⟨1, _⟩ => show 0 * 16 + 1 * (j 1).val = (j 1).val; omega

/-- The classifier's bias's window holds the whole array at every point. -/
private theorem iblk2_7 (c : Dev nD) (t : Fin cfg2.N) : (iblk2 V c 7 t : Vec Ideal S16 .f32) = V c main_arg13 := by
  funext j
  show V c main_arg13 (((cfg2.win 7).blk t).view.emb j) = V c main_arg13 j
  congr 1
  funext a; apply Fin.ext
  match a with
  | ⟨0, _⟩ => show 0 * 16 + 1 * (j 0).val = (j 0).val; omega

/-- The output's block at any point is the whole array: read through it, an array's contents are themselves. -/
private theorem read_blk2_8 (t : Fin cfg2.N) (G : Vec Ideal S128x16 .f32) :
    (((cfg2.win 8).blk t).view.read (Elt Ideal) G : Vec Ideal S128x16 .f32) = G := by
  funext j
  show G (((cfg2.win 8).blk t).view.emb j) = G j
  congr 1
  funext a; apply Fin.ext
  match a with
  | ⟨0, _⟩ => show 0 * 128 + 1 * (j 0).val = (j 0).val; omega
  | ⟨1, _⟩ => show 0 * 16 + 1 * (j 1).val = (j 1).val; omega

/-- Every index of the output array is in the last point's block. -/
private theorem mem_blk2_8 (i : S128x16.Idx) : i ∈ ((cfg2.win 8).blk tLast2).view.set := by
  show i ∈ ((View.whole main_v63).slice (win2_8.rect tLast2)).set
  rw [View.set_slice_whole, Rect.mem_set_unit]
  intro a
  match a with
  | ⟨0, _⟩ =>
    show 0 * 128 ≤ (i 0).val ∧ (i 0).val < 0 * 128 + 128
    have h : (i 0).val < 128 := (i 0).isLt
    omega
  | ⟨1, _⟩ =>
    show 0 * 16 ≤ (i 1).val ∧ (i 1).val < 0 * 16 + 16
    have h : (i 1).val < 16 := (i 1).isLt
    omega

theorem arrAt2_out {c : Dev nD} (dat : Dat τ (Elt Ideal) Unit ℕ (UR sig nD τ) ℕ cfg2 c)
    (hA : ∀ w, dat.A w = V c (Pipeline.arrRef spec2 w)) (hafter : ∀ t, dat.after 8 t = out2_8 (F := Ideal) V c) :
    dat.arrAt 8 cfg2.N = k2_pay3 (F := Ideal) (sumAt V c 24) (cntAt V c 24) (V c main_v61) (V c main_arg13) := by
  refine dat.arrAt_eq_of_cover 8 _ (fun t _ => ?_) (fun i => ⟨tLast2, (flush2_8 tLast2).2 rfl, mem_blk2_8 i⟩)
  show (cfg2.win 8).cut (grid2.coords t) (dat.after 8 t) = _
  rw [hafter]
  unfold out2_8
  rw [View.canon_unit_zero zeros2', iblk2_6, iblk2_7]
  exact (read_blk2_8 t _).symm

end Cert.KernelIdeal.Hand

end
-- ==== Proof.KI.V2.lean ====
/-
  Region 2's output array is the specification's third layer, mean pooling and classifier.

  The 100000 nodes are 25 row blocks of 4000: lane r of block t is node 4000 t + r, and the ids array's row t holds
  the graph ids of block t.  Grid point t adds to the first scratch, at (g, k), the sum over the nodes of block t whose
  id is g of the third layer's linear maps at feature k, and to the second scratch, at g, the number of those nodes
  (an indicator times x is x or 0 on the extended reals, infinities included).  By induction over the points the
  scratches hold, after point n, the sums over blocks 0..n; after the last point these are the sums over all nodes,
  re-indexed through (block, lane) ↦ node.  The classifier's payload of the two sums is then the specification's
  pooled classifier, and the last point's one whole-block store is what the output array ends holding.
-/
import proofs.«419596_j46471546143165_2_alg».proof.Proof.Gen.KernelIdeal.Launch
import proofs.«419596_j46471546143165_2_alg».proof.Proof.Gen.KernelIdeal.Skeleton
import proofs.«419596_j46471546143165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419596_j46471546143165_2_alg».proof.Proof.KI.D2
import proofs.«419596_j46471546143165_2_alg».proof.Proof.KI.V2a
import proofs.«419596_j46471546143165_2_alg».proof.Proof.KI.V2h
import proofs.«419596_j46471546143165_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The 100000 nodes as 25 row blocks of 4000 -/

/-- Lane r of row block t is node 4000 t + r. -/
def node (t : ℕ) (ht : t < 25) (r : Fin 4000) : Fin 100000 := ⟨4000 * t + r.val, by have := r.isLt; omega⟩

/-- The sum, over the nodes of row block t whose graph id is g, of X at feature k; zero past the last block. -/
def blockSum (ids : (Cert.Spec.SV 100000).Idx → BitVec 32) (X : (Cert.Spec.SN 128).Idx → EReal) (g k : Fin 128) (t : ℕ) : EReal :=
  ∑ r : Fin 4000, if h : t < 25 then (if ids (ix1 (node t h r)) = BitVec.ofNat 32 g.val then X (ix2 (node t h r) k) else 0) else 0

theorem blockSum_of_not_lt (ids : (Cert.Spec.SV 100000).Idx → BitVec 32) (X : (Cert.Spec.SN 128).Idx → EReal) (g k : Fin 128)
    (t : ℕ) (h : ¬ t < 25) : blockSum ids X g k t = 0 := by
  unfold blockSum
  exact Finset.sum_eq_zero fun r _ => dif_neg h

/-- The 25 block sums add up to the sum over all nodes: node n is lane n % 4000 of block n / 4000. -/
theorem sum_blockSum (ids : (Cert.Spec.SV 100000).Idx → BitVec 32) (X : (Cert.Spec.SN 128).Idx → EReal) (g k : Fin 128) :
    ∑ t ∈ Finset.range 25, blockSum ids X g k t = Cert.Spec.poolSum ids X g k := by
  unfold Cert.Spec.poolSum
  rw [← Fin.sum_univ_eq_sum_range (fun t => blockSum ids X g k t) 25]
  rw [← Equiv.sum_comp (finProdFinEquiv : Fin 25 × Fin 4000 ≃ Fin 100000), Fintype.sum_prod_type]
  refine Finset.sum_congr rfl fun t _ => ?_
  unfold blockSum
  refine Finset.sum_congr rfl fun r _ => ?_
  rw [dif_pos t.isLt]
  have e : node t.val t.isLt r = (finProdFinEquiv : Fin 25 × Fin 4000 ≃ Fin 100000) (t, r) :=
    Fin.ext (by show 4000 * t.val + r.val = r.val + 4000 * t.val; omega)
  rw [e]

variable (V : (c : Dev nD) → (b : Ref sig .tc) → Buf (Elt Ideal) ((c : Thread nD τ).loc b))

/-! ## The blocks a grid point reads -/

/-- The printed index maps over the grid: the three row-blocked windows move with the point, the others stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-- Row r of the aggregate's block at point t is row 4000 t + r of the aggregate. -/
theorem blk0_apply (c : Dev nD) (t : Fin cfg2.N) (r : Fin 4000) (j : Fin 128) :
    (iblk2 V c 0 t : Vec Ideal S4000x128 .f32) (ix2 r j) = V c main_v58 (ix2 (node t.val t.isLt r) j) := by
  show V c main_v58 (((cfg2.win 0).blk t).view.emb (ix2 r j)) = V c main_v58 (ix2 (node t.val t.isLt r) j)
  refine congrArg (V c main_v58) ?_
  obtain ⟨e0, e1, -⟩ := idx_facts2 t
  funext a; apply Fin.ext
  match a with
  | ⟨0, _⟩ => show win2_0.index t (0 : Fin 2) * 4000 + 1 * r.val = 4000 * t.val + r.val; omega
  | ⟨1, _⟩ => show win2_0.index t (1 : Fin 2) * 128 + 1 * j.val = j.val; omega

/-- Row r of the features' block at point t is row 4000 t + r of the features. -/
theorem blk1_apply (c : Dev nD) (t : Fin cfg2.N) (r : Fin 4000) (j : Fin 128) :
    (iblk2 V c 1 t : Vec Ideal S4000x128 .bf16) (ix2 r j) = V c main_v42 (ix2 (node t.val t.isLt r) j) := by
  show V c main_v42 (((cfg2.win 1).blk t).view.emb (ix2 r j)) = V c main_v42 (ix2 (node t.val t.isLt r) j)
  refine congrArg (V c main_v42) ?_
  obtain ⟨-, -, e0, e1, -⟩ := idx_facts2 t
  funext a; apply Fin.ext
  match a with
  | ⟨0, _⟩ => show win2_1.index t (0 : Fin 2) * 4000 + 1 * r.val = 4000 * t.val + r.val; omega
  | ⟨1, _⟩ => show win2_1.index t (1 : Fin 2) * 128 + 1 * j.val = j.val; omega

/-- The neighbour weights are whole at every point. -/
theorem blk2_apply (c : Dev nD) (t : Fin cfg2.N) (j k : Fin 128) :
    (iblk2 V c 2 t : Vec Ideal S128x128 .f32) (ix2 j k) = V c main_v59 (ix2 j k) := by
  show V c main_v59 (((cfg2.win 2).blk t).view.emb (ix2 j k)) = V c main_v59 (ix2 j k)
  refine congrArg (V c main_v59) ?_
  obtain ⟨-, -, -, -, e0, e1, -⟩ := idx_facts2 t
  funext a; apply Fin.ext
  match a with
  | ⟨0, _⟩ => show win2_2.index t (0 : Fin 2) * 128 + 1 * j.val = j.val; omega
  | ⟨1, _⟩ => show win2_2.index t (1 : Fin 2) * 128 + 1 * k.val = k.val; omega

/-- The bias is whole at every point. -/
theorem blk3_apply (c : Dev nD) (t : Fin cfg2.N) (k : Fin 128) :
    (iblk2 V c 3 t : Vec Ideal S128 .f32) (ix1 k) = V c main_arg10 (ix1 k) := by
  show V c main_arg10 (((cfg2.win 3).blk t).view.emb (ix1 k)) = V c main_arg10 (ix1 k)
  refine congrArg (V c main_arg10) ?_
  obtain ⟨-, -, -, -, -, -, e0, -⟩ := idx_facts2 t
  funext a; apply Fin.ext
  match a with
  | ⟨0, _⟩ => show win2_3.index t (0 : Fin 1) * 128 + 1 * k.val = k.val; omega

/-- The root weights are whole at every point. -/
theorem blk4_apply (c : Dev nD) (t : Fin cfg2.N) (j k : Fin 128) :
    (iblk2 V c 4 t : Vec Ideal S128x128 .f32) (ix2 j k) = V c main_v60 (ix2 j k) := by
  show V c main_v60 (((cfg2.win 4).blk t).view.emb (ix2 j k)) = V c main_v60 (ix2 j k)
  refine congrArg (V c main_v60) ?_
  obtain ⟨-, -, -, -, -, -, -, e0, e1, -⟩ := idx_facts2 t
  funext a; apply Fin.ext
  match a with
  | ⟨0, _⟩ => show win2_4.index t (0 : Fin 2) * 128 + 1 * j.val = j.val; omega
  | ⟨1, _⟩ => show win2_4.index t (1 : Fin 2) * 128 + 1 * k.val = k.val; omega

/-- Lane r of the ids' block at point t is the id of node 4000 t + r. -/
theorem blk5_apply (c : Dev nD) (t : Fin cfg2.N) (r : Fin 4000) :
    (iblk2 V c 5 t : Vec Ideal S1x1x4000 .i32) (ix3 (0 : Fin 1) (0 : Fin 1) r)
      = Cert.Spec.flat3 (V c main_v62) (ix1 (node t.val t.isLt r)) := by
  show V c main_v62 (((cfg2.win 5).blk t).view.emb (ix3 (0 : Fin 1) (0 : Fin 1) r)) = _
  unfold Cert.Spec.flat3
  refine congrArg (V c main_v62) ?_
  obtain ⟨-, -, -, -, -, -, -, -, -, e0, e1, e2⟩ := idx_facts2 t
  have ht : t.val < 25 := t.isLt
  have hr : r.val < 4000 := r.isLt
  funext a; apply Fin.ext
  match a with
  | ⟨0, _⟩ => show win2_5.index t (0 : Fin 3) * 1 + 1 * 0 = (4000 * t.val + r.val) / 4000; omega
  | ⟨1, _⟩ => show win2_5.index t (1 : Fin 3) * 1 + 1 * 0 = 0; omega
  | ⟨2, _⟩ => show win2_5.index t (2 : Fin 3) * 4000 + 1 * r.val = (4000 * t.val + r.val) % 4000; omega

/-! ## What a grid point adds to the two running sums -/

/-- The third layer's linear maps, as the specification states them, of the region's five arrays. -/
abbrev conv3 (c : Dev nD) : (Cert.Spec.SN 128).Idx → EReal :=
  Cert.Spec.conv (V c main_v58) (V c main_v42) (V c main_v59) (V c main_v60) (V c main_arg10)

/-- The graph ids of the region's ids array, node by node. -/
abbrev ids3 (c : Dev nD) : (Cert.Spec.SV 100000).Idx → BitVec 32 := Cert.Spec.flat3 (V c main_v62)

/-- The indicator of the ids' block at point t is the indicator on the nodes of row block t. -/
theorem ind_blk (c : Dev nD) (t : Fin cfg2.N) (g : Fin 128) (r : Fin 4000) :
    ind (iblk2 V c 5 t) g r
      = if ids3 V c (ix1 (node t.val t.isLt r)) = BitVec.ofNat 32 g.val then (1 : EReal) else 0 := by
  unfold ind
  rw [blk5_apply V c t r]

/-- The layer's linear maps on the blocks of point t are the specification's on the nodes of row block t. -/
theorem layer_blk (c : Dev nD) (t : Fin cfg2.N) (r : Fin 4000) (k : Fin 128) :
    layerBlk (iblk2 V c 0 t) (iblk2 V c 1 t) (iblk2 V c 2 t) (iblk2 V c 4 t) (iblk2 V c 3 t) r k
      = conv3 V c (ix2 (node t.val t.isLt r) k) := by
  unfold layerBlk
  show _ = Cert.Spec.convAt (V c main_v58) (V c main_v42) (V c main_v59) (V c main_v60) (V c main_arg10) (node t.val t.isLt r) k
  unfold Cert.Spec.convAt
  refine congrArg₂ (fun x y : EReal => x + y) (congrArg₂ (fun x y : EReal => x + y) ?_ ?_) (blk3_apply V c t k)
  · exact Finset.sum_congr rfl fun j _ => congrArg₂ (fun x y : EReal => x * y) (blk0_apply V c t r j) (blk2_apply V c t j k)
  · exact Finset.sum_congr rfl fun j _ => congrArg₂ (fun x y : EReal => x * y) (blk1_apply V c t r j) (blk4_apply V c t j k)

/-- Point t adds to the feature sums the sum over row block t. -/
theorem sumStep_apply (c : Dev nD) (t : Fin cfg2.N) (prev : Vec Ideal S128x128 .f32) (g k : Fin 128) :
    sumStep V c t prev (ix2 g k) = prev (ix2 g k) + blockSum (ids3 V c) (conv3 V c) g k t.val := by
  unfold sumStep
  refine (congrFun (pay1_eq _) (ix2 g k)).trans ?_
  refine (pay8_apply (iblk2 V c 0 t) (iblk2 V c 1 t) (iblk2 V c 2 t) (iblk2 V c 4 t) (iblk2 V c 3 t) (iblk2 V c 5 t) prev g k).trans ?_
  refine congrArg (fun x : EReal => prev (ix2 g k) + x) ?_
  unfold blockSum
  refine Finset.sum_congr rfl fun r _ => ?_
  rw [dif_pos (show t.val < 25 from t.isLt)]
  refine (congrArg₂ (fun x y : EReal => x * y) (ind_blk V c t g r) (layer_blk V c t r k)).trans ?_
  show (if _ then (1 : EReal) else 0) * _ = _
  split
  · exact one_mul _
  · exact zero_mul _

/-- Point t adds to the row counts the number of nodes of row block t with each id. -/
theorem cntStep_apply (c : Dev nD) (t : Fin cfg2.N) (prev : Vec Ideal S128x1 .f32) (g : Fin 128) (u : Fin 1) :
    cntStep V c t prev (ix2 g u) = prev (ix2 g u) + blockSum (ids3 V c) (fun _ => 1) g 0 t.val := by
  unfold cntStep
  refine (pay2_apply _ prev (ix2 g u)).trans ?_
  refine congrArg (fun x : EReal => prev (ix2 g u) + x) ?_
  refine (pay7_apply (iblk2 V c 5 t) g u).trans ?_
  unfold blockSum
  refine Finset.sum_congr rfl fun r _ => ?_
  rw [dif_pos (show t.val < 25 from t.isLt)]
  exact ind_blk V c t g r

/-! ## The running sums after point n, and after the last point -/

/-- After point n the first scratch holds the block sums of points 0..n. -/
theorem sumAt_apply (c : Dev nD) (g k : Fin 128) : ∀ n : ℕ,
    sumAt V c n (ix2 g k) = ∑ t ∈ Finset.range (n + 1), blockSum (ids3 V c) (conv3 V c) g k t
  | 0 => by
    show sumStep V c tFirst2 (k2_pay4 (F := Ideal)) (ix2 g k) = _
    rw [Finset.sum_range_one]
    refine (sumStep_apply V c tFirst2 (k2_pay4 (F := Ideal)) g k).trans ?_
    rw [pay4_apply, zero_add]
  | n + 1 => by
    rw [Finset.sum_range_succ, ← sumAt_apply c g k n]
    show (if h : n + 1 < cfg2.N then sumStep V c ⟨n + 1, h⟩ (sumAt V c n) else sumAt V c n) (ix2 g k) = _
    by_cases h : n + 1 < cfg2.N
    · rw [dif_pos h]
      exact sumStep_apply V c ⟨n + 1, h⟩ (sumAt V c n) g k
    · rw [dif_neg h, blockSum_of_not_lt _ _ _ _ _ h, add_zero]

/-- After point n the second scratch holds the block counts of points 0..n. -/
theorem cntAt_apply (c : Dev nD) (g : Fin 128) (u : Fin 1) : ∀ n : ℕ,
    cntAt V c n (ix2 g u) = ∑ t ∈ Finset.range (n + 1), blockSum (ids3 V c) (fun _ => 1) g 0 t
  | 0 => by
    show cntStep V c tFirst2 (k2_pay5 (F := Ideal)) (ix2 g u) = _
    rw [Finset.sum_range_one]
    refine (cntStep_apply V c tFirst2 (k2_pay5 (F := Ideal)) g u).trans ?_
    rw [pay5_apply, zero_add]
  | n + 1 => by
    rw [Finset.sum_range_succ, ← cntAt_apply c g u n]
    show (if h : n + 1 < cfg2.N then cntStep V c ⟨n + 1, h⟩ (cntAt V c n) else cntAt V c n) (ix2 g u) = _
    by_cases h : n + 1 < cfg2.N
    · rw [dif_pos h]
      exact cntStep_apply V c ⟨n + 1, h⟩ (cntAt V c n) g u
    · rw [dif_neg h, blockSum_of_not_lt _ _ _ _ _ h, add_zero]

/-- After the last point the first scratch holds, at (g, k), the third layer's feature k summed over the nodes of graph g. -/
theorem sum24 (c : Dev nD) (g k : Fin 128) :
    sumAt V c 24 (ix2 g k)
      = Cert.Spec.poolSum (Cert.Spec.flat3 (V c main_v62))
          (Cert.Spec.conv (V c main_v58) (V c main_v42) (V c main_v59) (V c main_v60) (V c main_arg10)) g k :=
  (sumAt_apply V c g k 24).trans (sum_blockSum (ids3 V c) (conv3 V c) g k)

/-- After the last point the second scratch holds, at g, the number of nodes of graph g. -/
theorem cnt24 (c : Dev nD) (g : Fin 128) :
    cntAt V c 24 (ix2 g (0 : Fin 1)) = Cert.Spec.poolCnt (Cert.Spec.flat3 (V c main_v62)) g :=
  (cntAt_apply V c g 0 24).trans (sum_blockSum (ids3 V c) (fun _ => 1) g 0)

/-! ## The region's output array -/

/-- The classifier's payload of the two scratch sums after the last point is the specification's pooled classifier. -/
theorem pay3_pool (c : Dev nD) :
    (k2_pay3 (F := Ideal) (sumAt V c 24) (cntAt V c 24) (V c main_v61) (V c main_arg13) : S128x16.Idx → EReal)
      = Cert.Spec.poolHead (V c main_v58) (V c main_v42) (V c main_v59) (V c main_v60) (V c main_arg10)
          (Cert.Spec.flat3 (V c main_v62)) (V c main_v61) (V c main_arg13) := by
  funext i
  obtain ⟨g, q, rfl⟩ : ∃ (g : Fin 128) (q : Fin 16), i = ix2 g q := ⟨i 0, i 1, eq_ix2 i⟩
  refine (head_eq (sumAt V c 24) (cntAt V c 24) (V c main_v61) (V c main_arg13) g q).trans ?_
  have eS : (fun g k => sumAt V c 24 (ix2 g k))
      = Cert.Spec.poolSum (Cert.Spec.flat3 (V c main_v62))
          (Cert.Spec.conv (V c main_v58) (V c main_v42) (V c main_v59) (V c main_v60) (V c main_arg10)) :=
    funext fun g => funext fun k => sum24 V c g k
  have eC : (fun g => cntAt V c 24 (ix2 g (0 : Fin 1))) = Cert.Spec.poolCnt (Cert.Spec.flat3 (V c main_v62)) :=
    funext fun g => cnt24 V c g
  rw [eS, eC]
  rfl

/-- After region 2 its output array holds the third layer, mean pooling and the classifier of the region's eight arrays:
    the two scratch sums after the last point are the sums over all 25 row blocks, and the last point's one store is
    written back whole. -/
theorem arrAt2 {c : Dev nD} (dat : Dat τ (Elt Ideal) Unit ℕ (UR sig nD τ) ℕ cfg2 c) (hA : ∀ w, dat.A w = V c (Pipeline.arrRef spec2 w))
    (hafter : ∀ t, dat.after 8 t = out2_8 (F := Ideal) V c) :
    dat.arrAt 8 cfg2.N
      = Cert.Spec.poolHead (V c main_v58) (V c main_v42) (V c main_v59) (V c main_v60) (V c main_arg10)
          (Cert.Spec.flat3 (V c main_v62)) (V c main_v61) (V c main_arg13) :=
  (arrAt2_out V dat hA hafter).trans (pay3_pool V c)

end Cert.KernelIdeal.Hand

end
-- ==== Proof.KI.Net.lean ====
/-
  The kernel program's result as one formula of the launch arrays.

  The run of @main gives the buffer contents at the seven boundaries as a fold from the launch memory.  Read at the
  exact instance, each region's output array is one layer of the network applied to the arrays the region is entered
  from, and the host lines before a region build exactly the arguments of that layer: the neighbour aggregate of the
  features of the layer before (from the two rows of the edge list, which the first stretch flattens once), the
  transposed weight matrices, and for the last region the graph ids laid out as 25 rows of 4000.  A narrowing or
  widening of the floats is the identity at the exact instance.  Composing the three layers from the last boundary
  back to the launch, the result array holds the network of the specification over the kernel program's own
  neighbour aggregate.
-/
import proofs.«419596_j46471546143165_2_alg».proof.Proof.KI.Run
import proofs.«419596_j46471546143165_2_alg».proof.Proof.KI.Host
import proofs.«419596_j46471546143165_2_alg».proof.Proof.KI.V0
import proofs.«419596_j46471546143165_2_alg».proof.Proof.KI.V1
import proofs.«419596_j46471546143165_2_alg».proof.Proof.KI.V2
import proofs.«419596_j46471546143165_2_alg».proof.Proof.Spec
import Idealize.ShloMosaic.Lib.Pipeline.Value
import Idealize.ShloMosaic.Lib.ValueIdx
import Idealize.ShloMosaic.Lib.ValueLayout
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The host's layout operations, as the specification spells them -/

/-- The host's transpose of a matrix is the specification's: at (j, i) it reads the operand at (i, j). -/
theorem transpose_eq_transp {a b : ℕ} (A : (Cert.Spec.SM a b).Idx → EReal)
    (h : (Cert.Spec.SM a b).Transposes [1, 0] (Cert.Spec.SM b a)) :
    transpose (Cert.Spec.SM b a) [1, 0] A h = Cert.Spec.transp A := by
  funext i
  show _ = A (ix2 (i 1) (i 0))
  exact (congrArg (transpose (Cert.Spec.SM b a) [1, 0] A h) (eq_ix2 i)).trans (transpose_ix2_apply A h (i 0) (i 1))

/-- The graph ids laid out as 25 rows of 4000 and read back row by row are the ids: node n sits in row n / 4000
    at lane n % 4000, which is row-major position n again. -/
theorem flat3_shapeCast (a : (Cert.Spec.SV 100000).Idx → BitVec 32) (h : (Cert.Spec.SV 100000).ShapeCasts Cert.Spec.SIds3) :
    Cert.Spec.flat3 (fun i => shapeCast Cert.Spec.SIds3 a h i) = a := by
  funext i
  unfold Cert.Spec.flat3
  refine shapeCast_apply a h _ i ?_
  rw [Shape.rowMajor_val_one, Shape.rowMajor_val_three]
  have h0 : (i 0).val < 100000 := (i 0).isLt
  show (i 0).val = ((((i 0).val / 4000) * 1 + 0) * 4000 + (i 0).val % 4000)
  omega

/-! ## What the fold holds at the buffers the layers read -/

section Back
variable {F : FTy → Type} [FloatOps F] (m : (ℓ : Loc nD τ sig) → Buf (Elt F) ℓ) (ρ : Dev nD → PrngReg)

/-- A buffer no item up to a boundary writes holds its launch contents there. -/
theorem W1_back (c : Dev nD) (b : Ref sig .tc) (h0 : b ∉ hostOps0_W) :
    W1 m ρ c (Proc.devRef .tc b) = m ((c : Thread nD τ).loc b) :=
  StableHlo.after_of_writes_sub hostOps0 _ hostOps0_writes h0
theorem W2_back (c : Dev nD) (b : Ref sig .tc) (h0 : b ∉ hostOps0_W)
    (k0 : ∀ w, (cfg0.win w).isOut = true → Pipeline.arrRef spec0 w ≠ b) :
    W2 m ρ c (Proc.devRef .tc b) = m ((c : Thread nD τ).loc b) :=
  (W2_keep m ρ c b k0).trans (W1_back m ρ c b h0)
theorem W3_back (c : Dev nD) (b : Ref sig .tc) (h0 : b ∉ hostOps0_W) (h1 : b ∉ hostOps1_W)
    (k0 : ∀ w, (cfg0.win w).isOut = true → Pipeline.arrRef spec0 w ≠ b) :
    W3 m ρ c (Proc.devRef .tc b) = m ((c : Thread nD τ).loc b) :=
  (StableHlo.after_of_writes_sub hostOps1 _ hostOps1_writes h1).trans (W2_back m ρ c b h0 k0)
theorem W4_back (c : Dev nD) (b : Ref sig .tc) (h0 : b ∉ hostOps0_W) (h1 : b ∉ hostOps1_W)
    (k0 : ∀ w, (cfg0.win w).isOut = true → Pipeline.arrRef spec0 w ≠ b)
    (k1 : ∀ w, (cfg1.win w).isOut = true → Pipeline.arrRef spec1 w ≠ b) :
    W4 m ρ c (Proc.devRef .tc b) = m ((c : Thread nD τ).loc b) :=
  (W4_keep m ρ c b k1).trans (W3_back m ρ c b h0 h1 k0)
theorem W5_back (c : Dev nD) (b : Ref sig .tc) (h0 : b ∉ hostOps0_W) (h1 : b ∉ hostOps1_W) (h2 : b ∉ hostOps2_W)
    (k0 : ∀ w, (cfg0.win w).isOut = true → Pipeline.arrRef spec0 w ≠ b)
    (k1 : ∀ w, (cfg1.win w).isOut = true → Pipeline.arrRef spec1 w ≠ b) :
    W5 m ρ c (Proc.devRef .tc b) = m ((c : Thread nD τ).loc b) :=
  (StableHlo.after_of_writes_sub hostOps2 _ hostOps2_writes h2).trans (W4_back m ρ c b h0 h1 k0 k1)

/-- A buffer the first stretch writes and no later item does keeps, at the later boundaries, what the first
    stretch left in it. -/
theorem W2_of_W1 (c : Dev nD) (b : Ref sig .tc)
    (k0 : ∀ w, (cfg0.win w).isOut = true → Pipeline.arrRef spec0 w ≠ b) :
    W2 m ρ c (Proc.devRef .tc b) = W1 m ρ c (Proc.devRef .tc b) := W2_keep m ρ c b k0
theorem W4_of_W1 (c : Dev nD) (b : Ref sig .tc) (h1 : b ∉ hostOps1_W)
    (k0 : ∀ w, (cfg0.win w).isOut = true → Pipeline.arrRef spec0 w ≠ b)
    (k1 : ∀ w, (cfg1.win w).isOut = true → Pipeline.arrRef spec1 w ≠ b) :
    W4 m ρ c (Proc.devRef .tc b) = W1 m ρ c (Proc.devRef .tc b) :=
  (W4_keep m ρ c b k1).trans ((StableHlo.after_of_writes_sub hostOps1 _ hostOps1_writes h1).trans (W2_keep m ρ c b k0))

end Back

variable (m : (ℓ : Loc nD τ sig) → Buf (Elt Ideal) ℓ) (ρ : Dev nD → PrngReg)

/-! ## The layers, from the launch forward -/

/-- Equal arrays give equal layers. -/
theorem convRelu_congr {K : ℕ} {A A' H H' : (Cert.Spec.SN K).Idx → EReal} {Wr Wr' Wo Wo' : (Cert.Spec.SM K 128).Idx → EReal}
    {b b' : (Cert.Spec.SV 128).Idx → EReal} (hA : A = A') (hH : H = H') (hr : Wr = Wr') (ho : Wo = Wo') (hb : b = b') :
    Cert.Spec.convRelu A H Wr Wo b = Cert.Spec.convRelu A' H' Wr' Wo' b' := by
  subst hA hH hr ho hb; rfl
theorem poolHead_congr {A A' H H' : (Cert.Spec.SN 128).Idx → EReal} {Wr Wr' Wo Wo' : (Cert.Spec.SM 128 128).Idx → EReal}
    {b b' : (Cert.Spec.SV 128).Idx → EReal} {ids ids' : (Cert.Spec.SV 100000).Idx → BitVec 32}
    {Wl Wl' : (Cert.Spec.SM 128 16).Idx → EReal} {bl bl' : (Cert.Spec.SV 16).Idx → EReal}
    (hA : A = A') (hH : H = H') (hr : Wr = Wr') (ho : Wo = Wo') (hb : b = b') (hi : ids = ids') (hl : Wl = Wl') (hbl : bl = bl') :
    Cert.Spec.poolHead A H Wr Wo b ids Wl bl = Cert.Spec.poolHead A' H' Wr' Wo' b' ids' Wl' bl' := by
  subst hA hH hr ho hb hi hl hbl; rfl
/-- The aggregate of 128 features from the two id rows the first stretch leaves is the kernel program's aggregate of
    the edge list. -/
theorem aggOf128_eq {s d : IVec S1600000 32} {h h' : FVec Ideal S100000x128 .bf16} (e : IVec S2x1600000 32)
    (hs : s = edgeRow0 e) (hd : d = edgeRow1 e) (hh : h = h') : aggOf128 s d h = aggK128 e h' := by
  subst hs hd hh; rfl
/-- The host's transpose of an array that holds A is the specification's transpose of A. -/
theorem transp_of {a b : ℕ} {A A' : (Cert.Spec.SM a b).Idx → EReal} (hA : A = A')
    (h : (Cert.Spec.SM a b).Transposes [1, 0] (Cert.Spec.SM b a)) :
    transpose (Cert.Spec.SM b a) [1, 0] A h = Cert.Spec.transp A' := by
  subst hA; exact transpose_eq_transp A h

/-- What the first stretch leaves in the two flattened id rows is there at regions 1 and 2's entries too. -/
theorem W2_v1 (c : Dev nD) : W2 m ρ c (Proc.devRef .tc main_v1) = edgeRow0 (m ((c : Thread nD τ).loc main_arg1)) :=
  (W2_of_W1 m ρ c main_v1 (by decide)).trans (host0_v1 (W0 m ρ c))
theorem W2_v3 (c : Dev nD) : W2 m ρ c (Proc.devRef .tc main_v3) = edgeRow1 (m ((c : Thread nD τ).loc main_arg1)) :=
  (W2_of_W1 m ρ c main_v3 (by decide)).trans (host0_v3 (W0 m ρ c))
theorem W4_v1 (c : Dev nD) : W4 m ρ c (Proc.devRef .tc main_v1) = edgeRow0 (m ((c : Thread nD τ).loc main_arg1)) :=
  (W4_of_W1 m ρ c main_v1 (by decide) (by decide) (by decide)).trans (host0_v1 (W0 m ρ c))
theorem W4_v3 (c : Dev nD) : W4 m ρ c (Proc.devRef .tc main_v3) = edgeRow1 (m ((c : Thread nD τ).loc main_arg1)) :=
  (W4_of_W1 m ρ c main_v3 (by decide) (by decide) (by decide)).trans (host0_v3 (W0 m ρ c))

/-- The first layer of the launch arrays. -/
def layer1 (c : Dev nD) : (Cert.Spec.SN 128).Idx → EReal :=
  Cert.Spec.convRelu (K := 64) (aggK64 (m ((c : Thread nD τ).loc main_arg1)) (m ((c : Thread nD τ).loc main_arg0)))
    (m ((c : Thread nD τ).loc main_arg0))
    (Cert.Spec.transp (m ((c : Thread nD τ).loc main_arg3))) (Cert.Spec.transp (m ((c : Thread nD τ).loc main_arg5)))
    (m ((c : Thread nD τ).loc main_arg4))
/-- The second layer, of the first. -/
def layer2 (c : Dev nD) : (Cert.Spec.SN 128).Idx → EReal :=
  Cert.Spec.convRelu (K := 128) (aggK128 (m ((c : Thread nD τ).loc main_arg1)) (layer1 m c)) (layer1 m c)
    (Cert.Spec.transp (m ((c : Thread nD τ).loc main_arg6))) (Cert.Spec.transp (m ((c : Thread nD τ).loc main_arg8)))
    (m ((c : Thread nD τ).loc main_arg7))

/-- Region 0 leaves the first layer in its output array. -/
theorem W2_v23 (c : Dev nD) : W2 m ρ c (Proc.devRef .tc main_v23) = layer1 m c :=
  (W2_arr m ρ c 5).trans <| (arrAt0 (V1 m ρ) c).trans <| convRelu_congr
    ((host0_v20 (W0 m ρ c)).trans (congrArg (aggK64 (m ((c : Thread nD τ).loc main_arg1)))
      (funext fun i => truncf_apply (m ((c : Thread nD τ).loc main_arg0)) bitsLt_bf16_f32 i)))
    ((host0_v4 (W0 m ρ c)).trans (funext fun i => truncf_apply (m ((c : Thread nD τ).loc main_arg0)) bitsLt_bf16_f32 i))
    ((host0_v21 (W0 m ρ c)).trans (transp_of rfl _))
    ((host0_v22 (W0 m ρ c)).trans (transp_of rfl _))
    (W1_back m ρ c main_arg4 (by decide))

/-- Region 1 leaves the second layer in its output array. -/
theorem W4_v42 (c : Dev nD) : W4 m ρ c (Proc.devRef .tc main_v42) = layer2 m c :=
  (W4_arr m ρ c 5).trans <| (arrAt1 (V3 m ρ) c).trans <| convRelu_congr
    ((host1_v39 (W2 m ρ c)).trans (aggOf128_eq _ (W2_v1 m ρ c) (W2_v3 m ρ c) (W2_v23 m ρ c)))
    ((StableHlo.after_of_writes_sub hostOps1 _ hostOps1_writes (by decide)).trans (W2_v23 m ρ c))
    ((host1_v40 (W2 m ρ c)).trans (transp_of (W2_back m ρ c main_arg6 (by decide) (by decide)) _))
    ((host1_v41 (W2 m ρ c)).trans (transp_of (W2_back m ρ c main_arg8 (by decide) (by decide)) _))
    (W3_back m ρ c main_arg7 (by decide) (by decide) (by decide))

/-- THE RESULT: after @main the result array holds the specification's network of the launch arrays, over the
    kernel program's own neighbour aggregates of the edge list. -/
theorem kernel_net (c : Dev nD) :
    W6 (F := Ideal) m ρ c (Proc.devRef .tc main_v63)
      = Cert.Spec.net (aggK64 (m ((c : Thread nD τ).loc main_arg1))) (aggK128 (m ((c : Thread nD τ).loc main_arg1)))
          (m ((c : Thread nD τ).loc main_arg0))
          (Cert.Spec.transp (m ((c : Thread nD τ).loc main_arg3))) (Cert.Spec.transp (m ((c : Thread nD τ).loc main_arg5)))
          (m ((c : Thread nD τ).loc main_arg4))
          (Cert.Spec.transp (m ((c : Thread nD τ).loc main_arg6))) (Cert.Spec.transp (m ((c : Thread nD τ).loc main_arg8)))
          (m ((c : Thread nD τ).loc main_arg7))
          (Cert.Spec.transp (m ((c : Thread nD τ).loc main_arg9))) (Cert.Spec.transp (m ((c : Thread nD τ).loc main_arg11)))
          (m ((c : Thread nD τ).loc main_arg10))
          (m ((c : Thread nD τ).loc main_arg2))
          (Cert.Spec.transp (m ((c : Thread nD τ).loc main_arg12))) (m ((c : Thread nD τ).loc main_arg13)) :=
  (W6_arr m ρ c 8).trans <| (arrAt2 (V5 m ρ) (dat2 (V5 m ρ) c) (A_eq2 (V5 m ρ) c) (after2_8 (V5 m ρ) c)).trans <|
    (poolHead_congr
      ((host2_v58 (W4 m ρ c)).trans (aggOf128_eq _ (W4_v1 m ρ c) (W4_v3 m ρ c) (W4_v42 m ρ c)))
      ((StableHlo.after_of_writes_sub hostOps2 _ hostOps2_writes (by decide)).trans (W4_v42 m ρ c))
      ((host2_v59 (W4 m ρ c)).trans (transp_of (W4_back m ρ c main_arg9 (by decide) (by decide) (by decide) (by decide)) _))
      ((host2_v60 (W4 m ρ c)).trans (transp_of (W4_back m ρ c main_arg11 (by decide) (by decide) (by decide) (by decide)) _))
      (W5_back m ρ c main_arg10 (by decide) (by decide) (by decide) (by decide) (by decide))
      ((congrArg Cert.Spec.flat3 (host2_v62 (W4 m ρ c))).trans <| (flat3_shapeCast _ _).trans
        (W4_back m ρ c main_arg2 (by decide) (by decide) (by decide) (by decide)))
      ((host2_v61 (W4 m ρ c)).trans (transp_of (W4_back m ρ c main_arg12 (by decide) (by decide) (by decide) (by decide)) _))
      (W5_back m ρ c main_arg13 (by decide) (by decide) (by decide) (by decide) (by decide))).trans rfl

end Cert.KernelIdeal.Hand

end
-- ==== Proof.LibRows.lean ====
/-
  Rows taken from, and rows added into, a two-dimensional table: `stablehlo.gather` and the accumulating
  `stablehlo.scatter` with one start index per row, read at an index.

  `table[idx]` over a table of N rows and K columns reads, at result position (e, q), the table's entry
  (r, q) where r is the e-th start index read as a signed integer and clamped into [0, N - 1].  The
  accumulating scatter with the same dimension numbers sends update (e, q) to table entry (r, q) where r
  is the e-th start index read signed and NOT clamped: the update is dropped when r is outside [0, N).
-/
import Idealize.ShloMosaic.PureOps.Ideal
import Idealize.ShloMosaic.Lib.ValueIdx
import Idealize.ShloMosaic.Lib.StableHlo.Predicate

noncomputable section

namespace Cert.LibRows

open Idealize.ShloMosaic Idealize.ShloMosaic.ValueIdx

/-- A start index read as a signed integer and clamped into the rows [0, N - 1] of a table. -/
def clampRow (N : Nat) (hN : 0 < N) {w : Nat} (b : BitVec w) : Fin N := ⟨min b.toInt.toNat (N - 1), by omega⟩

/-- A start index that, read signed, IS the row `r` clamps to `r`. -/
theorem clampRow_of_toInt {N : Nat} (hN : 0 < N) {w : Nat} (b : BitVec w) (r : Fin N) (h : b.toInt = (r.val : Int)) :
    clampRow N hN b = r := by
  apply Fin.ext
  show min b.toInt.toNat (N - 1) = r.val
  have hr := r.isLt
  rw [h, Int.toNat_natCast]
  omega

/-- Rows of a two-dimensional table taken at a column of start indices: result (e, q) is the table at
    (the e-th start index clamped, q). -/
theorem gather_rows_apply {α : Type} {N E K w : Nat} (hN : 0 < N)
    (d : GatherDims ⟨2, ![N, K]⟩ ⟨2, ![E, 1]⟩ ⟨2, ![E, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, K]⟩ : Shape).Idx → α) (idx : IVec ⟨2, ![E, 1]⟩ w) (e : Fin E) (q : Fin K) :
    Host.gather d x idx (ix2 e q) = x (ix2 (clampRow N hN (idx (ix2 e (0 : Fin 1)))) q) := by
  unfold Host.gather
  congr 1
  funext a
  have hb : ∀ a : Fin 2, a ∉ d.operandBatchingDims := fun a => by rw [hob]; exact List.not_mem_nil
  -- the result's batch axes are [0], its offset axes [1]
  have hbd : d.batchDims = [0] := by
    show Shape.kept _ d.offsetDims = [0]
    rw [hoff]; rfl
  have hbm : ∀ a ∈ d.batchDims, a = 0 := fun a ha => by
    rw [hbd] at ha; exact List.mem_singleton.mp ha
  have hom : ∀ a ∈ d.offsetDims, a = 1 := fun a ha => by
    rw [hoff] at ha; exact List.mem_singleton.mp ha
  have hb0 : ∀ (i : Nat) (hi : i < d.batchDims.length), d.batchDims[i] = 0 := fun i hi =>
    hbm _ (List.getElem_mem hi)
  have ho1 : ∀ (i : Nat) (hi : i < d.offsetDims.length), d.offsetDims[i] = 1 := fun i hi =>
    hom _ (List.getElem_mem hi)
  have c0 : ∀ a : Fin 2, a = 0 → ((ix2 e q) a).val = e.val := by rintro _ rfl; rfl
  have c1 : ∀ a : Fin 2, a = 1 → ((ix2 e q) a).val = q.val := by rintro _ rfl; rfl
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = _
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact c0 _ (hb0 _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1), Nat.add_zero]
    unfold GatherDims.start GatherDims.offCoord
    rw [dif_neg hm, dif_pos hk, Nat.zero_add]
    exact c1 _ (ho1 _ _)

/-- Entries of a one-dimensional table taken at a column of start indices: result e is the table at the
    e-th start index clamped. -/
theorem gather_take_apply1 {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (clampRow N hN (idx (ix2 e (0 : Fin 1))))) := by
  -- the two spellings of a rank-1 index, and of row e of a one-column table, agree coordinate by coordinate
  have e1 : ∀ {n : Nat} (k : Fin n), (Shape.Idx.ofFin k : (⟨1, ![n]⟩ : Shape).Idx) = ix1 k := fun k => by
    funext a; match a with | ⟨0, _⟩ => rfl
  have e2 : StableHlo.Predicate.ixP e = ix2 e (0 : Fin 1) := by
    funext a; match a with | ⟨0, _⟩ => rfl | ⟨1, _⟩ => rfl
  rw [← e1 e, StableHlo.Predicate.gather_take d hcoll hob hsim hivd x idx e hN, e1]
  congr 2
  apply Fin.ext
  show min (idx (StableHlo.Predicate.ixP e)).toInt.toNat (N - 1) = min (idx (ix2 e (0 : Fin 1))).toInt.toNat (N - 1)
  rw [e2]

/-- Where update (e, q) of a row scatter lands: at table entry (r, q) exactly when the e-th start index,
    read signed, is the row r. -/
theorem scatter_rows_result {N E K w : Nat}
    (d : ScatterDims ⟨2, ![N, K]⟩ ⟨2, ![E, 1]⟩ ⟨2, ![E, K]⟩)
    (huw : d.updateWindowDims = [1]) (hiw : d.insertedWindowDims = [0]) (hsd : d.scatterDimsToOperandDims = [0])
    (hivd : d.indexVectorDim = 1)
    (idx : IVec ⟨2, ![E, 1]⟩ w) (e : Fin E) (q : Fin K) (r : Fin N) (q' : Fin K) :
    d.resultIdx? (ix2 e q) idx = some (ix2 r q') ↔ ((idx (ix2 e (0 : Fin 1))).toInt = (r.val : Int) ∧ q = q') := by
  have hin0 : (0 : Fin 2) ∈ d.scatterDimsToOperandDims := by rw [hsd]; exact List.mem_singleton.mpr rfl
  have hnin1 : (1 : Fin 2) ∉ d.scatterDimsToOperandDims := by rw [hsd]; simp
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept]
  -- the update's scatter axes are [0], its window axes [1]
  have hus : d.uScatter = [0] := by
    show Shape.kept _ d.updateWindowDims = [0]
    rw [huw]; rfl
  have husm : ∀ a ∈ d.uScatter, a = 0 := fun a ha => by rw [hus] at ha; exact List.mem_singleton.mp ha
  have huwm : ∀ a ∈ d.updateWindowDims, a = 1 := fun a ha => by rw [huw] at ha; exact List.mem_singleton.mp ha
  have c0 : ∀ a : Fin 2, a = 0 → ((ix2 e q) a).val = e.val := by rintro _ rfl; rfl
  have c1 : ∀ a : Fin 2, a = 1 → ((ix2 e q) a).val = q.val := by rintro _ rfl; rfl
  -- axis 0: the start is the e-th start index read signed, the window coordinate 0
  have hs0 : d.start (ix2 e q) idx 0 = (idx (ix2 e (0 : Fin 1))).toInt := by
    unfold ScatterDims.start
    rw [dif_pos hin0]
    congr 2
    funext b
    match b with
    | ⟨0, _⟩ =>
      unfold ScatterDims.siIdx
      rw [dif_neg (by rw [hivd]; simp)]
      unfold ScatterDims.siCoord
      apply Fin.ext
      simp only [Fin.val_cast]
      exact c0 _ (husm _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e q) 0 = 0 := by
    unfold ScatterDims.window; rw [dif_neg hk0]
  -- axis 1: the start is 0, the window coordinate q
  have hs1 : d.start (ix2 e q) idx 1 = 0 := by
    unfold ScatterDims.start; rw [dif_neg hnin1]
  have hw1 : d.window (ix2 e q) 1 = q.val := by
    unfold ScatterDims.window; rw [dif_pos hk1]
    exact c1 _ (huwm _ (List.getElem_mem _))
  have hr := r.isLt
  have hq := q.isLt
  have hq' := q'.isLt
  unfold ScatterDims.resultIdx?
  split
  · next h =>
    rw [Option.some.injEq]
    constructor
    · intro heq
      have h0 : (d.start (ix2 e q) idx 0 + d.window (ix2 e q) 0).toNat = r.val := congrArg (fun f => (f 0).val) heq
      have h1 : (d.start (ix2 e q) idx 1 + d.window (ix2 e q) 1).toNat = q'.val := congrArg (fun f => (f 1).val) heq
      have hh0 := (h 0).1
      rw [hs0, hw0] at h0 hh0
      rw [hs1, hw1] at h1
      exact ⟨by omega, Fin.ext (by omega)⟩
    · rintro ⟨hr', hqq⟩
      funext a
      match a with
      | ⟨0, _⟩ =>
        apply Fin.ext
        show (d.start (ix2 e q) idx 0 + d.window (ix2 e q) 0).toNat = r.val
        rw [hs0, hw0, hr']; omega
      | ⟨1, _⟩ =>
        apply Fin.ext
        show (d.start (ix2 e q) idx 1 + d.window (ix2 e q) 1).toNat = q'.val
        rw [hs1, hw1, hqq]; omega
  · next h =>
    constructor
    · intro heq; exact absurd heq (by simp)
    · rintro ⟨hr', hqq⟩
      exfalso; apply h
      intro a
      match a with
      | ⟨0, _⟩ =>
        show 0 ≤ d.start (ix2 e q) idx 0 + d.window (ix2 e q) 0 ∧ d.start (ix2 e q) idx 0 + d.window (ix2 e q) 0 < (N : Int)
        rw [hs0, hw0, hr']; omega
      | ⟨1, _⟩ =>
        show 0 ≤ d.start (ix2 e q) idx 1 + d.window (ix2 e q) 1 ∧ d.start (ix2 e q) idx 1 + d.window (ix2 e q) 1 < (K : Int)
        rw [hs1, hw1]; omega

end Cert.LibRows

end
-- ==== Proof.Ref.lean ====
/-
  The reference program's result, read index by index: it is the specification's network.

  The reference builds each layer's neighbour aggregate with a gather of the source rows and an accumulating
  scatter into the destination rows; those two operations are kept whole here (`aggR64`, `aggR128`).  Each
  layer is then two products with transposed weights and a bias, the first two layers followed by max(·, 0);
  the per-graph sums and counts are accumulating scatters at the graph ids, read here as sums over the nodes
  whose id is the graph; the last stage divides by max(count, 1), multiplies by the classifier's transposed
  weights and adds its bias.
-/
import proofs.«419596_j46471546143165_2_alg».proof.Defs
import proofs.«419596_j46471546143165_2_alg».proof.Proof.Gen.ReferenceIdeal
import proofs.«419596_j46471546143165_2_alg».proof.Proof.Gen.Pre_finite_inputs
import proofs.«419596_j46471546143165_2_alg».proof.Proof.Gen.ReferenceIdeal.Run
import proofs.«419596_j46471546143165_2_alg».proof.Proof.Gen.ReferenceIdeal.Read
import proofs.«419596_j46471546143165_2_alg».proof.Proof.Spec
import proofs.«419596_j46471546143165_2_alg».proof.Proof.LibRows
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Read
open scoped BigOperators

/-! ## Indices by their coordinates, sums over selected entries, and a word read signed -/

/-- A rank-2 index with coordinates a and b is `ix2 a b`. -/
theorem ix2_of {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

/-- A rank-1 index with coordinate a is `ix1 a`. -/
theorem ix1_of {n : Nat} (f : (⟨1, ![n]⟩ : Shape).Idx) (a : Fin n) (h0 : (f 0).val = a.val) : f = ix1 a := by
  funext d
  match d with
  | ⟨0, _⟩ => exact Fin.ext h0

/-- A product of two tables summed over the shared axis, its factors read at indices whose coordinates are
    (n, k) and (k, j). -/
theorem sum_dot_ix {N K J : Nat} (l : (⟨2, ![N, K]⟩ : Shape).Idx → EReal) (r : (⟨2, ![K, J]⟩ : Shape).Idx → EReal)
    (n : Fin N) (j : Fin J) (li : Fin K → (⟨2, ![N, K]⟩ : Shape).Idx) (ri : Fin K → (⟨2, ![K, J]⟩ : Shape).Idx)
    (hl0 : ∀ k, (li k 0).val = n.val) (hl1 : ∀ k, (li k 1).val = k.val)
    (hr0 : ∀ k, (ri k 0).val = k.val) (hr1 : ∀ k, (ri k 1).val = j.val) :
    ∑ k : Fin K, l (li k) * r (ri k) = ∑ k : Fin K, l (ix2 n k) * r (ix2 k j) :=
  Finset.sum_congr rfl fun k _ => by
    rw [ix2_of (li k) n k (hl0 k) (hl1 k), ix2_of (ri k) k j (hr0 k) (hr1 k)]

/-- A 32-bit word read signed is the natural g below 128 exactly when it is the word of g. -/
theorem toInt_eq_iff (w : BitVec 32) (g : Nat) (hg : g < 128) : w.toInt = (g : Int) ↔ w = BitVec.ofNat 32 g := by
  constructor
  · intro h
    apply BitVec.eq_of_toNat_eq
    rw [BitVec.toNat_ofNat]
    rw [BitVec.toInt_eq_toNat_cond] at h
    have := w.isLt
    split at h <;> omega
  · rintro rfl
    rw [BitVec.toInt_eq_toNat_cond, BitVec.toNat_ofNat]
    split <;> omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the table entries (e, q) selected by "row e has the property P and q is the column k" is the sum,
    over the rows with P, of the entry in column k. -/
theorem sum_filter_rows {M : Type*} [AddCommMonoid M] {E K : Nat} (P : Fin E → Prop) [DecidablePred P] (k : Fin K)
    (c : (⟨2, ![E, K]⟩ : Shape).Idx → Prop) {dc : DecidablePred c}
    (hc : ∀ e q, c (ix2 e q) ↔ (P e ∧ q = k)) (f : (⟨2, ![E, K]⟩ : Shape).Idx → M) :
    ∑ j ∈ Finset.univ.filter c, f j = ∑ e : Fin E, if P e then f (ix2 e k) else 0 := by
  rw [Finset.sum_filter, sum_idx2]
  refine Finset.sum_congr rfl fun e _ => ?_
  by_cases hP : P e
  · rw [if_pos hP, Finset.sum_eq_single k]
    · rw [if_pos ((hc e k).2 ⟨hP, rfl⟩)]
    · intro q _ hq
      rw [if_neg (fun h => hq ((hc e q).1 h).2)]
    · intro h; exact absurd (Finset.mem_univ k) h
  · rw [if_neg hP]
    refine Finset.sum_eq_zero fun q _ => ?_
    rw [if_neg (fun h => hP ((hc e q).1 h).1)]

/-- The same over a list: a sum over the entries e selected by P. -/
theorem sum_filter_entries {M : Type*} [AddCommMonoid M] {E : Nat} (P : Fin E → Prop) [DecidablePred P]
    (c : (⟨1, ![E]⟩ : Shape).Idx → Prop) {dc : DecidablePred c}
    (hc : ∀ e, c (ix1 e) ↔ P e) (f : (⟨1, ![E]⟩ : Shape).Idx → M) :
    ∑ j ∈ Finset.univ.filter c, f j = ∑ e : Fin E, if P e then f (ix1 e) else 0 := by
  rw [Finset.sum_filter, sum_idx1]
  refine Finset.sum_congr rfl fun e _ => ?_
  by_cases hP : P e
  · rw [if_pos hP, if_pos ((hc e).2 hP)]
  · rw [if_neg hP, if_neg (fun h => hP ((hc e).1 h))]

/-! ## The accumulating scatter at an index -/

/-- Over the extended reals the accumulating scatter is, at each entry, the operand's entry plus the sum of the
    updates that land there. -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- Where update e of a scatter of single entries lands: at table entry r exactly when the e-th start index,
    read signed, is r. -/
theorem scatter_entries_result {N E w : Nat}
    (d : ScatterDims ⟨1, ![N]⟩ ⟨2, ![E, 1]⟩ ⟨1, ![E]⟩)
    (hiw : d.insertedWindowDims = [0]) (hsd : d.scatterDimsToOperandDims = [0])
    (hivd : d.indexVectorDim = 1)
    (idx : IVec ⟨2, ![E, 1]⟩ w) (e : Fin E) (r : Fin N) :
    d.resultIdx? (ix1 e) idx = some (ix1 r) ↔ (idx (ix2 e (0 : Fin 1))).toInt = (r.val : Int) := by
  have hin0 : (0 : Fin 1) ∈ d.scatterDimsToOperandDims := by rw [hsd]; exact List.mem_singleton.mpr rfl
  have hk0 : (0 : Fin 1) ∉ d.sKept := by
    show (0 : Fin 1) ∉ Shape.kept _ d.insertedWindowDims
    rw [hiw]; simp [Shape.kept]
  have c0 : ∀ a : Fin 1, ((ix1 e) a).val = e.val := fun a => by match a with | ⟨0, _⟩ => rfl
  -- the start is the e-th start index read signed, the window coordinate 0
  have hs0 : d.start (ix1 e) idx 0 = (idx (ix2 e (0 : Fin 1))).toInt := by
    unfold ScatterDims.start
    rw [dif_pos hin0]
    congr 2
    funext b
    match b with
    | ⟨0, _⟩ =>
      unfold ScatterDims.siIdx
      rw [dif_neg (by rw [hivd]; simp)]
      unfold ScatterDims.siCoord
      apply Fin.ext
      simp only [Fin.val_cast]
      exact c0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg hk0]
  have hr := r.isLt
  unfold ScatterDims.resultIdx?
  split
  · next h =>
    rw [Option.some.injEq]
    constructor
    · intro heq
      have h0 : (d.start (ix1 e) idx 0 + d.window (ix1 e) 0).toNat = r.val := congrArg (fun f => (f 0).val) heq
      have hh0 := (h 0).1
      rw [hs0, hw0] at h0 hh0
      omega
    · intro hr'
      funext a
      match a with
      | ⟨0, _⟩ =>
        apply Fin.ext
        show (d.start (ix1 e) idx 0 + d.window (ix1 e) 0).toNat = r.val
        rw [hs0, hw0, hr']; omega
  · next h =>
    constructor
    · intro heq; exact absurd heq (by simp)
    · intro hr'
      exfalso; apply h
      intro a
      match a with
      | ⟨0, _⟩ =>
        show 0 ≤ d.start (ix1 e) idx 0 + d.window (ix1 e) 0 ∧ d.start (ix1 e) idx 0 + d.window (ix1 e) 0 < (N : Int)
        rw [hs0, hw0, hr']; omega

/-! ## The neighbour aggregate, kept whole -/

/-- The reference's neighbour aggregate of 64-feature rows h over the edge list e: the rows of h taken at the
    source ids (a negative id counted from the end) and added into a zero table at the destination ids. -/
def aggR64 (e : (⟨S2x1600000, .i32⟩ : BufTy).Contents (Elt Ideal)) (h : (Cert.Spec.SN 64).Idx → EReal) :
    (Cert.Spec.SN 64).Idx → EReal :=
  Host.scatterAdd (F := Ideal) (φ := .f32) scatter_S100000x64_S1600000x1_S1600000x64_1_0_0_1 (val_main_v11 (F := Ideal))
    (val_main_v12 (F := Ideal) e)
    (Host.gather gather_S100000x64_S1600000x1_S1600000x64_1_0_n_n_0_1_164 h (val_main_v9 (F := Ideal) e))

/-- The same for 128-feature rows. -/
def aggR128 (e : (⟨S2x1600000, .i32⟩ : BufTy).Contents (Elt Ideal)) (h : (Cert.Spec.SN 128).Idx → EReal) :
    (Cert.Spec.SN 128).Idx → EReal :=
  Host.scatterAdd (F := Ideal) (φ := .f32) scatter_S100000x128_S1600000x1_S1600000x128_1_0_0_1 (val_main_v30 (F := Ideal))
    (val_main_v12 (F := Ideal) e)
    (Host.gather gather_S100000x128_S1600000x1_S1600000x128_1_0_n_n_0_1_1128 h (val_main_v9 (F := Ideal) e))

/-- The first layer's aggregate is `aggR64` of the input features. -/
theorem v13_eq (x0 : (⟨S100000x64, .f32⟩ : BufTy).Contents (Elt Ideal)) (x1 : (⟨S2x1600000, .i32⟩ : BufTy).Contents (Elt Ideal)) :
    val_main_v13 (F := Ideal) x0 x1 = aggR64 x1 x0 := rfl

/-- The second and third layers normalise the source ids and lay out the destination ids again, to the same
    arrays. -/
theorem v28_eq (x1 : (⟨S2x1600000, .i32⟩ : BufTy).Contents (Elt Ideal)) : val_main_v28 (F := Ideal) x1 = val_main_v9 (F := Ideal) x1 := rfl
theorem v31_eq (x1 : (⟨S2x1600000, .i32⟩ : BufTy).Contents (Elt Ideal)) : val_main_v31 (F := Ideal) x1 = val_main_v12 (F := Ideal) x1 := rfl
theorem v47_eq (x1 : (⟨S2x1600000, .i32⟩ : BufTy).Contents (Elt Ideal)) : val_main_v47 (F := Ideal) x1 = val_main_v9 (F := Ideal) x1 := rfl
theorem v50_eq (x1 : (⟨S2x1600000, .i32⟩ : BufTy).Contents (Elt Ideal)) : val_main_v50 (F := Ideal) x1 = val_main_v12 (F := Ideal) x1 := rfl
theorem v49_eq : val_main_v49 (F := Ideal) = val_main_v30 (F := Ideal) := rfl

/-- The second layer's aggregate is `aggR128` of the first layer's result. -/
theorem v32_eq (x0 : (⟨S100000x64, .f32⟩ : BufTy).Contents (Elt Ideal)) (x1 : (⟨S2x1600000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) :
    val_main_v32 (F := Ideal) x0 x1 x3 x4 x5 = aggR128 x1 (val_main_v22 (F := Ideal) x0 x1 x3 x4 x5) := by
  unfold val_main_v32 val_main_v29 aggR128
  rw [v28_eq, v31_eq]

/-- The third layer's aggregate is `aggR128` of the second layer's result. -/
theorem v51_eq (x0 : (⟨S100000x64, .f32⟩ : BufTy).Contents (Elt Ideal)) (x1 : (⟨S2x1600000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v51 (F := Ideal) x0 x1 x3 x4 x5 x6 x7 x8 = aggR128 x1 (val_main_v41 (F := Ideal) x0 x1 x3 x4 x5 x6 x7 x8) := by
  unfold val_main_v51 val_main_v48 aggR128
  rw [v47_eq, v50_eq, v49_eq]

/-! ## The transposed weights -/

/-- A table read at the index with the coordinates swapped is the transposed table. -/
theorem transp_of {J K : Nat} (W : (⟨2, ![J, K]⟩ : Shape).Idx → EReal) (i : (⟨2, ![K, J]⟩ : Shape).Idx)
    (f : (⟨2, ![J, K]⟩ : Shape).Idx) (h0 : (f 0).val = (i 1).val) (h1 : (f 1).val = (i 0).val) :
    W f = Cert.Spec.transp W i := by
  show W f = W (ix2 (i 1) (i 0))
  congr 1
  funext a
  match a with
  | ⟨0, _⟩ => exact Fin.ext h0
  | ⟨1, _⟩ => exact Fin.ext h1

theorem v14_eq (x3 : (⟨S128x64, .f32⟩ : BufTy).Contents (Elt Ideal)) : val_main_v14 (F := Ideal) x3 = Cert.Spec.transp x3 :=
  funext fun i => (val_main_v14_apply x3 i).trans (transp_of x3 i _ rfl rfl)
theorem v19_eq (x5 : (⟨S128x64, .f32⟩ : BufTy).Contents (Elt Ideal)) : val_main_v19 (F := Ideal) x5 = Cert.Spec.transp x5 :=
  funext fun i => (val_main_v19_apply x5 i).trans (transp_of x5 i _ rfl rfl)
theorem v33_eq (x6 : (⟨S128x128, .f32⟩ : BufTy).Contents (Elt Ideal)) : val_main_v33 (F := Ideal) x6 = Cert.Spec.transp x6 :=
  funext fun i => (val_main_v33_apply x6 i).trans (transp_of x6 i _ rfl rfl)
theorem v38_eq (x8 : (⟨S128x128, .f32⟩ : BufTy).Contents (Elt Ideal)) : val_main_v38 (F := Ideal) x8 = Cert.Spec.transp x8 :=
  funext fun i => (val_main_v38_apply x8 i).trans (transp_of x8 i _ rfl rfl)
theorem v52_eq (x9 : (⟨S128x128, .f32⟩ : BufTy).Contents (Elt Ideal)) : val_main_v52 (F := Ideal) x9 = Cert.Spec.transp x9 :=
  funext fun i => (val_main_v52_apply x9 i).trans (transp_of x9 i _ rfl rfl)
theorem v57_eq (x11 : (⟨S128x128, .f32⟩ : BufTy).Contents (Elt Ideal)) : val_main_v57 (F := Ideal) x11 = Cert.Spec.transp x11 :=
  funext fun i => (val_main_v57_apply x11 i).trans (transp_of x11 i _ rfl rfl)
theorem v72_eq (x12 : (⟨S16x128, .f32⟩ : BufTy).Contents (Elt Ideal)) : val_main_v72 (F := Ideal) x12 = Cert.Spec.transp x12 :=
  funext fun i => (val_main_v72_apply x12 i).trans (transp_of x12 i _ rfl rfl)

/-! ## One layer -/

/-- The reference adds the bias before the root term; the specification adds it last. Addition of extended
    reals is commutative and associative. -/
theorem layer_val {K : Nat} (A H : (Cert.Spec.SN K).Idx → EReal) (Wrel Wroot : (Cert.Spec.SM K 128).Idx → EReal)
    (b : (Cert.Spec.SV 128).Idx → EReal) (n : Fin 100000) (j : Fin 128) :
    (∑ k : Fin K, A (ix2 n k) * Wrel (ix2 k j) + b (ix1 j)) + ∑ k : Fin K, H (ix2 n k) * Wroot (ix2 k j)
      = Cert.Spec.convAt A H Wrel Wroot b n j := by
  unfold Cert.Spec.convAt
  exact add_right_comm _ _ _

/-- The first layer. -/
theorem v22_eq (x0 : (⟨S100000x64, .f32⟩ : BufTy).Contents (Elt Ideal)) (x1 : (⟨S2x1600000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) :
    val_main_v22 (F := Ideal) x0 x1 x3 x4 x5
      = Cert.Spec.convRelu (aggR64 x1 x0) x0 (Cert.Spec.transp x3) (Cert.Spec.transp x5) x4 := by
  funext i
  obtain ⟨n, j, rfl⟩ : ∃ (n : Fin 100000) (j : Fin 128), i = ix2 n j := ⟨i 0, i 1, eq_ix2 i⟩
  rw [val_main_v22_apply, val_main_v21_apply, val_main_v18_apply, val_main_v15_apply, val_main_v20_apply,
    val_main_v17_apply, val_main_v16_apply, val_main_call0_v0_apply, val_main_call0_cst_apply,
    v13_eq, v14_eq, v19_eq,
    sum_dot_ix (aggR64 x1 x0) (Cert.Spec.transp x3) n j (lidx_main_v15 (ix2 n j)) (ridx_main_v15 (ix2 n j))
      (fun _ => rfl) (fun _ => rfl) (fun _ => rfl) (fun _ => rfl),
    sum_dot_ix x0 (Cert.Spec.transp x5) n j (lidx_main_v20 (ix2 n j)) (ridx_main_v20 (ix2 n j))
      (fun _ => rfl) (fun _ => rfl) (fun _ => rfl) (fun _ => rfl),
    ix1_of (idx_main_v16 (idx_main_v17 (ix2 n j))) j rfl]
  show max ((∑ k : Fin 64, aggR64 x1 x0 (ix2 n k) * Cert.Spec.transp x3 (ix2 k j) + x4 (ix1 j))
      + ∑ k : Fin 64, x0 (ix2 n k) * Cert.Spec.transp x5 (ix2 k j)) (Ideal.ofBits .f32 0x00000000#32)
    = max (Cert.Spec.convAt (aggR64 x1 x0) x0 (Cert.Spec.transp x3) (Cert.Spec.transp x5) x4 n j) 0
  rw [Ideal.ofBits_zero_f32, layer_val]

/-- The second layer. -/
theorem v41_eq (x0 : (⟨S100000x64, .f32⟩ : BufTy).Contents (Elt Ideal)) (x1 : (⟨S2x1600000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v41 (F := Ideal) x0 x1 x3 x4 x5 x6 x7 x8
      = Cert.Spec.convRelu (aggR128 x1 (val_main_v22 (F := Ideal) x0 x1 x3 x4 x5)) (val_main_v22 (F := Ideal) x0 x1 x3 x4 x5) (Cert.Spec.transp x6) (Cert.Spec.transp x8) x7 := by
  funext i
  obtain ⟨n, j, rfl⟩ : ∃ (n : Fin 100000) (j : Fin 128), i = ix2 n j := ⟨i 0, i 1, eq_ix2 i⟩
  rw [val_main_v41_apply, val_main_v40_apply, val_main_v37_apply, val_main_v34_apply, val_main_v39_apply,
    val_main_v36_apply, val_main_v35_apply, val_main_call1_v0_apply, val_main_call1_cst_apply,
    v32_eq, v33_eq, v38_eq,
    sum_dot_ix (aggR128 x1 (val_main_v22 (F := Ideal) x0 x1 x3 x4 x5)) (Cert.Spec.transp x6) n j (lidx_main_v34 (ix2 n j)) (ridx_main_v34 (ix2 n j))
      (fun _ => rfl) (fun _ => rfl) (fun _ => rfl) (fun _ => rfl),
    sum_dot_ix (val_main_v22 (F := Ideal) x0 x1 x3 x4 x5) (Cert.Spec.transp x8) n j (lidx_main_v39 (ix2 n j)) (ridx_main_v39 (ix2 n j))
      (fun _ => rfl) (fun _ => rfl) (fun _ => rfl) (fun _ => rfl),
    ix1_of (idx_main_v35 (idx_main_v36 (ix2 n j))) j rfl]
  show max ((∑ k : Fin 128, aggR128 x1 (val_main_v22 (F := Ideal) x0 x1 x3 x4 x5) (ix2 n k) * Cert.Spec.transp x6 (ix2 k j) + x7 (ix1 j))
      + ∑ k : Fin 128, (val_main_v22 (F := Ideal) x0 x1 x3 x4 x5) (ix2 n k) * Cert.Spec.transp x8 (ix2 k j)) (Ideal.ofBits .f32 0x00000000#32)
    = max (Cert.Spec.convAt (aggR128 x1 (val_main_v22 (F := Ideal) x0 x1 x3 x4 x5)) (val_main_v22 (F := Ideal) x0 x1 x3 x4 x5) (Cert.Spec.transp x6) (Cert.Spec.transp x8) x7 n j) 0
  rw [Ideal.ofBits_zero_f32, layer_val]

/-- The third layer, which has no max(·, 0). -/
theorem v59_eq (x0 : (⟨S100000x64, .f32⟩ : BufTy).Contents (Elt Ideal)) (x1 : (⟨S2x1600000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v59 (F := Ideal) x0 x1 x3 x4 x5 x6 x7 x8 x9 x10 x11
      = Cert.Spec.conv (aggR128 x1 (val_main_v41 (F := Ideal) x0 x1 x3 x4 x5 x6 x7 x8)) (val_main_v41 (F := Ideal) x0 x1 x3 x4 x5 x6 x7 x8) (Cert.Spec.transp x9) (Cert.Spec.transp x11) x10 := by
  funext i
  obtain ⟨n, j, rfl⟩ : ∃ (n : Fin 100000) (j : Fin 128), i = ix2 n j := ⟨i 0, i 1, eq_ix2 i⟩
  rw [val_main_v59_apply, val_main_v56_apply, val_main_v53_apply, val_main_v58_apply,
    val_main_v55_apply, val_main_v54_apply,
    v51_eq, v52_eq, v57_eq,
    sum_dot_ix (aggR128 x1 (val_main_v41 (F := Ideal) x0 x1 x3 x4 x5 x6 x7 x8)) (Cert.Spec.transp x9) n j (lidx_main_v53 (ix2 n j)) (ridx_main_v53 (ix2 n j))
      (fun _ => rfl) (fun _ => rfl) (fun _ => rfl) (fun _ => rfl),
    sum_dot_ix (val_main_v41 (F := Ideal) x0 x1 x3 x4 x5 x6 x7 x8) (Cert.Spec.transp x11) n j (lidx_main_v58 (ix2 n j)) (ridx_main_v58 (ix2 n j))
      (fun _ => rfl) (fun _ => rfl) (fun _ => rfl) (fun _ => rfl),
    ix1_of (idx_main_v54 (idx_main_v55 (ix2 n j))) j rfl]
  exact layer_val (aggR128 x1 (val_main_v41 (F := Ideal) x0 x1 x3 x4 x5 x6 x7 x8)) (val_main_v41 (F := Ideal) x0 x1 x3 x4 x5 x6 x7 x8) (Cert.Spec.transp x9) (Cert.Spec.transp x11) x10 n j

/-! ## Pooling: the sums and the counts per graph -/

/-- The scatter of the rows of H at the graph ids into a zero table is, at (g, k), the sum of H (n, k) over the
    nodes n whose id is the word of g. -/
theorem poolSum_eq (ids : (⟨S100000, .i32⟩ : BufTy).Contents (Elt Ideal)) (H : (Cert.Spec.SN 128).Idx → EReal)
    (g k : Fin 128) :
    Host.scatterAdd (F := Ideal) (φ := .f32) scatter_S128x128_S100000x1_S100000x128_1_0_0_1 (val_main_v60 (F := Ideal))
        (val_main_v61 (F := Ideal) ids) H (ix2 g k)
      = Cert.Spec.poolSum ids H g k := by
  rw [scatterAdd_apply, val_main_v60_apply, val_main_cst_7_apply, Ideal.ofBits_def, Ideal.ofBits_zero_f32, zero_add,
    sum_filter_rows (fun e : Fin 100000 => ids (ix1 e) = BitVec.ofNat 32 g.val) k _ ?_ H]
  · rfl
  · intro e q
    refine (Cert.LibRows.scatter_rows_result scatter_S128x128_S100000x1_S100000x128_1_0_0_1 rfl rfl rfl rfl
      (val_main_v61 (F := Ideal) ids) e q g k).trans ?_
    rw [val_main_v61_apply, ix1_of (idx_main_v61 (ix2 e (0 : Fin 1))) e rfl, toInt_eq_iff _ _ g.isLt]

/-- The scatter of ones at the graph ids into a zero list is, at g, the number of nodes whose id is the word
    of g. -/
theorem poolCnt_eq (ids : (⟨S100000, .i32⟩ : BufTy).Contents (Elt Ideal)) (g : Fin 128) :
    Host.scatterAdd (F := Ideal) (φ := .f32) scatter_S128_S100000x1_S100000_n_0_0_1 (val_main_v64 (F := Ideal))
        (val_main_v65 (F := Ideal) ids) (val_main_v63 (F := Ideal)) (ix1 g)
      = Cert.Spec.poolCnt ids g := by
  have h1 : ∀ e : Fin 100000, val_main_v63 (F := Ideal) (ix1 e) = 1 := fun e => by
    rw [val_main_v63_apply, val_main_cst_8_apply, Ideal.ofBits_def, Ideal.ofBits_one_f32]
  rw [scatterAdd_apply, val_main_v64_apply, val_main_cst_9_apply, Ideal.ofBits_def, Ideal.ofBits_zero_f32, zero_add,
    sum_filter_entries (fun e : Fin 100000 => ids (ix1 e) = BitVec.ofNat 32 g.val) _ ?_ (val_main_v63 (F := Ideal))]
  · unfold Cert.Spec.poolCnt
    exact Finset.sum_congr rfl fun e _ => by rw [h1 e]
  · intro e
    refine (scatter_entries_result scatter_S128_S100000x1_S100000_n_0_0_1 rfl rfl rfl
      (val_main_v65 (F := Ideal) ids) e g).trans ?_
    rw [val_main_v65_apply, ix1_of (idx_main_v65 (ix2 e (0 : Fin 1))) e rfl, toInt_eq_iff _ _ g.isLt]

/-! ## The classifier -/

/-- The mean-pooled features at (g, k): the sum over the graph's nodes divided by max(count, 1). -/
theorem v71_at (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (g k : Fin 128) :
    val_main_v71 (F := Ideal) x0 x1 x2 x3 x4 x5 x6 x7 x8 x9 x10 x11 (ix2 g k)
      = Ideal.div (Cert.Spec.poolSum x2 (val_main_v59 (F := Ideal) x0 x1 x3 x4 x5 x6 x7 x8 x9 x10 x11) g k) (max (Cert.Spec.poolCnt x2 g) 1) := by
  rw [val_main_v71_apply, Ideal.hostDivf_def, val_main_v70_apply, val_main_v69_apply, val_main_v68_apply,
    val_main_v67_apply, val_main_cst_10_apply, Ideal.ofBits_def, Ideal.ofBits_one_f32, Ideal.maximumf_def,
    ix1_of (idx_main_v69 (idx_main_v70 (ix2 g k))) g rfl]
  unfold val_main_v62 val_main_v66
  rw [poolSum_eq, poolCnt_eq]

/-- The reference's result is the classifier over the pooled third layer. -/
theorem v76_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S16x128, .f32⟩ : BufTy).Contents (Elt Ideal)) (x13 : (⟨S16, .f32⟩ : BufTy).Contents (Elt Ideal)) :
    val_main_v76 (F := Ideal) x0 x1 x2 x3 x4 x5 x6 x7 x8 x9 x10 x11 x12 x13
      = fun i => Cert.Spec.headAt (Cert.Spec.poolSum x2 (val_main_v59 (F := Ideal) x0 x1 x3 x4 x5 x6 x7 x8 x9 x10 x11)) (Cert.Spec.poolCnt x2) (Cert.Spec.transp x12) x13
          (i 0) (i 1) := by
  funext i
  obtain ⟨g, q, rfl⟩ : ∃ (g : Fin 128) (q : Fin 16), i = ix2 g q := ⟨i 0, i 1, eq_ix2 i⟩
  rw [val_main_v76_apply, val_main_v73_apply, val_main_v75_apply, val_main_v74_apply, v72_eq,
    sum_dot_ix (val_main_v71 (F := Ideal) x0 x1 x2 x3 x4 x5 x6 x7 x8 x9 x10 x11) (Cert.Spec.transp x12) g q
      (lidx_main_v73 (ix2 g q)) (ridx_main_v73 (ix2 g q)) (fun _ => rfl) (fun _ => rfl) (fun _ => rfl) (fun _ => rfl),
    ix1_of (idx_main_v74 (idx_main_v75 (ix2 g q))) q rfl]
  show (∑ k : Fin 128, val_main_v71 (F := Ideal) x0 x1 x2 x3 x4 x5 x6 x7 x8 x9 x10 x11 (ix2 g k) * Cert.Spec.transp x12 (ix2 k q)) + x13 (ix1 q)
    = Cert.Spec.headAt (Cert.Spec.poolSum x2 (val_main_v59 (F := Ideal) x0 x1 x3 x4 x5 x6 x7 x8 x9 x10 x11)) (Cert.Spec.poolCnt x2) (Cert.Spec.transp x12) x13 g q
  unfold Cert.Spec.headAt
  exact congrArg (fun t => t + x13 (ix1 q)) (Finset.sum_congr rfl fun k _ => by rw [v71_at])

/-! ## The reference is the network -/

/-- The reference's result array is the specification's network over the reference's own neighbour
    aggregates. -/
theorem ref_net (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S16x128, .f32⟩ : BufTy).Contents (Elt Ideal)) (x13 : (⟨S16, .f32⟩ : BufTy).Contents (Elt Ideal)) :
    val_main_v76 (F := Ideal) x0 x1 x2 x3 x4 x5 x6 x7 x8 x9 x10 x11 x12 x13
      = Cert.Spec.net (aggR64 x1) (aggR128 x1) x0 (Cert.Spec.transp x3) (Cert.Spec.transp x5) x4
          (Cert.Spec.transp x6) (Cert.Spec.transp x8) x7 (Cert.Spec.transp x9) (Cert.Spec.transp x11) x10 x2
          (Cert.Spec.transp x12) x13 := by
  rw [v76_eq, v59_eq, v41_eq, v22_eq]
  rfl

/-! ## The reference runs and leaves its arguments unchanged -/

theorem frame_ref :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.ReferenceIdeal.RefValue

end
-- ==== Proof.PreDst.lean ====
/-
  The statement's precondition, read back for the edge list.  The precondition is the conjunction "every float
  input is finite" with one more conjunct at its end: every destination id of the edge list (row 1 of the
  [2, 1600000] array, flattened) is at least 0, signed.  Read at its one index, the last conjunct is a reduction by
  "and" over all 1600000 comparisons, so each comparison holds.  On words that are at least 0 the index
  normalisation "if d < 0 then d + 100000 else d" changes nothing.
-/
import proofs.«419596_j46471546143165_2_alg».proof.Pre_finite_inputs
import proofs.«419596_j46471546143165_2_alg».proof.Proof.Gen.Pre_finite_inputs
import Idealize.ShloMosaic.Lib.StableHlo.Predicate
import Idealize.ShloMosaic.Lib.ReduceAll
import Idealize.ShloMosaic.PureOps.Ideal

noncomputable section

namespace Cert.Pre_finite_inputs.Hand

open Cert.Pre_finite_inputs
open Idealize.ShloMosaic

/-- The scalar shape has one index. -/
private instance subsingleton_scalar_idx : Subsingleton S_.Idx := ⟨fun a b => funext fun d => d.elim0⟩

/-- The one index of the scalar shape. -/
private abbrev j0 : S_.Idx := fun a => a.elim0

section
variable [Facts]

/-- The last part of the precondition holding at its index says every destination id is at least 0: its last
    conjunct is the "and" over all entries of the comparison "row 1 of the edge list, flattened, ≥ 0". -/
theorem part3_dst {F : FTy → Type} [FloatOps F] (a1 : IVec S2x1600000 32) (a13 : FVec F S16 .f32) (v48 : IVec S_ 1)
    (v49 v50 : FVec F S16x128 .f32) (j : S_.Idx) (e : fn_part3 (F := F) a1 a13 v48 v49 v50 j = 1#1) (i : S1600000.Idx) :
    0 ≤ ((shapeCast S1600000 (extractStridedSlice S1x1600000 ![1, 0] a1 Facts.slices_S2x1600000_S1x1600000_1_0)
      Facts.shapeCasts_S1x1600000_S1600000 : IVec S1600000 32) i).toInt := by
  unfold fn_part3 at e
  dsimp only at e
  obtain ⟨-, e3⟩ := IntOp.andi_eq_one.1 e
  have hi := Host.reduce_andi_all _ _ _ _ j e3 i
  have hc := IntOp.cmpi_sge.1 hi
  simp only [broadcastInDim, constantI] at hc
  exact hc

/-- The whole precondition holding says every destination id is at least 0. -/
theorem dst_nonneg (a0 : FVec Ideal S100000x64 .f32) (a1 : IVec S2x1600000 32) (a2 : IVec S100000 32)
    (a3 : FVec Ideal S128x64 .f32) (a4 : FVec Ideal S128 .f32) (a5 : FVec Ideal S128x64 .f32)
    (a6 : FVec Ideal S128x128 .f32) (a7 : FVec Ideal S128 .f32) (a8 : FVec Ideal S128x128 .f32)
    (a9 : FVec Ideal S128x128 .f32) (a10 : FVec Ideal S128 .f32) (a11 : FVec Ideal S128x128 .f32)
    (a12 : FVec Ideal S16x128 .f32) (a13 : FVec Ideal S16 .f32)
    (h : Cert.Pre_finite_inputs.fn (F := Ideal) a0 a1 a2 a3 a4 a5 a6 a7 a8 a9 a10 a11 a12 a13 = fun _ => 1#1)
    (i : S1600000.Idx) :
    0 ≤ ((shapeCast S1600000 (extractStridedSlice S1x1600000 ![1, 0] a1 Facts.slices_S2x1600000_S1x1600000_1_0)
      Facts.shapeCasts_S1x1600000_S1600000 : IVec S1600000 32) i).toInt := by
  have e := congrFun h j0
  unfold fn at e
  dsimp only at e
  unfold fn_part1 at e
  dsimp only at e
  unfold fn_part2 at e
  dsimp only at e
  exact part3_dst a1 a13 _ _ _ j0 e i

end

/-- The index normalisation "if d < 0 then d + 100000 else d" is the identity on words that are at least 0: the
    comparison with 0 fails at every entry, and the selection keeps the word. -/
theorem norm_of_nonneg {hb : (⟨0, ![]⟩ : Shape).BroadcastsInDim (⟨1, ![1600000]⟩ : Shape) ![]}
    (d : IVec ⟨1, ![1600000]⟩ 32) (hd : ∀ i, 0 ≤ (d i).toInt) :
    select (cmpi .slt d (broadcastInDim _ ![] hb (constantI ⟨0, ![]⟩ 32 0#32)))
      (addi d (broadcastInDim _ ![] hb (constantI ⟨0, ![]⟩ 32 100000#32))) d = d := by
  funext i
  have hn : ¬ IntOp.cmpi .slt (d i) 0#32 = 1#1 := by
    rw [IntOp.cmpi_slt]
    have h0 : (0#32 : BitVec 32).toInt = 0 := by decide
    rw [h0]
    exact not_lt.2 (hd i)
  simp only [select, cmpi, broadcastInDim, constantI]
  unfold Scalar.select
  exact if_neg hn

end Cert.Pre_finite_inputs.Hand

end
-- ==== Proof.Bridge.lean ====
/-
  The two programs' neighbour aggregates are the same function of the edge list and the features.

  Both take the feature rows at the source ids (a negative id counted from the end) and add them into a zero table
  at the destination ids.  The kernel program also counts a negative destination id from the end; the reference
  does not.  Where every destination id is at least 0 that step changes nothing, and the two are then the same
  operations applied to the same arrays.
-/
import proofs.«419596_j46471546143165_2_alg».proof.Proof.KI.Host
import proofs.«419596_j46471546143165_2_alg».proof.Proof.Ref
import proofs.«419596_j46471546143165_2_alg».proof.Proof.PreDst

noncomputable section

namespace Cert.Bridge

open Idealize.ShloMosaic

/-- On destination ids that are at least 0 the kernel program's wrap of negative ids is the identity. -/
theorem wrap_dst (e : IVec Cert.KernelIdeal.S2x1600000 32)
    (hd : ∀ i, 0 ≤ (Cert.KernelIdeal.Hand.edgeRow1 e i).toInt) :
    Cert.KernelIdeal.Hand.wrapIdx (Cert.KernelIdeal.Hand.edgeRow1 e) = Cert.KernelIdeal.Hand.edgeRow1 e :=
  Cert.Pre_finite_inputs.Hand.norm_of_nonneg (Cert.KernelIdeal.Hand.edgeRow1 e) hd

/-- The aggregates of 64-feature rows agree: the widening of the taken rows is the identity on extended reals,
    and the remaining operations, dimension numbers and index arrays are the same on both sides. -/
theorem agg64_eq (e : IVec Cert.KernelIdeal.S2x1600000 32)
    (hd : ∀ i, 0 ≤ (Cert.KernelIdeal.Hand.edgeRow1 e i).toInt) (h : (Cert.Spec.SN 64).Idx → EReal) :
    Cert.KernelIdeal.Hand.aggK64 e h = Cert.ReferenceIdeal.RefValue.aggR64 e h := by
  unfold Cert.KernelIdeal.Hand.aggK64 Cert.KernelIdeal.Hand.aggOf64
  rw [wrap_dst e hd]
  rfl

/-- The aggregates of 128-feature rows agree, for the same reason. -/
theorem agg128_eq (e : IVec Cert.KernelIdeal.S2x1600000 32)
    (hd : ∀ i, 0 ≤ (Cert.KernelIdeal.Hand.edgeRow1 e i).toInt) (h : (Cert.Spec.SN 128).Idx → EReal) :
    Cert.KernelIdeal.Hand.aggK128 e h = Cert.ReferenceIdeal.RefValue.aggR128 e h := by
  unfold Cert.KernelIdeal.Hand.aggK128 Cert.KernelIdeal.Hand.aggOf128
  rw [wrap_dst e hd]
  rfl

end Cert.Bridge

end
-- ==== Proof.lean ====
/-
  The kernel (three graph-convolution layers over 100000 nodes, mean pooling over 128 graphs, a linear classifier)
  against its reference.  Both programs run to the end, fault nowhere and leave their inputs unchanged; and from equal
  inputs, over the extended reals, they end with equal results, provided no destination id of the edge list is
  negative (where the reference's segment sum indexes out of range and drops the edge, while the kernel's host
  scatter wraps the id by +100000).

  The kernel program's run is read segment by segment: three stretches of host lines (the neighbour aggregates by
  gather and accumulating scatter, the transposed weights, the graph ids laid out in 25 rows of 4000) and three
  regions (two layers, each 25 row blocks of 4000 nodes; then the third layer fused with the pooling, which keeps the
  per-graph sums and counts in scratch from block to block and stores the classifier's output at the last block).
  Each region's output array is one whole-array function of the arrays it found; composed, the result is the
  specification's network over the kernel's aggregates.  The reference's result is the same network over its own
  aggregates (the layers' sums in another order; the pooling as an accumulating scatter at the graph ids), and the
  two aggregates agree once the destination ids are non-negative.
-/
import proofs.«419596_j46471546143165_2_alg».proof.Defs
import proofs.«419596_j46471546143165_2_alg».proof.Proof.Gen.Kernel
import proofs.«419596_j46471546143165_2_alg».proof.Proof.Gen.KernelIdeal
import proofs.«419596_j46471546143165_2_alg».proof.Proof.Gen.ReferenceIdeal
import proofs.«419596_j46471546143165_2_alg».proof.Proof.Gen.Pre_finite_inputs
import proofs.«419596_j46471546143165_2_alg».proof.Proof.K.Run
import proofs.«419596_j46471546143165_2_alg».proof.Proof.KI.Run
import proofs.«419596_j46471546143165_2_alg».proof.Proof.KI.Net
import proofs.«419596_j46471546143165_2_alg».proof.Proof.Ref
import proofs.«419596_j46471546143165_2_alg».proof.Proof.Bridge
import proofs.«419596_j46471546143165_2_alg».proof.Proof.PreDst
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the last segment's contents at each
    argument walk back to the launch memory. -/
theorem frame_k : Cert.frame_Kernel (hKernel := Cert.Kernel.Gen.facts) (hPre_finite_inputs := Cert.Pre_finite_inputs.Gen.facts) :=
  fun m ρ _ =>
  (θ_run _ _ _).mono (fun r h c => ⟨(h c _ (Cert.Kernel.Hand.mem_uc Cert.Kernel.main_arg0 (by decide))).trans (Cert.Kernel.Hand.W6_main_arg0 m ρ c),
    (h c _ (Cert.Kernel.Hand.mem_uc Cert.Kernel.main_arg1 (by decide))).trans (Cert.Kernel.Hand.W6_main_arg1 m ρ c),
    (h c _ (Cert.Kernel.Hand.mem_uc Cert.Kernel.main_arg2 (by decide))).trans (Cert.Kernel.Hand.W6_main_arg2 m ρ c),
    (h c _ (Cert.Kernel.Hand.mem_uc Cert.Kernel.main_arg3 (by decide))).trans (Cert.Kernel.Hand.W6_main_arg3 m ρ c),
    (h c _ (Cert.Kernel.Hand.mem_uc Cert.Kernel.main_arg4 (by decide))).trans (Cert.Kernel.Hand.W6_main_arg4 m ρ c),
    (h c _ (Cert.Kernel.Hand.mem_uc Cert.Kernel.main_arg5 (by decide))).trans (Cert.Kernel.Hand.W6_main_arg5 m ρ c),
    (h c _ (Cert.Kernel.Hand.mem_uc Cert.Kernel.main_arg6 (by decide))).trans (Cert.Kernel.Hand.W6_main_arg6 m ρ c),
    (h c _ (Cert.Kernel.Hand.mem_uc Cert.Kernel.main_arg7 (by decide))).trans (Cert.Kernel.Hand.W6_main_arg7 m ρ c),
    (h c _ (Cert.Kernel.Hand.mem_uc Cert.Kernel.main_arg8 (by decide))).trans (Cert.Kernel.Hand.W6_main_arg8 m ρ c),
    (h c _ (Cert.Kernel.Hand.mem_uc Cert.Kernel.main_arg9 (by decide))).trans (Cert.Kernel.Hand.W6_main_arg9 m ρ c),
    (h c _ (Cert.Kernel.Hand.mem_uc Cert.Kernel.main_arg10 (by decide))).trans (Cert.Kernel.Hand.W6_main_arg10 m ρ c),
    (h c _ (Cert.Kernel.Hand.mem_uc Cert.Kernel.main_arg11 (by decide))).trans (Cert.Kernel.Hand.W6_main_arg11 m ρ c),
    (h c _ (Cert.Kernel.Hand.mem_uc Cert.Kernel.main_arg12 (by decide))).trans (Cert.Kernel.Hand.W6_main_arg12 m ρ c),
    (h c _ (Cert.Kernel.Hand.mem_uc Cert.Kernel.main_arg13 (by decide))).trans (Cert.Kernel.Hand.W6_main_arg13 m ρ c)⟩)
    (Cert.Kernel.Hand.run_all m ρ)

/-- The same for the kernel program read over the extended reals. -/
theorem frame_ki : Cert.frame_KernelIdeal (hKernelIdeal := Cert.KernelIdeal.Gen.facts) (hPre_finite_inputs := Cert.Pre_finite_inputs.Gen.facts) :=
  fun m ρ _ =>
  (θ_run _ _ _).mono (fun r h c => ⟨(h c _ (Cert.KernelIdeal.Hand.mem_uc Cert.KernelIdeal.main_arg0 (by decide))).trans (Cert.KernelIdeal.Hand.W6_main_arg0 m ρ c),
    (h c _ (Cert.KernelIdeal.Hand.mem_uc Cert.KernelIdeal.main_arg1 (by decide))).trans (Cert.KernelIdeal.Hand.W6_main_arg1 m ρ c),
    (h c _ (Cert.KernelIdeal.Hand.mem_uc Cert.KernelIdeal.main_arg2 (by decide))).trans (Cert.KernelIdeal.Hand.W6_main_arg2 m ρ c),
    (h c _ (Cert.KernelIdeal.Hand.mem_uc Cert.KernelIdeal.main_arg3 (by decide))).trans (Cert.KernelIdeal.Hand.W6_main_arg3 m ρ c),
    (h c _ (Cert.KernelIdeal.Hand.mem_uc Cert.KernelIdeal.main_arg4 (by decide))).trans (Cert.KernelIdeal.Hand.W6_main_arg4 m ρ c),
    (h c _ (Cert.KernelIdeal.Hand.mem_uc Cert.KernelIdeal.main_arg5 (by decide))).trans (Cert.KernelIdeal.Hand.W6_main_arg5 m ρ c),
    (h c _ (Cert.KernelIdeal.Hand.mem_uc Cert.KernelIdeal.main_arg6 (by decide))).trans (Cert.KernelIdeal.Hand.W6_main_arg6 m ρ c),
    (h c _ (Cert.KernelIdeal.Hand.mem_uc Cert.KernelIdeal.main_arg7 (by decide))).trans (Cert.KernelIdeal.Hand.W6_main_arg7 m ρ c),
    (h c _ (Cert.KernelIdeal.Hand.mem_uc Cert.KernelIdeal.main_arg8 (by decide))).trans (Cert.KernelIdeal.Hand.W6_main_arg8 m ρ c),
    (h c _ (Cert.KernelIdeal.Hand.mem_uc Cert.KernelIdeal.main_arg9 (by decide))).trans (Cert.KernelIdeal.Hand.W6_main_arg9 m ρ c),
    (h c _ (Cert.KernelIdeal.Hand.mem_uc Cert.KernelIdeal.main_arg10 (by decide))).trans (Cert.KernelIdeal.Hand.W6_main_arg10 m ρ c),
    (h c _ (Cert.KernelIdeal.Hand.mem_uc Cert.KernelIdeal.main_arg11 (by decide))).trans (Cert.KernelIdeal.Hand.W6_main_arg11 m ρ c),
    (h c _ (Cert.KernelIdeal.Hand.mem_uc Cert.KernelIdeal.main_arg12 (by decide))).trans (Cert.KernelIdeal.Hand.W6_main_arg12 m ρ c),
    (h c _ (Cert.KernelIdeal.Hand.mem_uc Cert.KernelIdeal.main_arg13 (by decide))).trans (Cert.KernelIdeal.Hand.W6_main_arg13 m ρ c)⟩)
    (Cert.KernelIdeal.Hand.run_all m ρ)

/-- The reference program runs and leaves its arguments as launched. -/
theorem frame_r : Cert.frame_ReferenceIdeal (hReferenceIdeal := Cert.ReferenceIdeal.Gen.facts) (hPre_finite_inputs := Cert.Pre_finite_inputs.Gen.facts) :=
  Cert.ReferenceIdeal.RefValue.frame_ref

/-- The ideal pass rewrote nothing: the idealized kernel is the kernel's own text read over the extended reals. -/
theorem preserves : Cert.preserves_Kernel_KernelIdeal := trivial

/-- From memories agreeing on the arguments, with no negative destination id, both programs end at the
    specification's network of the arguments: the kernel's over its own neighbour aggregate, the reference's over
    its own, and the two aggregates are one function once the destination ids need no wrapping. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W6 (F := Ideal) m ρ c (Proc.devRef .tc Cert.KernelIdeal.main_v63), ?_, ?_⟩
  · exact (θ_run _ _ _).mono (fun r h c => ⟨h c _ (Cert.KernelIdeal.Hand.mem_uc Cert.KernelIdeal.main_v63 (by decide)),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c),
      (h c _ (Cert.KernelIdeal.Hand.mem_uc Cert.KernelIdeal.main_arg5 (by decide))).trans (Cert.KernelIdeal.Hand.W6_main_arg5 m ρ c),
      (h c _ (Cert.KernelIdeal.Hand.mem_uc Cert.KernelIdeal.main_arg6 (by decide))).trans (Cert.KernelIdeal.Hand.W6_main_arg6 m ρ c),
      (h c _ (Cert.KernelIdeal.Hand.mem_uc Cert.KernelIdeal.main_arg7 (by decide))).trans (Cert.KernelIdeal.Hand.W6_main_arg7 m ρ c),
      (h c _ (Cert.KernelIdeal.Hand.mem_uc Cert.KernelIdeal.main_arg8 (by decide))).trans (Cert.KernelIdeal.Hand.W6_main_arg8 m ρ c),
      (h c _ (Cert.KernelIdeal.Hand.mem_uc Cert.KernelIdeal.main_arg9 (by decide))).trans (Cert.KernelIdeal.Hand.W6_main_arg9 m ρ c),
      (h c _ (Cert.KernelIdeal.Hand.mem_uc Cert.KernelIdeal.main_arg10 (by decide))).trans (Cert.KernelIdeal.Hand.W6_main_arg10 m ρ c),
      (h c _ (Cert.KernelIdeal.Hand.mem_uc Cert.KernelIdeal.main_arg11 (by decide))).trans (Cert.KernelIdeal.Hand.W6_main_arg11 m ρ c),
      (h c _ (Cert.KernelIdeal.Hand.mem_uc Cert.KernelIdeal.main_arg12 (by decide))).trans (Cert.KernelIdeal.Hand.W6_main_arg12 m ρ c),
      (h c _ (Cert.KernelIdeal.Hand.mem_uc Cert.KernelIdeal.main_arg13 (by decide))).trans (Cert.KernelIdeal.Hand.W6_main_arg13 m ρ c)⟩)
      (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    have hd : ∀ i, 0 ≤ (Cert.KernelIdeal.Hand.edgeRow1 (m ((c.tc : Thread Cert.KernelIdeal.nD Cert.KernelIdeal.τ).loc Cert.KernelIdeal.main_arg1)) i).toInt :=
      fun i => Cert.Pre_finite_inputs.Hand.dst_nonneg _ _ _ _ _ _ _ _ _ _ _ _ _ _ (hpre c) i
    rw [Cert.ReferenceIdeal.Read.val_main_v76_eq, Cert.ReferenceIdeal.RefValue.ref_net,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1,
      (hagree c).2.2.2.2.2.2.2.2.2.2.2.2.2]
    show _ = Cert.KernelIdeal.Hand.W6 (F := Ideal) m ρ c (Proc.devRef .tc Cert.KernelIdeal.main_v63)
    rw [Cert.KernelIdeal.Hand.kernel_net m ρ c,
      show Cert.KernelIdeal.Hand.aggK64 (m ((c.tc : Thread Cert.KernelIdeal.nD Cert.KernelIdeal.τ).loc Cert.KernelIdeal.main_arg1))
          = Cert.ReferenceIdeal.RefValue.aggR64 (m ((c.tc : Thread Cert.KernelIdeal.nD Cert.KernelIdeal.τ).loc Cert.KernelIdeal.main_arg1))
        from funext (Cert.Bridge.agg64_eq _ hd),
      show Cert.KernelIdeal.Hand.aggK128 (m ((c.tc : Thread Cert.KernelIdeal.nD Cert.KernelIdeal.τ).loc Cert.KernelIdeal.main_arg1))
          = Cert.ReferenceIdeal.RefValue.aggR128 (m ((c.tc : Thread Cert.KernelIdeal.nD Cert.KernelIdeal.τ).loc Cert.KernelIdeal.main_arg1))
        from funext (Cert.Bridge.agg128_eq _ hd)]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
